-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x32x128 : Shape := ⟨4, ![4, 16, 32, 128]⟩
abbrev S4096x64 : Shape := ⟨2, ![4096, 64]⟩
abbrev S4x4096x32x128 : Shape := ⟨4, ![4, 4096, 32, 128]⟩
abbrev S4x16 : Shape := ⟨2, ![4, 16]⟩
abbrev S_ : Shape := ⟨0, ![]⟩

class Facts : Prop where
  bcast_S_S4x16x32x128 : S_.BroadcastsInDim S4x16x32x128 (![] : Fin 0 → Fin S4x16x32x128.rank)
  reducesTo_S4x16x32x128_S_d0_1_2_3 : S4x16x32x128.ReducesTo [0, 1, 2, 3] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4x4096x32x128 : S_.BroadcastsInDim S4x4096x32x128 (![] : Fin 0 → Fin S4x4096x32x128.rank)
  reducesTo_S4x4096x32x128_S_d0_1_2_3 : S4x4096x32x128.ReducesTo [0, 1, 2, 3] S_
  bcast_S_S4x16 : S_.BroadcastsInDim S4x16 (![] : Fin 0 → Fin S4x16.rank)
  reducesTo_S4x16_S_d0_1 : S4x16.ReducesTo [0, 1] S_

variable [Facts]

def fn_part1 {F : FTy → Type} [FloatOps F] (main_arg4 : FVec F S4x4096x32x128 .f32) (main_arg5 : FVec F S4x4096x32x128 .f32) (main_arg6 : IVec S4x16 32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S4x4096x32x128 .f32 := Host.absf main_arg4
  let main_cst_6 : FVec F S_ .f32 := constant S_ .f32 0x7F800000#32
  let main_v20 : FVec F S4x4096x32x128 .f32 := broadcastInDim S4x4096x32x128 ![] bcast_S_S4x4096x32x128 main_cst_6
  let main_v21 : IVec S4x4096x32x128 1 := cmpf .olt main_v19 main_v20
  let main_c_7 : IVec S_ 1 := constantI S_ 1 1#1
  let main_v22 : IVec S_ 1 := (fun x v => Host.reduce IntOp.andi x v reducesTo_S4x4096x32x128_S_d0_1_2_3 h_S_) main_v21 main_c_7
  let main_v23 : IVec S_ 1 := andi main_v18 main_v22
  let main_v24 : FVec F S4x4096x32x128 .f32 := Host.absf main_arg5
  let main_cst_8 : FVec F S_ .f32 := constant S_ .f32 0x7F800000#32
  let main_v25 : FVec F S4x4096x32x128 .f32 := broadcastInDim S4x4096x32x128 ![] bcast_S_S4x4096x32x128 main_cst_8
  let main_v26 : IVec S4x4096x32x128 1 := cmpf .olt main_v24 main_v25
  let main_c_9 : IVec S_ 1 := constantI S_ 1 1#1
  let main_v27 : IVec S_ 1 := (fun x v => Host.reduce IntOp.andi x v reducesTo_S4x4096x32x128_S_d0_1_2_3 h_S_) main_v26 main_c_9
  let main_v28 : IVec S_ 1 := andi main_v23 main_v27
  let main_c_10 : IVec S_ 32 := constantI S_ 32 0#32
  let main_v29 : IVec S4x16 32 := broadcastInDim S4x16 ![] bcast_S_S4x16 main_c_10
  let main_v30 : IVec S4x16 1 := cmpi .sge main_arg6 main_v29
  let main_c_11 : IVec S_ 1 := constantI S_ 1 1#1
  let main_v31 : IVec S_ 1 := (fun x v => Host.reduce IntOp.andi x v reducesTo_S4x16_S_d0_1 h_S_) main_v30 main_c_11
  let main_v32 : IVec S_ 1 := andi main_v28 main_v31
  main_v32

def fn {F : FTy → Type} [FloatOps F] (main_arg0 : FVec F S4x16x32x128 .f32) (main_arg1 : FVec F S4x16x32x128 .f32) (main_arg2 : FVec F S4096x64 .f32) (main_arg3 : FVec F S4096x64 .f32) (main_arg4 : FVec F S4x4096x32x128 .f32) (main_arg5 : FVec F S4x4096x32x128 .f32) (main_arg6 : IVec S4x16 32) : IVec S_ 1 :=
  let main_v0 : FVec F S4x16x32x128 .f32 := Host.absf main_arg0
  let main_cst : FVec F S_ .f32 := constant S_ .f32 0x7F800000#32
  let main_v1 : FVec F S4x16x32x128 .f32 := broadcastInDim S4x16x32x128 ![] bcast_S_S4x16x32x128 main_cst
  let main_v2 : IVec S4x16x32x128 1 := cmpf .olt main_v0 main_v1
  let main_c : IVec S_ 1 := constantI S_ 1 1#1
  let main_v3 : IVec S_ 1 := (fun x v => Host.reduce IntOp.andi x v reducesTo_S4x16x32x128_S_d0_1_2_3 h_S_) main_v2 main_c
  let main_v4 : FVec F S4x16x32x128 .f32 := Host.absf main_arg1
  let main_cst_0 : FVec F S_ .f32 := constant S_ .f32 0x7F800000#32
  let main_v5 : FVec F S4x16x32x128 .f32 := broadcastInDim S4x16x32x128 ![] bcast_S_S4x16x32x128 main_cst_0
  let main_v6 : IVec S4x16x32x128 1 := cmpf .olt main_v4 main_v5
  let main_c_1 : IVec S_ 1 := constantI S_ 1 1#1
  let main_v7 : IVec S_ 1 := (fun x v => Host.reduce IntOp.andi x v reducesTo_S4x16x32x128_S_d0_1_2_3 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_arg5 main_arg6 main_v13 main_v16
-- ==== Kernel.lean ====
abbrev S4x16x32x128 : Shape := ⟨4, ![4, 16, 32, 128]⟩
abbrev S4096x64 : Shape := ⟨2, ![4096, 64]⟩
abbrev S4x4096x32x128 : Shape := ⟨4, ![4, 4096, 32, 128]⟩
abbrev S4x16 : Shape := ⟨2, ![4, 16]⟩
abbrev S_ : Shape := ⟨0, ![]⟩
abbrev S4x16x1 : Shape := ⟨3, ![4, 16, 1]⟩
abbrev S4x16x64 : Shape := ⟨3, ![4, 16, 64]⟩
abbrev S4x16x1x64 : Shape := ⟨4, ![4, 16, 1, 64]⟩
abbrev S4x16x32x64x2 : Shape := ⟨5, ![4, 16, 32, 64, 2]⟩
abbrev S4x16x32x64x1 : Shape := ⟨5, ![4, 16, 32, 64, 1]⟩
abbrev S4x16x32x64 : Shape := ⟨4, ![4, 16, 32, 64]⟩
abbrev S2x4x4096x32x128 : Shape := ⟨5, ![2, 4, 4096, 32, 128]⟩
abbrev S1x16x32x128 : Shape := ⟨4, ![1, 16, 32, 128]⟩
abbrev S2 : Shape := ⟨1, ![2]⟩
abbrev S1 : Shape := ⟨1, ![1]⟩
abbrev S1x1x4096x32x128 : Shape := ⟨5, ![1, 1, 4096, 32, 128]⟩
abbrev S4096x32x128 : Shape := ⟨3, ![4096, 32, 128]⟩
abbrev S1x4096x32x128 : Shape := ⟨4, ![1, 4096, 32, 128]⟩
abbrev S1x1 : Shape := ⟨2, ![1, 1]⟩
abbrev S1x1x1x32x128 : Shape := ⟨5, ![1, 1, 1, 32, 128]⟩
abbrev S32x128 : Shape := ⟨2, ![32, 128]⟩
abbrev S1x1x32x128 : Shape := ⟨4, ![1, 1, 32, 128]⟩

abbrev nBuf : Space → Nat
  | .hbm => 46
  | .vmem => 4
  | .smem => 1
  | _ => 0

abbrev bufTy : (tb : Table) → Fin (tcTables nBuf tb) → BufTy
  | .hbm, ⟨0, _⟩ => ⟨S4x16x32x128, .f32⟩
  | .hbm, ⟨1, _⟩ => ⟨S4x16x32x128, .f32⟩
  | .hbm, ⟨2, _⟩ => ⟨S4096x64, .f32⟩
  | .hbm, ⟨3, _⟩ => ⟨S4096x64, .f32⟩
  | .hbm, ⟨4, _⟩ => ⟨S4x4096x32x128, .f32⟩
  | .hbm, ⟨5, _⟩ => ⟨S4x4096x32x128, .f32⟩
  | .hbm, ⟨6, _⟩ => ⟨S_, .i32⟩
  | .hbm, ⟨7, _⟩ => ⟨S4x16, .i32⟩
  | .hbm, ⟨8, _⟩ => ⟨S4x16, .i1⟩
  | .hbm, ⟨9, _⟩ => ⟨S_, .i32⟩
  | .hbm, ⟨10, _⟩ => ⟨S4x16, .i32⟩
  | .hbm, ⟨11, _⟩ => ⟨S4x16, .i32⟩
  | .hbm, ⟨12, _⟩ => ⟨S4x16, .i32⟩
  | .hbm, ⟨13, _⟩ => ⟨S4x16x1, .i32⟩
  | .hbm, ⟨14, _⟩ => ⟨S4x16x64, .f32⟩
  | .hbm, ⟨15, _⟩ => ⟨S4x16x1x64, .f32⟩
  | .hbm, ⟨16, _⟩ => ⟨S_, .i32⟩
  | .hbm, ⟨17, _⟩ => ⟨S4x16, .i32⟩
  | .hbm, ⟨18, _⟩ => ⟨S4x16, .i1⟩
  | .hbm, ⟨19, _⟩ => ⟨S_, .i32⟩
  | .hbm, ⟨20, _⟩ => ⟨S4x16, .i32⟩
  | .hbm, ⟨21, _⟩ => ⟨S4x16, .i32⟩
  | .hbm, ⟨22, _⟩ => ⟨S4x16, .i32⟩
  | .hbm, ⟨23, _⟩ => ⟨S4x16x1, .i32⟩
  | .hbm, ⟨24, _⟩ => ⟨S4x16x64, .f32⟩
  | .hbm, ⟨25, _⟩ => ⟨S4x16x1x64, .f32⟩
  | .hbm, ⟨26, _⟩ => ⟨S4x16x32x64x2, .f32⟩
  | .hbm, ⟨27, _⟩ => ⟨S4x16x32x64x1, .f32⟩
  | .hbm, ⟨28, _⟩ => ⟨S4x16x32x64, .f32⟩
  | .hbm, ⟨29, _⟩ => ⟨S4x16x32x64x1, .f32⟩
  | .hbm, ⟨30, _⟩ => ⟨S4x16x32x64, .f32⟩
  | .hbm, ⟨31, _⟩ => ⟨S4x16x32x64, .f32⟩
  | .hbm, ⟨32, _⟩ => ⟨S4x16x32x64, .f32⟩
  | .hbm, ⟨33, _⟩ => ⟨S4x16x32x64, .f32⟩
  | .hbm, ⟨34, _⟩ => ⟨S4x16x32x64, .f32⟩
  | .hbm, ⟨35, _⟩ => ⟨S4x16x32x64, .f32⟩
  | .hbm, ⟨36, _⟩ => ⟨S4x16x32x64, .f32⟩
  | .hbm, ⟨37, _⟩ => ⟨S4x16x32x64, .f32⟩
  | .hbm, ⟨38, _⟩ => ⟨S4x16x32x64, .f32⟩
  | .hbm, ⟨39, _⟩ => ⟨S4x16x32x64, .f32⟩
  | .hbm, ⟨40, _⟩ => ⟨S4x16x32x64, .f32⟩
  | .hbm, ⟨41, _⟩ => ⟨S4x16x32x64x1, .f32⟩
  | .hbm, ⟨42, _⟩ => ⟨S4x16x32x64x1, .f32⟩
  | .hbm, ⟨43, _⟩ => ⟨S4x16x32x64x2, .f32⟩
  | .hbm, ⟨44, _⟩ => ⟨S4x16x32x128, .f32⟩
  | .hbm, ⟨45, _⟩ => ⟨S2x4x4096x32x128, .f32⟩
  | .local _ .vmem, ⟨0, _⟩ => ⟨S1x16x32x128, .f32⟩
  | .local _ .vmem, ⟨1, _⟩ => ⟨S1x16x32x128, .f32⟩
  | .local _ .vmem, ⟨2, _⟩ => ⟨S1x16x32x128, .f32⟩
  | .local _ .vmem, ⟨3, _⟩ => ⟨S1x16x32x128, .f32⟩
  | .local _ .smem, ⟨0, _⟩ => ⟨S4x16, .i32⟩
  | _, _ => ⟨S4x16x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 5 → Nat :=
  let c0_i32 : BitVec 32 := 0#32
  let arg0 : BitVec 32 := BitVec.ofNat 32 (i 0).val
  let c0_i32_1 : BitVec 32 := 0#32
  let c0_i32_2 : BitVec 32 := 0#32
  let c0_i32_3 : BitVec 32 := 0#32
  ![0, arg0.toNat, 0, 0, 0]
def k0_off2 (i : grid0.Coords) : Fin 4 → Nat :=
  let arg0 : BitVec 32 := BitVec.ofNat 32 (i 0).val
  let c0_i32_4 : BitVec 32 := 0#32
  let c0_i32_5 : BitVec 32 := 0#32
  let c0_i32_6 : BitVec 32 := 0#32
  ![arg0.toNat, 0, 0, 0]
def k0_off3 (i : grid0.Coords) : Fin 5 → Nat :=
  let c1_i32 : BitVec 32 := 1#32
  let arg0 : BitVec 32 := BitVec.ofNat 32 (i 0).val
  let c0_i32_8 : BitVec 32 := 0#32
  let c0_i32_9 : BitVec 32 := 0#32
  let c0_i32_10 : BitVec 32 := 0#32
  ![1, arg0.toNat, 0, 0, 0]
def k0_off4 (i : grid0.Coords) : Fin 2 → Nat :=
  let arg0 : BitVec 32 := BitVec.ofNat 32 (i 0).val
  let v24 : Index := Scalar.indexCast arg0
  let c0 : Index := 0#32
  ![v24.toNat, 0]
def k0_off5 (i : grid0.Coords) (v25 : BitVec 32) : Fin 5 → Nat :=
  let c0_i32_79 : BitVec 32 := 0#32
  let arg0 : BitVec 32 := BitVec.ofNat 32 (i 0).val
  let c0_i32_81 : BitVec 32 := 0#32
  let c0_i32_82 : BitVec 32 := 0#32
  ![0, arg0.toNat, v25.toNat, 0, 0]
def k0_cond1 (v25 : BitVec 32) : BitVec 1 :=
  let c0_i32_30 : BitVec 32 := 0#32
  let v26 : BitVec 1 := Scalar.cmpi .sge v25 c0_i32_30
  let c4096_i32 : BitVec 32 := 4096#32
  let v27 : BitVec 1 := Scalar.cmpi .slt v25 c4096_i32
  let v28 : BitVec 1 := Scalar.andi v26 v27
  let v29 : BitVec 32 := Scalar.extui v28
  let c0_i32_31 : BitVec 32 := 0#32
  let v30 : BitVec 1 := Scalar.cmpi .ne v29 c0_i32_31
  v30

def k0_off6 (i : grid0.Coords) (v25 : BitVec 32) : Fin 5 → Nat :=
  let c1_i32_87 : BitVec 32 := 1#32
  let arg0 : BitVec 32 := BitVec.ofNat 32 (i 0).val
  let c0_i32_89 : BitVec 32 := 0#32
  let c0_i32_90 : BitVec 32 := 0#32
  ![1, arg0.toNat, v25.toNat, 0, 0]

def k0_chk1 (i : grid0.Coords) (v25 : BitVec 32) : Prop :=
  (∀ (k0_h1 : k0_cond1 v25 = 1#1), ∀ a, (k0_off5 i v25) a + S1x1x1x32x128.size a ≤ S2x4x4096x32x128.size a) ∧
  (∀ (k0_h1 : k0_cond1 v25 = 1#1), ∀ a, (k0_off6 i v25) a + S1x1x1x32x128.size a ≤ S2x4x4096x32x128.size a)
instance k0_chk1.dec : ∀ (i : grid0.Coords) (v25 : BitVec 32), Decidable (k0_chk1 i v25) := fun i v25 => decidable_of_iff' _ (Iff.of_eq (k0_chk1.eq_1 i v25))
theorem k0_off5_inb : ∀ (i : grid0.Coords) (v25 : BitVec 32) (k0_hw1 : k0_chk1 i v25), ∀ (k0_h1 : k0_cond1 v25 = 1#1), ∀ a, (k0_off5 i v25) a + S1x1x1x32x128.size a ≤ S2x4x4096x32x128.size a := fun i v25 k0_hw1 k0_h1 => k0_hw1.1 k0_h1
theorem k0_off6_inb : ∀ (i : grid0.Coords) (v25 : BitVec 32) (k0_hw1 : k0_chk1 i v25), ∀ (k0_h1 : k0_cond1 v25 = 1#1), ∀ a, (k0_off6 i v25) a + S1x1x1x32x128.size a ≤ S2x4x4096x32x128.size a := fun i v25 k0_hw1 k0_h1 => k0_hw1.2 k0_h1

def k0_off7 (i : grid0.Coords) : Fin 2 → Nat :=
  let arg0 : BitVec 32 := BitVec.ofNat 32 (i 0).val
  let v31 : Index := Scalar.indexCast arg0
  let c1 : Index := 1#32
  ![v31.toNat, 1]
def k0_off8 (i : grid0.Coords) (v32 : BitVec 32) : Fin 5 → Nat :=
  let c0_i32_79 : BitVec 32 := 0#32
  let arg0 : BitVec 32 := BitVec.ofNat 32 (i 0).val
  let c0_i32_81 : BitVec 32 := 0#32
  let c0_i32_82 : BitVec 32 := 0#32
  ![0, arg0.toNat, v32.toNat, 0, 0]
def k0_cond2 (v32 : BitVec 32) : BitVec 1 :=
  let c0_i32_32 : BitVec 32 := 0#32
  let v33 : BitVec 1 := Scalar.cmpi .sge v32 c0_i32_32
  let c4096_i32_33 : BitVec 32 := 4096#32
  let v34 : BitVec 1 := Scalar.cmpi .slt v32 c4096_i32_33
  let v35 : BitVec 1 := Scalar.andi v33 v34
  let v36 : BitVec 32 := Scalar.extui v35
  let c0_i32_34 : BitVec 32 := 0#32
  let v37 : BitVec 1 := Scalar.cmpi .ne v36 c0_i32_34
  v37

def k0_off9 (i : grid0.Coords) (v32 : BitVec 32) : Fin 5 → Nat :=
  let c1_i32_87 : BitVec 32 := 1#32
  let arg0 : BitVec 32 := BitVec.ofNat 32 (i 0).val
  let c0_i32_89 : BitVec 32 := 0#32
  let c0_i32_90 : BitVec 32 := 0#32
  ![1, arg0.toNat, v32.toNat, 0, 0]

def k0_chk2 (i : grid0.Coords) (v32 : BitVec 32) : Prop :=
  (∀ (k0_h2 : k0_cond2 v32 = 1#1), ∀ a, (k0_off8 i v32) a + S1x1x1x32x128.size a ≤ S2x4x4096x32x128.size a) ∧
  (∀ (k0_h2 : k0_cond2 v32 = 1#1), ∀ a, (k0_off9 i v32) a + S1x1x1x32x128.size a ≤ S2x4x4096x32x128.size a)
instance k0_chk2.dec : ∀ (i : grid0.Coords) (v32 : BitVec 32), Decidable (k0_chk2 i v32) := fun i v32 => decidable_of_iff' _ (Iff.of_eq (k0_chk2.eq_1 i v32))
theorem k0_off8_inb : ∀ (i : grid0.Coords) (v32 : BitVec 32) (k0_hw2 : k0_chk2 i v32), ∀ (k0_h2 : k0_cond2 v32 = 1#1), ∀ a, (k0_off8 i v32) a + S1x1x1x32x128.size a ≤ S2x4x4096x32x128.size a := fun i v32 k0_hw2 k0_h2 => k0_hw2.1 k0_h2
theorem k0_off9_inb : ∀ (i : grid0.Coords) (v32 : BitVec 32) (k0_hw2 : k0_chk2 i v32), ∀ (k0_h2 : k0_cond2 v32 = 1#1), ∀ a, (k0_off9 i v32) a + S1x1x1x32x128.size a ≤ S2x4x4096x32x128.size a := fun i v32 k0_hw2 k0_h2 => k0_hw2.2 k0_h2

def k0_off10 (i : grid0.Coords) : Fin 2 → Nat :=
  let arg0 : BitVec 32 := BitVec.ofNat 32 (i 0).val
  let v38 : Index := Scalar.indexCast arg0
  let c2 : Index := 2#32
  ![v38.toNat, 2]
def k0_off11 (i : grid0.Coords) (v39 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v39.toNat, 0, 0]
def k0_cond3 (v39 : BitVec 32) : BitVec 1 :=
  let c0_i32_35 : BitVec 32 := 0#32
  let v40 : BitVec 1 := Scalar.cmpi .sge v39 c0_i32_35
  let c4096_i32_36 : BitVec 32 := 4096#32
  let v41 : BitVec 1 := Scalar.cmpi .slt v39 c4096_i32_36
  let v42 : BitVec 1 := Scalar.andi v40 v41
  let v43 : BitVec 32 := Scalar.extui v42
  let c0_i32_37 : BitVec 32 := 0#32
  let v44 : BitVec 1 := Scalar.cmpi .ne v43 c0_i32_37
  v44

def k0_off12 (i : grid0.Coords) (v39 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v39.toNat, 0, 0]

def k0_chk3 (i : grid0.Coords) (v39 : BitVec 32) : Prop :=
  (∀ (k0_h3 : k0_cond3 v39 = 1#1), ∀ a, (k0_off11 i v39) a + S1x1x1x32x128.size a ≤ S2x4x4096x32x128.size a) ∧
  (∀ (k0_h3 : k0_cond3 v39 = 1#1), ∀ a, (k0_off12 i v39) a + S1x1x1x32x128.size a ≤ S2x4x4096x32x128.size a)
instance k0_chk3.dec : ∀ (i : grid0.Coords) (v39 : BitVec 32), Decidable (k0_chk3 i v39) := fun i v39 => decidable_of_iff' _ (Iff.of_eq (k0_chk3.eq_1 i v39))
theorem k0_off11_inb : ∀ (i : grid0.Coords) (v39 : BitVec 32) (k0_hw3 : k0_chk3 i v39), ∀ (k0_h3 : k0_cond3 v39 = 1#1), ∀ a, (k0_off11 i v39) a + S1x1x1x32x128.size a ≤ S2x4x4096x32x128.size a := fun i v39 k0_hw3 k0_h3 => k0_hw3.1 k0_h3
theorem k0_off12_inb : ∀ (i : grid0.Coords) (v39 : BitVec 32) (k0_hw3 : k0_chk3 i v39), ∀ (k0_h3 : k0_cond3 v39 = 1#1), ∀ a, (k0_off12 i v39) a + S1x1x1x32x128.size a ≤ S2x4x4096x32x128.size a := fun i v39 k0_hw3 k0_h3 => k0_hw3.2 k0_h3

def k0_off13 (i : grid0.Coords) : Fin 2 → Nat :=
  let arg0 : BitVec 32 := BitVec.ofNat 32 (i 0).val
  let v45 : Index := Scalar.indexCast arg0
  let c3 : Index := 3#32
  ![v45.toNat, 3]
def k0_off14 (i : grid0.Coords) (v46 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v46.toNat, 0, 0]
def k0_cond4 (v46 : BitVec 32) : BitVec 1 :=
  let c0_i32_38 : BitVec 32 := 0#32
  let v47 : BitVec 1 := Scalar.cmpi .sge v46 c0_i32_38
  let c4096_i32_39 : BitVec 32 := 4096#32
  let v48 : BitVec 1 := Scalar.cmpi .slt v46 c4096_i32_39
  let v49 : BitVec 1 := Scalar.andi v47 v48
  let v50 : BitVec 32 := Scalar.extui v49
  let c0_i32_40 : BitVec 32 := 0#32
  let v51 : BitVec 1 := Scalar.cmpi .ne v50 c0_i32_40
  v51

def k0_off15 (i : grid0.Coords) (v46 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v46.toNat, 0, 0]

def k0_chk4 (i : grid0.Coords) (v46 : BitVec 32) : Prop :=
  (∀ (k0_h4 : k0_cond4 v46 = 1#1), ∀ a, (k0_off14 i v46) a + S1x1x1x32x128.size a ≤ S2x4x4096x32x128.size a) ∧
  (∀ (k0_h4 : k0_cond4 v46 = 1#1), ∀ a, (k0_off15 i v46) a + S1x1x1x32x128.size a ≤ S2x4x4096x32x128.size a)
instance k0_chk4.dec : ∀ (i : grid0.Coords) (v46 : BitVec 32), Decidable (k0_chk4 i v46) := fun i v46 => decidable_of_iff' _ (Iff.of_eq (k0_chk4.eq_1 i v46))
theorem k0_off14_inb : ∀ (i : grid0.Coords) (v46 : BitVec 32) (k0_hw4 : k0_chk4 i v46), ∀ (k0_h4 : k0_cond4 v46 = 1#1), ∀ a, (k0_off14 i v46) a + S1x1x1x32x128.size a ≤ S2x4x4096x32x128.size a := fun i v46 k0_hw4 k0_h4 => k0_hw4.1 k0_h4
theorem k0_off15_inb : ∀ (i : grid0.Coords) (v46 : BitVec 32) (k0_hw4 : k0_chk4 i v46), ∀ (k0_h4 : k0_cond4 v46 = 1#1), ∀ a, (k0_off15 i v46) a + S1x1x1x32x128.size a ≤ S2x4x4096x32x128.size a := fun i v46 k0_hw4 k0_h4 => k0_hw4.2 k0_h4

def k0_off16 (i : grid0.Coords) : Fin 2 → Nat :=
  let arg0 : BitVec 32 := BitVec.ofNat 32 (i 0).val
  let v52 : Index := Scalar.indexCast arg0
  let c4 : Index := 4#32
  ![v52.toNat, 4]
def k0_off17 (i : grid0.Coords) (v53 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v53.toNat, 0, 0]
def k0_cond5 (v53 : BitVec 32) : BitVec 1 :=
  let c0_i32_41 : BitVec 32 := 0#32
  let v54 : BitVec 1 := Scalar.cmpi .sge v53 c0_i32_41
  let c4096_i32_42 : BitVec 32 := 4096#32
  let v55 : BitVec 1 := Scalar.cmpi .slt v53 c4096_i32_42
  let v56 : BitVec 1 := Scalar.andi v54 v55
  let v57 : BitVec 32 := Scalar.extui v56
  let c0_i32_43 : BitVec 32 := 0#32
  let v58 : BitVec 1 := Scalar.cmpi .ne v57 c0_i32_43
  v58

def k0_off18 (i : grid0.Coords) (v53 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v53.toNat, 0, 0]

def k0_chk5 (i : grid0.Coords) (v53 : BitVec 32) : Prop :=
  (∀ (k0_h5 : k0_cond5 v53 = 1#1), ∀ a, (k0_off17 i v53) a + S1x1x1x32x128.size a ≤ S2x4x4096x32x128.size a) ∧
  (∀ (k0_h5 : k0_cond5 v53 = 1#1), ∀ a, (k0_off18 i v53) a + S1x1x1x32x128.size a ≤ S2x4x4096x32x128.size a)
instance k0_chk5.dec : ∀ (i : grid0.Coords) (v53 : BitVec 32), Decidable (k0_chk5 i v53) := fun i v53 => decidable_of_iff' _ (Iff.of_eq (k0_chk5.eq_1 i v53))
theorem k0_off17_inb : ∀ (i : grid0.Coords) (v53 : BitVec 32) (k0_hw5 : k0_chk5 i v53), ∀ (k0_h5 : k0_cond5 v53 = 1#1), ∀ a, (k0_off17 i v53) a + S1x1x1x32x128.size a ≤ S2x4x4096x32x128.size a := fun i v53 k0_hw5 k0_h5 => k0_hw5.1 k0_h5
theorem k0_off18_inb : ∀ (i : grid0.Coords) (v53 : BitVec 32) (k0_hw5 : k0_chk5 i v53), ∀ (k0_h5 : k0_cond5 v53 = 1#1), ∀ a, (k0_off18 i v53) a + S1x1x1x32x128.size a ≤ S2x4x4096x32x128.size a := fun i v53 k0_hw5 k0_h5 => k0_hw5.2 k0_h5

def k0_off19 (i : grid0.Coords) : Fin 2 → Nat :=
  let arg0 : BitVec 32 := BitVec.ofNat 32 (i 0).val
  let v59 : Index := Scalar.indexCast arg0
  let c5 : Index := 5#32
  ![v59.toNat, 5]
def k0_off20 (i : grid0.Coords) (v60 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v60.toNat, 0, 0]
def k0_cond6 (v60 : BitVec 32) : BitVec 1 :=
  let c0_i32_44 : BitVec 32 := 0#32
  let v61 : BitVec 1 := Scalar.cmpi .sge v60 c0_i32_44
  let c4096_i32_45 : BitVec 32 := 4096#32
  let v62 : BitVec 1 := Scalar.cmpi .slt v60 c4096_i32_45
  let v63 : BitVec 1 := Scalar.andi v61 v62
  let v64 : BitVec 32 := Scalar.extui v63
  let c0_i32_46 : BitVec 32 := 0#32
  let v65 : BitVec 1 := Scalar.cmpi .ne v64 c0_i32_46
  v65

def k0_off21 (i : grid0.Coords) (v60 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v60.toNat, 0, 0]

def k0_chk6 (i : grid0.Coords) (v60 : BitVec 32) : Prop :=
  (∀ (k0_h6 : k0_cond6 v60 = 1#1), ∀ a, (k0_off20 i v60) a + S1x1x1x32x128.size a ≤ S2x4x4096x32x128.size a) ∧
  (∀ (k0_h6 : k0_cond6 v60 = 1#1), ∀ a, (k0_off21 i v60) a + S1x1x1x32x128.size a ≤ S2x4x4096x32x128.size a)
instance k0_chk6.dec : ∀ (i : grid0.Coords) (v60 : BitVec 32), Decidable (k0_chk6 i v60) := fun i v60 => decidable_of_iff' _ (Iff.of_eq (k0_chk6.eq_1 i v60))
theorem k0_off20_inb : ∀ (i : grid0.Coords) (v60 : BitVec 32) (k0_hw6 : k0_chk6 i v60), ∀ (k0_h6 : k0_cond6 v60 = 1#1), ∀ a, (k0_off20 i v60) a + S1x1x1x32x128.size a ≤ S2x4x4096x32x128.size a := fun i v60 k0_hw6 k0_h6 => k0_hw6.1 k0_h6
theorem k0_off21_inb : ∀ (i : grid0.Coords) (v60 : BitVec 32) (k0_hw6 : k0_chk6 i v60), ∀ (k0_h6 : k0_cond6 v60 = 1#1), ∀ a, (k0_off21 i v60) a + S1x1x1x32x128.size a ≤ S2x4x4096x32x128.size a := fun i v60 k0_hw6 k0_h6 => k0_hw6.2 k0_h6

def k0_off22 (i : grid0.Coords) : Fin 2 → Nat :=
  let arg0 : BitVec 32 := BitVec.ofNat 32 (i 0).val
  let v66 : Index := Scalar.indexCast arg0
  let c6 : Index := 6#32
  ![v66.toNat, 6]
def k0_off23 (i : grid0.Coords) (v67 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v67.toNat, 0, 0]
def k0_cond7 (v67 : BitVec 32) : BitVec 1 :=
  let c0_i32_47 : BitVec 32 := 0#32
  let v68 : BitVec 1 := Scalar.cmpi .sge v67 c0_i32_47
  let c4096_i32_48 : BitVec 32 := 4096#32
  let v69 : BitVec 1 := Scalar.cmpi .slt v67 c4096_i32_48
  let v70 : BitVec 1 := Scalar.andi v68 v69
  let v71 : BitVec 32 := Scalar.extui v70
  let c0_i32_49 : BitVec 32 := 0#32
  let v72 : BitVec 1 := Scalar.cmpi .ne v71 c0_i32_49
  v72

def k0_off24 (i : grid0.Coords) (v67 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v67.toNat, 0, 0]

def k0_chk7 (i : grid0.Coords) (v67 : BitVec 32) : Prop :=
  (∀ (k0_h7 : k0_cond7 v67 = 1#1), ∀ a, (k0_off23 i v67) a + S1x1x1x32x128.size a ≤ S2x4x4096x32x128.size a) ∧
  (∀ (k0_h7 : k0_cond7 v67 = 1#1), ∀ a, (k0_off24 i v67) a + S1x1x1x32x128.size a ≤ S2x4x4096x32x128.size a)
instance k0_chk7.dec : ∀ (i : grid0.Coords) (v67 : BitVec 32), Decidable (k0_chk7 i v67) := fun i v67 => decidable_of_iff' _ (Iff.of_eq (k0_chk7.eq_1 i v67))
theorem k0_off23_inb : ∀ (i : grid0.Coords) (v67 : BitVec 32) (k0_hw7 : k0_chk7 i v67), ∀ (k0_h7 : k0_cond7 v67 = 1#1), ∀ a, (k0_off23 i v67) a + S1x1x1x32x128.size a ≤ S2x4x4096x32x128.size a := fun i v67 k0_hw7 k0_h7 => k0_hw7.1 k0_h7
theorem k0_off24_inb : ∀ (i : grid0.Coords) (v67 : BitVec 32) (k0_hw7 : k0_chk7 i v67), ∀ (k0_h7 : k0_cond7 v67 = 1#1), ∀ a, (k0_off24 i v67) a + S1x1x1x32x128.size a ≤ S2x4x4096x32x128.size a := fun i v67 k0_hw7 k0_h7 => k0_hw7.2 k0_h7

def k0_off25 (i : grid0.Coords) : Fin 2 → Nat :=
  let arg0 : BitVec 32 := BitVec.ofNat 32 (i 0).val
  let v73 : Index := Scalar.indexCast arg0
  let c7 : Index := 7#32
  ![v73.toNat, 7]
def k0_off26 (i : grid0.Coords) (v74 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v74.toNat, 0, 0]
def k0_cond8 (v74 : BitVec 32) : BitVec 1 :=
  let c0_i32_50 : BitVec 32 := 0#32
  let v75 : BitVec 1 := Scalar.cmpi .sge v74 c0_i32_50
  let c4096_i32_51 : BitVec 32 := 4096#32
  let v76 : BitVec 1 := Scalar.cmpi .slt v74 c4096_i32_51
  let v77 : BitVec 1 := Scalar.andi v75 v76
  let v78 : BitVec 32 := Scalar.extui v77
  let c0_i32_52 : BitVec 32 := 0#32
  let v79 : BitVec 1 := Scalar.cmpi .ne v78 c0_i32_52
  v79

def k0_off27 (i : grid0.Coords) (v74 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v74.toNat, 0, 0]

def k0_chk8 (i : grid0.Coords) (v74 : BitVec 32) : Prop :=
  (∀ (k0_h8 : k0_cond8 v74 = 1#1), ∀ a, (k0_off26 i v74) a + S1x1x1x32x128.size a ≤ S2x4x4096x32x128.size a) ∧
  (∀ (k0_h8 : k0_cond8 v74 = 1#1), ∀ a, (k0_off27 i v74) a + S1x1x1x32x128.size a ≤ S2x4x4096x32x128.size a)
instance k0_chk8.dec : ∀ (i : grid0.Coords) (v74 : BitVec 32), Decidable (k0_chk8 i v74) := fun i v74 => decidable_of_iff' _ (Iff.of_eq (k0_chk8.eq_1 i v74))
theorem k0_off26_inb : ∀ (i : grid0.Coords) (v74 : BitVec 32) (k0_hw8 : k0_chk8 i v74), ∀ (k0_h8 : k0_cond8 v74 = 1#1), ∀ a, (k0_off26 i v74) a + S1x1x1x32x128.size a ≤ S2x4x4096x32x128.size a := fun i v74 k0_hw8 k0_h8 => k0_hw8.1 k0_h8
theorem k0_off27_inb : ∀ (i : grid0.Coords) (v74 : BitVec 32) (k0_hw8 : k0_chk8 i v74), ∀ (k0_h8 : k0_cond8 v74 = 1#1), ∀ a, (k0_off27 i v74) a + S1x1x1x32x128.size a ≤ S2x4x4096x32x128.size a := fun i v74 k0_hw8 k0_h8 => k0_hw8.2 k0_h8

def k0_off28 (i : grid0.Coords) : Fin 2 → Nat :=
  let arg0 : BitVec 32 := BitVec.ofNat 32 (i 0).val
  let v80 : Index := Scalar.indexCast arg0
  let c8 : Index := 8#32
  ![v80.toNat, 8]
def k0_off29 (i : grid0.Coords) (v81 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v81.toNat, 0, 0]
def k0_cond9 (v81 : BitVec 32) : BitVec 1 :=
  let c0_i32_53 : BitVec 32 := 0#32
  let v82 : BitVec 1 := Scalar.cmpi .sge v81 c0_i32_53
  let c4096_i32_54 : BitVec 32 := 4096#32
  let v83 : BitVec 1 := Scalar.cmpi .slt v81 c4096_i32_54
  let v84 : BitVec 1 := Scalar.andi v82 v83
  let v85 : BitVec 32 := Scalar.extui v84
  let c0_i32_55 : BitVec 32 := 0#32
  let v86 : BitVec 1 := Scalar.cmpi .ne v85 c0_i32_55
  v86

def k0_off30 (i : grid0.Coords) (v81 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v81.toNat, 0, 0]

def k0_chk9 (i : grid0.Coords) (v81 : BitVec 32) : Prop :=
  (∀ (k0_h9 : k0_cond9 v81 = 1#1), ∀ a, (k0_off29 i v81) a + S1x1x1x32x128.size a ≤ S2x4x4096x32x128.size a) ∧
  (∀ (k0_h9 : k0_cond9 v81 = 1#1), ∀ a, (k0_off30 i v81) a + S1x1x1x32x128.size a ≤ S2x4x4096x32x128.size a)
instance k0_chk9.dec : ∀ (i : grid0.Coords) (v81 : BitVec 32), Decidable (k0_chk9 i v81) := fun i v81 => decidable_of_iff' _ (Iff.of_eq (k0_chk9.eq_1 i v81))
theorem k0_off29_inb : ∀ (i : grid0.Coords) (v81 : BitVec 32) (k0_hw9 : k0_chk9 i v81), ∀ (k0_h9 : k0_cond9 v81 = 1#1), ∀ a, (k0_off29 i v81) a + S1x1x1x32x128.size a ≤ S2x4x4096x32x128.size a := fun i v81 k0_hw9 k0_h9 => k0_hw9.1 k0_h9
theorem k0_off30_inb : ∀ (i : grid0.Coords) (v81 : BitVec 32) (k0_hw9 : k0_chk9 i v81), ∀ (k0_h9 : k0_cond9 v81 = 1#1), ∀ a, (k0_off30 i v81) a + S1x1x1x32x128.size a ≤ S2x4x4096x32x128.size a := fun i v81 k0_hw9 k0_h9 => k0_hw9.2 k0_h9

def k0_off31 (i : grid0.Coords) : Fin 2 → Nat :=
  let arg0 : BitVec 32 := BitVec.ofNat 32 (i 0).val
  let v87 : Index := Scalar.indexCast arg0
  let c9 : Index := 9#32
  ![v87.toNat, 9]
def k0_off32 (i : grid0.Coords) (v88 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v88.toNat, 0, 0]
def k0_cond10 (v88 : BitVec 32) : BitVec 1 :=
  let c0_i32_56 : BitVec 32 := 0#32
  let v89 : BitVec 1 := Scalar.cmpi .sge v88 c0_i32_56
  let c4096_i32_57 : BitVec 32 := 4096#32
  let v90 : BitVec 1 := Scalar.cmpi .slt v88 c4096_i32_57
  let v91 : BitVec 1 := Scalar.andi v89 v90
  let v92 : BitVec 32 := Scalar.extui v91
  let c0_i32_58 : BitVec 32 := 0#32
  let v93 : BitVec 1 := Scalar.cmpi .ne v92 c0_i32_58
  v93

def k0_off33 (i : grid0.Coords) (v88 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v88.toNat, 0, 0]

def k0_chk10 (i : grid0.Coords) (v88 : BitVec 32) : Prop :=
  (∀ (k0_h10 : k0_cond10 v88 = 1#1), ∀ a, (k0_off32 i v88) a + S1x1x1x32x128.size a ≤ S2x4x4096x32x128.size a) ∧
  (∀ (k0_h10 : k0_cond10 v88 = 1#1), ∀ a, (k0_off33 i v88) a + S1x1x1x32x128.size a ≤ S2x4x4096x32x128.size a)
instance k0_chk10.dec : ∀ (i : grid0.Coords) (v88 : BitVec 32), Decidable (k0_chk10 i v88) := fun i v88 => decidable_of_iff' _ (Iff.of_eq (k0_chk10.eq_1 i v88))
theorem k0_off32_inb : ∀ (i : grid0.Coords) (v88 : BitVec 32) (k0_hw10 : k0_chk10 i v88), ∀ (k0_h10 : k0_cond10 v88 = 1#1), ∀ a, (k0_off32 i v88) a + S1x1x1x32x128.size a ≤ S2x4x4096x32x128.size a := fun i v88 k0_hw10 k0_h10 => k0_hw10.1 k0_h10
theorem k0_off33_inb : ∀ (i : grid0.Coords) (v88 : BitVec 32) (k0_hw10 : k0_chk10 i v88), ∀ (k0_h10 : k0_cond10 v88 = 1#1), ∀ a, (k0_off33 i v88) a + S1x1x1x32x128.size a ≤ S2x4x4096x32x128.size a := fun i v88 k0_hw10 k0_h10 => k0_hw10.2 k0_h10

def k0_off34 (i : grid0.Coords) : Fin 2 → Nat :=
  let arg0 : BitVec 32 := BitVec.ofNat 32 (i 0).val
  let v94 : Index := Scalar.indexCast arg0
  let c10 : Index := 10#32
  ![v94.toNat, 10]
def k0_off35 (i : grid0.Coords) (v95 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v95.toNat, 0, 0]
def k0_cond11 (v95 : BitVec 32) : BitVec 1 :=
  let c0_i32_59 : BitVec 32 := 0#32
  let v96 : BitVec 1 := Scalar.cmpi .sge v95 c0_i32_59
  let c4096_i32_60 : BitVec 32 := 4096#32
  let v97 : BitVec 1 := Scalar.cmpi .slt v95 c4096_i32_60
  let v98 : BitVec 1 := Scalar.andi v96 v97
  let v99 : BitVec 32 := Scalar.extui v98
  let c0_i32_61 : BitVec 32 := 0#32
  let v100 : BitVec 1 := Scalar.cmpi .ne v99 c0_i32_61
  v100

def k0_off36 (i : grid0.Coords) (v95 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v95.toNat, 0, 0]

def k0_chk11 (i : grid0.Coords) (v95 : BitVec 32) : Prop :=
  (∀ (k0_h11 : k0_cond11 v95 = 1#1), ∀ a, (k0_off35 i v95) a + S1x1x1x32x128.size a ≤ S2x4x4096x32x128.size a) ∧
  (∀ (k0_h11 : k0_cond11 v95 = 1#1), ∀ a, (k0_off36 i v95) a + S1x1x1x32x128.size a ≤ S2x4x4096x32x128.size a)
instance k0_chk11.dec : ∀ (i : grid0.Coords) (v95 : BitVec 32), Decidable (k0_chk11 i v95) := fun i v95 => decidable_of_iff' _ (Iff.of_eq (k0_chk11.eq_1 i v95))
theorem k0_off35_inb : ∀ (i : grid0.Coords) (v95 : BitVec 32) (k0_hw11 : k0_chk11 i v95), ∀ (k0_h11 : k0_cond11 v95 = 1#1), ∀ a, (k0_off35 i v95) a + S1x1x1x32x128.size a ≤ S2x4x4096x32x128.size a := fun i v95 k0_hw11 k0_h11 => k0_hw11.1 k0_h11
theorem k0_off36_inb : ∀ (i : grid0.Coords) (v95 : BitVec 32) (k0_hw11 : k0_chk11 i v95), ∀ (k0_h11 : k0_cond11 v95 = 1#1), ∀ a, (k0_off36 i v95) a + S1x1x1x32x128.size a ≤ S2x4x4096x32x128.size a := fun i v95 k0_hw11 k0_h11 => k0_hw11.2 k0_h11

def k0_off37 (i : grid0.Coords) : Fin 2 → Nat :=
  let arg0 : BitVec 32 := BitVec.ofNat 32 (i 0).val
  let v101 : Index := Scalar.indexCast arg0
  let c11 : Index := 11#32
  ![v101.toNat, 11]
def k0_off38 (i : grid0.Coords) (v102 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v102.toNat, 0, 0]
def k0_cond12 (v102 : BitVec 32) : BitVec 1 :=
  let c0_i32_62 : BitVec 32 := 0#32
  let v103 : BitVec 1 := Scalar.cmpi .sge v102 c0_i32_62
  let c4096_i32_63 : BitVec 32 := 4096#32
  let v104 : BitVec 1 := Scalar.cmpi .slt v102 c4096_i32_63
  let v105 : BitVec 1 := Scalar.andi v103 v104
  let v106 : BitVec 32 := Scalar.extui v105
  let c0_i32_64 : BitVec 32 := 0#32
  let v107 : BitVec 1 := Scalar.cmpi .ne v106 c0_i32_64
  v107

def k0_off39 (i : grid0.Coords) (v102 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v102.toNat, 0, 0]

def k0_chk12 (i : grid0.Coords) (v102 : BitVec 32) : Prop :=
  (∀ (k0_h12 : k0_cond12 v102 = 1#1), ∀ a, (k0_off38 i v102) a + S1x1x1x32x128.size a ≤ S2x4x4096x32x128.size a) ∧
  (∀ (k0_h12 : k0_cond12 v102 = 1#1), ∀ a, (k0_off39 i v102) a + S1x1x1x32x128.size a ≤ S2x4x4096x32x128.size a)
instance k0_chk12.dec : ∀ (i : grid0.Coords) (v102 : BitVec 32), Decidable (k0_chk12 i v102) := fun i v102 => decidable_of_iff' _ (Iff.of_eq (k0_chk12.eq_1 i v102))
theorem k0_off38_inb : ∀ (i : grid0.Coords) (v102 : BitVec 32) (k0_hw12 : k0_chk12 i v102), ∀ (k0_h12 : k0_cond12 v102 = 1#1), ∀ a, (k0_off38 i v102) a + S1x1x1x32x128.size a ≤ S2x4x4096x32x128.size a := fun i v102 k0_hw12 k0_h12 => k0_hw12.1 k0_h12
theorem k0_off39_inb : ∀ (i : grid0.Coords) (v102 : BitVec 32) (k0_hw12 : k0_chk12 i v102), ∀ (k0_h12 : k0_cond12 v102 = 1#1), ∀ a, (k0_off39 i v102) a + S1x1x1x32x128.size a ≤ S2x4x4096x32x128.size a := fun i v102 k0_hw12 k0_h12 => k0_hw12.2 k0_h12

def k0_off40 (i : grid0.Coords) : Fin 2 → Nat :=
  let arg0 : BitVec 32 := BitVec.ofNat 32 (i 0).val
  let v108 : Index := Scalar.indexCast arg0
  let c12 : Index := 12#32
  ![v108.toNat, 12]
def k0_off41 (i : grid0.Coords) (v109 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v109.toNat, 0, 0]
def k0_cond13 (v109 : BitVec 32) : BitVec 1 :=
  let c0_i32_65 : BitVec 32 := 0#32
  let v110 : BitVec 1 := Scalar.cmpi .sge v109 c0_i32_65
  let c4096_i32_66 : BitVec 32 := 4096#32
  let v111 : BitVec 1 := Scalar.cmpi .slt v109 c4096_i32_66
  let v112 : BitVec 1 := Scalar.andi v110 v111
  let v113 : BitVec 32 := Scalar.extui v112
  let c0_i32_67 : BitVec 32 := 0#32
  let v114 : BitVec 1 := Scalar.cmpi .ne v113 c0_i32_67
  v114

def k0_off42 (i : grid0.Coords) (v109 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v109.toNat, 0, 0]

def k0_chk13 (i : grid0.Coords) (v109 : BitVec 32) : Prop :=
  (∀ (k0_h13 : k0_cond13 v109 = 1#1), ∀ a, (k0_off41 i v109) a + S1x1x1x32x128.size a ≤ S2x4x4096x32x128.size a) ∧
  (∀ (k0_h13 : k0_cond13 v109 = 1#1), ∀ a, (k0_off42 i v109) a + S1x1x1x32x128.size a ≤ S2x4x4096x32x128.size a)
instance k0_chk13.dec : ∀ (i : grid0.Coords) (v109 : BitVec 32), Decidable (k0_chk13 i v109) := fun i v109 => decidable_of_iff' _ (Iff.of_eq (k0_chk13.eq_1 i v109))
theorem k0_off41_inb : ∀ (i : grid0.Coords) (v109 : BitVec 32) (k0_hw13 : k0_chk13 i v109), ∀ (k0_h13 : k0_cond13 v109 = 1#1), ∀ a, (k0_off41 i v109) a + S1x1x1x32x128.size a ≤ S2x4x4096x32x128.size a := fun i v109 k0_hw13 k0_h13 => k0_hw13.1 k0_h13
theorem k0_off42_inb : ∀ (i : grid0.Coords) (v109 : BitVec 32) (k0_hw13 : k0_chk13 i v109), ∀ (k0_h13 : k0_cond13 v109 = 1#1), ∀ a, (k0_off42 i v109) a + S1x1x1x32x128.size a ≤ S2x4x4096x32x128.size a := fun i v109 k0_hw13 k0_h13 => k0_hw13.2 k0_h13

def k0_off43 (i : grid0.Coords) : Fin 2 → Nat :=
  let arg0 : BitVec 32 := BitVec.ofNat 32 (i 0).val
  let v115 : Index := Scalar.indexCast arg0
  let c13 : Index := 13#32
  ![v115.toNat, 13]
def k0_off44 (i : grid0.Coords) (v116 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v116.toNat, 0, 0]
def k0_cond14 (v116 : BitVec 32) : BitVec 1 :=
  let c0_i32_68 : BitVec 32 := 0#32
  let v117 : BitVec 1 := Scalar.cmpi .sge v116 c0_i32_68
  let c4096_i32_69 : BitVec 32 := 4096#32
  let v118 : BitVec 1 := Scalar.cmpi .slt v116 c4096_i32_69
  let v119 : BitVec 1 := Scalar.andi v117 v118
  let v120 : BitVec 32 := Scalar.extui v119
  let c0_i32_70 : BitVec 32 := 0#32
  let v121 : BitVec 1 := Scalar.cmpi .ne v120 c0_i32_70
  v121

def k0_off45 (i : grid0.Coords) (v116 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v116.toNat, 0, 0]

def k0_chk14 (i : grid0.Coords) (v116 : BitVec 32) : Prop :=
  (∀ (k0_h14 : k0_cond14 v116 = 1#1), ∀ a, (k0_off44 i v116) a + S1x1x1x32x128.size a ≤ S2x4x4096x32x128.size a) ∧
  (∀ (k0_h14 : k0_cond14 v116 = 1#1), ∀ a, (k0_off45 i v116) a + S1x1x1x32x128.size a ≤ S2x4x4096x32x128.size a)
instance k0_chk14.dec : ∀ (i : grid0.Coords) (v116 : BitVec 32), Decidable (k0_chk14 i v116) := fun i v116 => decidable_of_iff' _ (Iff.of_eq (k0_chk14.eq_1 i v116))
theorem k0_off44_inb : ∀ (i : grid0.Coords) (v116 : BitVec 32) (k0_hw14 : k0_chk14 i v116), ∀ (k0_h14 : k0_cond14 v116 = 1#1), ∀ a, (k0_off44 i v116) a + S1x1x1x32x128.size a ≤ S2x4x4096x32x128.size a := fun i v116 k0_hw14 k0_h14 => k0_hw14.1 k0_h14
theorem k0_off45_inb : ∀ (i : grid0.Coords) (v116 : BitVec 32) (k0_hw14 : k0_chk14 i v116), ∀ (k0_h14 : k0_cond14 v116 = 1#1), ∀ a, (k0_off45 i v116) a + S1x1x1x32x128.size a ≤ S2x4x4096x32x128.size a := fun i v116 k0_hw14 k0_h14 => k0_hw14.2 k0_h14

def k0_off46 (i : grid0.Coords) : Fin 2 → Nat :=
  let arg0 : BitVec 32 := BitVec.ofNat 32 (i 0).val
  let v122 : Index := Scalar.indexCast arg0
  let c14 : Index := 14#32
  ![v122.toNat, 14]
def k0_off47 (i : grid0.Coords) (v123 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v123.toNat, 0, 0]
def k0_cond15 (v123 : BitVec 32) : BitVec 1 :=
  let c0_i32_71 : BitVec 32 := 0#32
  let v124 : BitVec 1 := Scalar.cmpi .sge v123 c0_i32_71
  let c4096_i32_72 : BitVec 32 := 4096#32
  let v125 : BitVec 1 := Scalar.cmpi .slt v123 c4096_i32_72
  let v126 : BitVec 1 := Scalar.andi v124 v125
  let v127 : BitVec 32 := Scalar.extui v126
  let c0_i32_73 : BitVec 32 := 0#32
  let v128 : BitVec 1 := Scalar.cmpi .ne v127 c0_i32_73
  v128

def k0_off48 (i : grid0.Coords) (v123 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v123.toNat, 0, 0]

def k0_chk15 (i : grid0.Coords) (v123 : BitVec 32) : Prop :=
  (∀ (k0_h15 : k0_cond15 v123 = 1#1), ∀ a, (k0_off47 i v123) a + S1x1x1x32x128.size a ≤ S2x4x4096x32x128.size a) ∧
  (∀ (k0_h15 : k0_cond15 v123 = 1#1), ∀ a, (k0_off48 i v123) a + S1x1x1x32x128.size a ≤ S2x4x4096x32x128.size a)
instance k0_chk15.dec : ∀ (i : grid0.Coords) (v123 : BitVec 32), Decidable (k0_chk15 i v123) := fun i v123 => decidable_of_iff' _ (Iff.of_eq (k0_chk15.eq_1 i v123))
theorem k0_off47_inb : ∀ (i : grid0.Coords) (v123 : BitVec 32) (k0_hw15 : k0_chk15 i v123), ∀ (k0_h15 : k0_cond15 v123 = 1#1), ∀ a, (k0_off47 i v123) a + S1x1x1x32x128.size a ≤ S2x4x4096x32x128.size a := fun i v123 k0_hw15 k0_h15 => k0_hw15.1 k0_h15
theorem k0_off48_inb : ∀ (i : grid0.Coords) (v123 : BitVec 32) (k0_hw15 : k0_chk15 i v123), ∀ (k0_h15 : k0_cond15 v123 = 1#1), ∀ a, (k0_off48 i v123) a + S1x1x1x32x128.size a ≤ S2x4x4096x32x128.size a := fun i v123 k0_hw15 k0_h15 => k0_hw15.2 k0_h15

def k0_off49 (i : grid0.Coords) : Fin 2 → Nat :=
  let arg0 : BitVec 32 := BitVec.ofNat 32 (i 0).val
  let v129 : Index := Scalar.indexCast arg0
  let c15 : Index := 15#32
  ![v129.toNat, 15]
def k0_off50 (i : grid0.Coords) (v130 : BitVec 32) : Fin 5 → Nat :=
  let c0_i32_78 : BitVec 32 := 0#32
  let arg0 : BitVec 32 := BitVec.ofNat 32 (i 0).val
  let c0_i32_80 : BitVec 32 := 0#32
  let c0_i32_81 : BitVec 32 := 0#32
  ![0, arg0.toNat, v130.toNat, 0, 0]
def k0_cond16 (v130 : BitVec 32) : BitVec 1 :=
  let c0_i32_74 : BitVec 32 := 0#32
  let v131 : BitVec 1 := Scalar.cmpi .sge v130 c0_i32_74
  let c4096_i32_75 : BitVec 32 := 4096#32
  let v132 : BitVec 1 := Scalar.cmpi .slt v130 c4096_i32_75
  let v133 : BitVec 1 := Scalar.andi v131 v132
  let v134 : BitVec 32 := Scalar.extui v133
  let c0_i32_76 : BitVec 32 := 0#32
  let v135 : BitVec 1 := Scalar.cmpi .ne v134 c0_i32_76
  v135

def k0_off51 (i : grid0.Coords) (v130 : BitVec 32) : Fin 5 → Nat :=
  let c1_i32_86 : BitVec 32 := 1#32
  let arg0 : BitVec 32 := BitVec.ofNat 32 (i 0).val
  let c0_i32_88 : BitVec 32 := 0#32
  let c0_i32_89 : BitVec 32 := 0#32
  ![1, arg0.toNat, v130.toNat, 0, 0]

def k0_chk16 (i : grid0.Coords) (v130 : BitVec 32) : Prop :=
  (∀ (k0_h16 : k0_cond16 v130 = 1#1), ∀ a, (k0_off50 i v130) a + S1x1x1x32x128.size a ≤ S2x4x4096x32x128.size a) ∧
  (∀ (k0_h16 : k0_cond16 v130 = 1#1), ∀ a, (k0_off51 i v130) a + S1x1x1x32x128.size a ≤ S2x4x4096x32x128.size a)
instance k0_chk16.dec : ∀ (i : grid0.Coords) (v130 : BitVec 32), Decidable (k0_chk16 i v130) := fun i v130 => decidable_of_iff' _ (Iff.of_eq (k0_chk16.eq_1 i v130))
theorem k0_off50_inb : ∀ (i : grid0.Coords) (v130 : BitVec 32) (k0_hw16 : k0_chk16 i v130), ∀ (k0_h16 : k0_cond16 v130 = 1#1), ∀ a, (k0_off50 i v130) a + S1x1x1x32x128.size a ≤ S2x4x4096x32x128.size a := fun i v130 k0_hw16 k0_h16 => k0_hw16.1 k0_h16
theorem k0_off51_inb : ∀ (i : grid0.Coords) (v130 : BitVec 32) (k0_hw16 : k0_chk16 i v130), ∀ (k0_h16 : k0_cond16 v130 = 1#1), ∀ a, (k0_off51 i v130) a + S1x1x1x32x128.size a ≤ S2x4x4096x32x128.size a := fun i v130 k0_hw16 k0_h16 => k0_hw16.2 k0_h16

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S4x16 : S_.BroadcastsInDim S4x16 (![] : Fin 0 → Fin S4x16.rank)
  bcast_S4x16_S4x16x1_0_1 : S4x16.BroadcastsInDim S4x16x1 (![0, 1] : Fin 2 → Fin S4x16x1.rank)
  bcast_S4x16x64_S4x16x1x64_0_1_3 : S4x16x64.BroadcastsInDim S4x16x1x64 (![0, 1, 3] : Fin 3 → Fin S4x16x1x64.rank)
  shapeCasts_S4x16x32x128_S4x16x32x64x2 : S4x16x32x128.ShapeCasts S4x16x32x64x2
  slices_S4x16x32x64x2_S4x16x32x64x1_0_0_0_0_0 : S4x16x32x64x2.Slices ![0, 0, 0, 0, 0] S4x16x32x64x1
  shapeCasts_S4x16x32x64x1_S4x16x32x64 : S4x16x32x64x1.ShapeCasts S4x16x32x64
  slices_S4x16x32x64x2_S4x16x32x64x1_0_0_0_0_1 : S4x16x32x64x2.Slices ![0, 0, 0, 0, 1] S4x16x32x64x1
  bcast_S4x16x1x64_S4x16x32x64_0_1_2_3 : S4x16x1x64.BroadcastsInDim S4x16x32x64 (![0, 1, 2, 3] : Fin 4 → Fin S4x16x32x64.rank)
  bcast_S4x16x32x64_S4x16x32x64x1_0_1_2_3 : S4x16x32x64.BroadcastsInDim S4x16x32x64x1 (![0, 1, 2, 3] : Fin 4 → Fin S4x16x32x64x1.rank)
  concatenates_S4x16x32x64x1_S4x16x32x64x1_S4x16x32x64x2_d4 : Shape.Concatenates [S4x16x32x64x1, S4x16x32x64x1] S4x16x32x64x2 4
  shapeCasts_S4x16x32x64x2_S4x16x32x128 : S4x16x32x64x2.ShapeCasts S4x16x32x128
  inb_S2_S1_0 : ∀ a, (![0] : Fin 1 → Nat) a + S1.size a ≤ S2.size a
  squeezes_S1_S_ : S1.Squeezes S_
  squeezes_S1x1x4096x32x128_S4096x32x128 : S1x1x4096x32x128.Squeezes S4096x32x128
  squeezes_S1x4096x32x128_S4096x32x128 : S1x4096x32x128.Squeezes S4096x32x128
  inb_S2_S1_1 : ∀ a, (![1] : Fin 1 → Nat) a + S1.size a ≤ S2.size a
  numel1_S1x1 : S1x1.numel = 1
  squeezes_S1x1x1x32x128_S32x128 : S1x1x1x32x128.Squeezes S32x128
  inb_S1x16x32x128_S1x1x32x128_0_0_0_0 : ∀ a, (![0, 0, 0, 0] : Fin 4 → Nat) a + S1x1x32x128.size a ≤ S1x16x32x128.size a
  squeezes_S1x1x32x128_S32x128 : S1x1x32x128.Squeezes S32x128
  inb_S1x16x32x128_S1x1x32x128_0_1_0_0 : ∀ a, (![0, 1, 0, 0] : Fin 4 → Nat) a + S1x1x32x128.size a ≤ S1x16x32x128.size a
  inb_S1x16x32x128_S1x1x32x128_0_2_0_0 : ∀ a, (![0, 2, 0, 0] : Fin 4 → Nat) a + S1x1x32x128.size a ≤ S1x16x32x128.size a
  inb_S1x16x32x128_S1x1x32x128_0_3_0_0 : ∀ a, (![0, 3, 0, 0] : Fin 4 → Nat) a + S1x1x32x128.size a ≤ S1x16x32x128.size a
  inb_S1x16x32x128_S1x1x32x128_0_4_0_0 : ∀ a, (![0, 4, 0, 0] : Fin 4 → Nat) a + S1x1x32x128.size a ≤ S1x16x32x128.size a
  inb_S1x16x32x128_S1x1x32x128_0_5_0_0 : ∀ a, (![0, 5, 0, 0] : Fin 4 → Nat) a + S1x1x32x128.size a ≤ S1x16x32x128.size a
  inb_S1x16x32x128_S1x1x32x128_0_6_0_0 : ∀ a, (![0, 6, 0, 0] : Fin 4 → Nat) a + S1x1x32x128.size a ≤ S1x16x32x128.size a
  inb_S1x16x32x128_S1x1x32x128_0_7_0_0 : ∀ a, (![0, 7, 0, 0] : Fin 4 → Nat) a + S1x1x32x128.size a ≤ S1x16x32x128.size a
  inb_S1x16x32x128_S1x1x32x128_0_8_0_0 : ∀ a, (![0, 8, 0, 0] : Fin 4 → Nat) a + S1x1x32x128.size a ≤ S1x16x32x128.size a
  inb_S1x16x32x128_S1x1x32x128_0_9_0_0 : ∀ a, (![0, 9, 0, 0] : Fin 4 → Nat) a + S1x1x32x128.size a ≤ S1x16x32x128.size a
  inb_S1x16x32x128_S1x1x32x128_0_10_0_0 : ∀ a, (![0, 10, 0, 0] : Fin 4 → Nat) a + S1x1x32x128.size a ≤ S1x16x32x128.size a
  inb_S1x16x32x128_S1x1x32x128_0_11_0_0 : ∀ a, (![0, 11, 0, 0] : Fin 4 → Nat) a + S1x1x32x128.size a ≤ S1x16x32x128.size a
  inb_S1x16x32x128_S1x1x32x128_0_12_0_0 : ∀ a, (![0, 12, 0, 0] : Fin 4 → Nat) a + S1x1x32x128.size a ≤ S1x16x32x128.size a
  inb_S1x16x32x128_S1x1x32x128_0_13_0_0 : ∀ a, (![0, 13, 0, 0] : Fin 4 → Nat) a + S1x1x32x128.size a ≤ S1x16x32x128.size a
  inb_S1x16x32x128_S1x1x32x128_0_14_0_0 : ∀ a, (![0, 14, 0, 0] : Fin 4 → Nat) a + S1x1x32x128.size a ≤ S1x16x32x128.size a
  inb_S1x16x32x128_S1x1x32x128_0_15_0_0 : ∀ a, (![0, 15, 0, 0] : Fin 4 → Nat) a + S1x1x32x128.size a ≤ S1x16x32x128.size a
  gather_S4096x64_S4x16x1_S4x16x64_2_0_n_n_0_2_164_wf : GatherDims.WF S4096x64 S4x16x1 S4x16x64 [2] [0] [] [0] [] 2 ![1, 64]
  hcc0_scratch0 : 4 + S2.numel ≤ 8
  hcc0_scratch1 : 6 + S2.numel ≤ 8
  hrank0 : 0 < grid0.rank
  k0_off1_inb : ∀ i : grid0.Coords, ∀ a, (k0_off1 i) a + S1x1x4096x32x128.size a ≤ S2x4x4096x32x128.size a
  k0_off2_inb : ∀ i : grid0.Coords, ∀ a, (k0_off2 i) a + S1x4096x32x128.size a ≤ S4x4096x32x128.size a
  k0_off3_inb : ∀ i : grid0.Coords, ∀ a, (k0_off3 i) a + S1x1x4096x32x128.size a ≤ S2x4x4096x32x128.size a
  k0_off4_inb : ∀ i : grid0.Coords, ∀ a, (k0_off4 i) a + S1x1.size a ≤ S4x16.size a
  k0_off7_inb : ∀ i : grid0.Coords, ∀ a, (k0_off7 i) a + S1x1.size a ≤ S4x16.size a
  k0_off10_inb : ∀ i : grid0.Coords, ∀ a, (k0_off10 i) a + S1x1.size a ≤ S4x16.size a
  k0_off13_inb : ∀ i : grid0.Coords, ∀ a, (k0_off13 i) a + S1x1.size a ≤ S4x16.size a
  k0_off16_inb : ∀ i : grid0.Coords, ∀ a, (k0_off16 i) a + S1x1.size a ≤ S4x16.size a
  k0_off19_inb : ∀ i : grid0.Coords, ∀ a, (k0_off19 i) a + S1x1.size a ≤ S4x16.size a
  k0_off22_inb : ∀ i : grid0.Coords, ∀ a, (k0_off22 i) a + S1x1.size a ≤ S4x16.size a
  k0_off25_inb : ∀ i : grid0.Coords, ∀ a, (k0_off25 i) a + S1x1.size a ≤ S4x16.size a
  k0_off28_inb : ∀ i : grid0.Coords, ∀ a, (k0_off28 i) a + S1x1.size a ≤ S4x16.size a
  k0_off31_inb : ∀ i : grid0.Coords, ∀ a, (k0_off31 i) a + S1x1.size a ≤ S4x16.size a
  k0_off34_inb : ∀ i : grid0.Coords, ∀ a, (k0_off34 i) a + S1x1.size a ≤ S4x16.size a
  k0_off37_inb : ∀ i : grid0.Coords, ∀ a, (k0_off37 i) a + S1x1.size a ≤ S4x16.size a
  k0_off40_inb : ∀ i : grid0.Coords, ∀ a, (k0_off40 i) a + S1x1.size a ≤ S4x16.size a
  k0_off43_inb : ∀ i : grid0.Coords, ∀ a, (k0_off43 i) a + S1x1.size a ≤ S4x16.size a
  k0_off46_inb : ∀ i : grid0.Coords, ∀ a, (k0_off46 i) a + S1x1.size a ≤ S4x16.size a
  k0_off49_inb : ∀ i : grid0.Coords, ∀ a, (k0_off49 i) a + S1x1.size a ≤ S4x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32x128.size a ≤ S4x16x32x128.size a
  hwx0_0 : ∀ i : grid0.Coords, EltTy.bits .f32 = 32 ∨ (Rect.block (s := S4x16x32x128) S1x16x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x32x128.size a ≤ S4x16x32x128.size a
  hwx0_1 : ∀ i : grid0.Coords, EltTy.bits .f32 = 32 ∨ (Rect.block (s := S4x16x32x128) S1x16x32x128.size (cc0_transform_1 i) (hinb0_1 i)).WholeWords (EltTy.packing .f32)

variable [Facts₀]

abbrev cc0_scratch0 : DmaSems sig S2 := SemArray.consecutive 4 S2 hcc0_scratch0
abbrev cc0_scratch1 : DmaSems sig S2 := SemArray.consecutive 6 S2 hcc0_scratch1
def gather_S4096x64_S4x16x1_S4x16x64_2_0_n_n_0_2_164 : GatherDims S4096x64 S4x16x1 S4x16x64 where
  offsetDims := [2]
  collapsedSliceDims := [0]
  operandBatchingDims := []
  startIndicesBatchingDims := []
  startIndexMap := [0]
  indexVectorDim := 2
  sliceSizes := ![1, 64]
  wf := gather_S4096x64_S4x16x1_S4x16x64_2_0_n_n_0_2_164_wf

abbrev spec0_0 : Pipeline.WinSpec sig grid0.rank :=
  Pipeline.WinSpec.ofSpec (Memref.whole main_v34) S1x16x32x128.size reads0_0 false false 2 stage0_0 sem0_0 nbuf0_0 hstage0_0

abbrev spec0_1 : Pipeline.WinSpec sig grid0.rank :=
  Pipeline.WinSpec.ofSpec (Memref.whole main_arg1) S1x16x32x128.size reads0_1 false false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S4x16x32x128 : Shape := ⟨4, ![4, 16, 32, 128]⟩
abbrev S4096x64 : Shape := ⟨2, ![4096, 64]⟩
abbrev S4x4096x32x128 : Shape := ⟨4, ![4, 4096, 32, 128]⟩
abbrev S4x16 : Shape := ⟨2, ![4, 16]⟩
abbrev S_ : Shape := ⟨0, ![]⟩
abbrev S4x16x1 : Shape := ⟨3, ![4, 16, 1]⟩
abbrev S4x16x64 : Shape := ⟨3, ![4, 16, 64]⟩
abbrev S4x16x1x64 : Shape := ⟨4, ![4, 16, 1, 64]⟩
abbrev S4x16x32x64x2 : Shape := ⟨5, ![4, 16, 32, 64, 2]⟩
abbrev S4x16x32x64x1 : Shape := ⟨5, ![4, 16, 32, 64, 1]⟩
abbrev S4x16x32x64 : Shape := ⟨4, ![4, 16, 32, 64]⟩
abbrev S4 : Shape := ⟨1, ![4]⟩
abbrev S4x1 : Shape := ⟨2, ![4, 1]⟩
abbrev S4x16x2 : Shape := ⟨3, ![4, 16, 2]⟩
abbrev S1x4x4096x32x128 : Shape := ⟨5, ![1, 4, 4096, 32, 128]⟩
abbrev S2x4x4096x32x128 : Shape := ⟨5, ![2, 4, 4096, 32, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x16x32x128, .f32⟩
  | .hbm, ⟨1, _⟩ => ⟨S4x16x32x128, .f32⟩
  | .hbm, ⟨2, _⟩ => ⟨S4096x64, .f32⟩
  | .hbm, ⟨3, _⟩ => ⟨S4096x64, .f32⟩
  | .hbm, ⟨4, _⟩ => ⟨S4x4096x32x128, .f32⟩
  | .hbm, ⟨5, _⟩ => ⟨S4x4096x32x128, .f32⟩
  | .hbm, ⟨6, _⟩ => ⟨S4x16, .i32⟩
  | .hbm, ⟨7, _⟩ => ⟨S_, .i32⟩
  | .hbm, ⟨8, _⟩ => ⟨S4x16, .i32⟩
  | .hbm, ⟨9, _⟩ => ⟨S4x16, .i1⟩
  | .hbm, ⟨10, _⟩ => ⟨S_, .i32⟩
  | .hbm, ⟨11, _⟩ => ⟨S4x16, .i32⟩
  | .hbm, ⟨12, _⟩ => ⟨S4x16, .i32⟩
  | .hbm, ⟨13, _⟩ => ⟨S4x16, .i32⟩
  | .hbm, ⟨14, _⟩ => ⟨S4x16x1, .i32⟩
  | .hbm, ⟨15, _⟩ => ⟨S4x16x64, .f32⟩
  | .hbm, ⟨16, _⟩ => ⟨S4x16x1x64, .f32⟩
  | .hbm, ⟨17, _⟩ => ⟨S_, .i32⟩
  | .hbm, ⟨18, _⟩ => ⟨S4x16, .i32⟩
  | .hbm, ⟨19, _⟩ => ⟨S4x16, .i1⟩
  | .hbm, ⟨20, _⟩ => ⟨S_, .i32⟩
  | .hbm, ⟨21, _⟩ => ⟨S4x16, .i32⟩
  | .hbm, ⟨22, _⟩ => ⟨S4x16, .i32⟩
  | .hbm, ⟨23, _⟩ => ⟨S4x16, .i32⟩
  | .hbm, ⟨24, _⟩ => ⟨S4x16x1, .i32⟩
  | .hbm, ⟨25, _⟩ => ⟨S4x16x64, .f32⟩
  | .hbm, ⟨26, _⟩ => ⟨S4x16x1x64, .f32⟩
  | .hbm, ⟨27, _⟩ => ⟨S4x16x32x64x2, .f32⟩
  | .hbm, ⟨28, _⟩ => ⟨S4x16x32x64x1, .f32⟩
  | .hbm, ⟨29, _⟩ => ⟨S4x16x32x64, .f32⟩
  | .hbm, ⟨30, _⟩ => ⟨S4x16x32x64x1, .f32⟩
  | .hbm, ⟨31, _⟩ => ⟨S4x16x32x64, .f32⟩
  | .hbm, ⟨32, _⟩ => ⟨S4x16x32x64, .f32⟩
  | .hbm, ⟨33, _⟩ => ⟨S4x16x32x64, .f32⟩
  | .hbm, ⟨34, _⟩ => ⟨S4x16x32x64, .f32⟩
  | .hbm, ⟨35, _⟩ => ⟨S4x16x32x64, .f32⟩
  | .hbm, ⟨36, _⟩ => ⟨S4x16x32x64, .f32⟩
  | .hbm, ⟨37, _⟩ => ⟨S4x16x32x64, .f32⟩
  | .hbm, ⟨38, _⟩ => ⟨S4x16x32x64, .f32⟩
  | .hbm, ⟨39, _⟩ => ⟨S4x16x32x64, .f32⟩
  | .hbm, ⟨40, _⟩ => ⟨S4x16x32x64, .f32⟩
  | .hbm, ⟨41, _⟩ => ⟨S4x16x32x64, .f32⟩
  | .hbm, ⟨42, _⟩ => ⟨S4x16x32x64x1, .f32⟩
  | .hbm, ⟨43, _⟩ => ⟨S4x16x32x64x1, .f32⟩
  | .hbm, ⟨44, _⟩ => ⟨S4x16x32x64x2, .f32⟩
  | .hbm, ⟨45, _⟩ => ⟨S4x16x32x128, .f32⟩
  | .hbm, ⟨46, _⟩ => ⟨S4, .i32⟩
  | .hbm, ⟨47, _⟩ => ⟨S4x1, .i32⟩
  | .hbm, ⟨48, _⟩ => ⟨S_, .i32⟩
  | .hbm, ⟨49, _⟩ => ⟨S4x1, .i32⟩
  | .hbm, ⟨50, _⟩ => ⟨S4x1, .i1⟩
  | .hbm, ⟨51, _⟩ => ⟨S_, .i32⟩
  | .hbm, ⟨52, _⟩ => ⟨S4x1, .i32⟩
  | .hbm, ⟨53, _⟩ => ⟨S4x1, .i32⟩
  | .hbm, ⟨54, _⟩ => ⟨S4x1, .i32⟩
  | .hbm, ⟨55, _⟩ => ⟨S_, .i32⟩
  | .hbm, ⟨56, _⟩ => ⟨S4x16, .i32⟩
  | .hbm, ⟨57, _⟩ => ⟨S4x16, .i1⟩
  | .hbm, ⟨58, _⟩ => ⟨S_, .i32⟩
  | .hbm, ⟨59, _⟩ => ⟨S4x16, .i32⟩
  | .hbm, ⟨60, _⟩ => ⟨S4x16, .i32⟩
  | .hbm, ⟨61, _⟩ => ⟨S4x16, .i32⟩
  | .hbm, ⟨62, _⟩ => ⟨S4x16, .i32⟩
  | .hbm, ⟨63, _⟩ => ⟨S4x16x1, .i32⟩
  | .hbm, ⟨64, _⟩ => ⟨S4x16x1, .i32⟩
  | .hbm, ⟨65, _⟩ => ⟨S4x16x2, .i32⟩
  | .hbm, ⟨66, _⟩ => ⟨S4x4096x32x128, .f32⟩
  | .hbm, ⟨67, _⟩ => ⟨S_, .i32⟩
  | .hbm, ⟨68, _⟩ => ⟨S4x1, .i32⟩
  | .hbm, ⟨69, _⟩ => ⟨S4x1, .i1⟩
  | .hbm, ⟨70, _⟩ => ⟨S_, .i32⟩
  | .hbm, ⟨71, _⟩ => ⟨S4x1, .i32⟩
  | .hbm, ⟨72, _⟩ => ⟨S4x1, .i32⟩
  | .hbm, ⟨73, _⟩ => ⟨S4x1, .i32⟩
  | .hbm, ⟨74, _⟩ => ⟨S_, .i32⟩
  | .hbm, ⟨75, _⟩ => ⟨S4x16, .i32⟩
  | .hbm, ⟨76, _⟩ => ⟨S4x16, .i1⟩
  | .hbm, ⟨77, _⟩ => ⟨S_, .i32⟩
  | .hbm, ⟨78, _⟩ => ⟨S4x16, .i32⟩
  | .hbm, ⟨79, _⟩ => ⟨S4x16, .i32⟩
  | .hbm, ⟨80, _⟩ => ⟨S4x16, .i32⟩
  | .hbm, ⟨81, _⟩ => ⟨S4x16, .i32⟩
  | .hbm, ⟨82, _⟩ => ⟨S4x16x1, .i32⟩
  | .hbm, ⟨83, _⟩ => ⟨S4x16x1, .i32⟩
  | .hbm, ⟨84, _⟩ => ⟨S4x16x2, .i32⟩
  | .hbm, ⟨85, _⟩ => ⟨S4x4096x32x128, .f32⟩
  | .hbm, ⟨86, _⟩ => ⟨S1x4x4096x32x128, .f32⟩
  | .hbm, ⟨87, _⟩ => ⟨S1x4x4096x32x128, .f32⟩
  | .hbm, ⟨88, _⟩ => ⟨S2x4x4096x32x128, .f32⟩
  | _, _ => ⟨S4x16x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_9 : Ref sig .tc := ⟨.hbm, 74, rfl⟩
abbrev main_v57 : Ref sig .tc := ⟨.hbm, 75, rfl⟩
abbrev main_v58 : Ref sig .tc := ⟨.hbm, 76, rfl⟩
abbrev main_c_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]

class Facts₀ : Prop where
  bcast_S_S4x16 : S_.BroadcastsInDim S4x16 (![] : Fin 0 → Fin S4x16.rank)
  bcast_S4x16_S4x16x1_0_1 : S4x16.BroadcastsInDim S4x16x1 (![0, 1] : Fin 2 → Fin S4x16x1.rank)
  bcast_S4x16x64_S4x16x1x64_0_1_3 : S4x16x64.BroadcastsInDim S4x16x1x64 (![0, 1, 3] : Fin 3 → Fin S4x16x1x64.rank)
  shapeCasts_S4x16x32x128_S4x16x32x64x2 : S4x16x32x128.ShapeCasts S4x16x32x64x2
  slices_S4x16x32x64x2_S4x16x32x64x1_0_0_0_0_0 : S4x16x32x64x2.Slices ![0, 0, 0, 0, 0] S4x16x32x64x1
  shapeCasts_S4x16x32x64x1_S4x16x32x64 : S4x16x32x64x1.ShapeCasts S4x16x32x64
  slices_S4x16x32x64x2_S4x16x32x64x1_0_0_0_0_1 : S4x16x32x64x2.Slices ![0, 0, 0, 0, 1] S4x16x32x64x1
  bcast_S4x16x1x64_S4x16x32x64_0_1_2_3 : S4x16x1x64.BroadcastsInDim S4x16x32x64 (![0, 1, 2, 3] : Fin 4 → Fin S4x16x32x64.rank)
  bcast_S4x16x32x64_S4x16x32x64x1_0_1_2_3 : S4x16x32x64.BroadcastsInDim S4x16x32x64x1 (![0, 1, 2, 3] : Fin 4 → Fin S4x16x32x64x1.rank)
  concatenates_S4x16x32x64x1_S4x16x32x64x1_S4x16x32x64x2_d4 : Shape.Concatenates [S4x16x32x64x1, S4x16x32x64x1] S4x16x32x64x2 4
  shapeCasts_S4x16x32x64x2_S4x16x32x128 : S4x16x32x64x2.ShapeCasts S4x16x32x128
  bcast_S4_S4x1_0 : S4.BroadcastsInDim S4x1 (![0] : Fin 1 → Fin S4x1.rank)
  bcast_S_S4x1 : S_.BroadcastsInDim S4x1 (![] : Fin 0 → Fin S4x1.rank)
  bcast_S4x1_S4x16_0_1 : S4x1.BroadcastsInDim S4x16 (![0, 1] : Fin 2 → Fin S4x16.rank)
  concatenates_S4x16x1_S4x16x1_S4x16x2_d2 : Shape.Concatenates [S4x16x1, S4x16x1] S4x16x2 2
  bcast_S4x4096x32x128_S1x4x4096x32x128_1_2_3_4 : S4x4096x32x128.BroadcastsInDim S1x4x4096x32x128 (![1, 2, 3, 4] : Fin 4 → Fin S1x4x4096x32x128.rank)
  concatenates_S1x4x4096x32x128_S1x4x4096x32x128_S2x4x4096x32x128_d0 : Shape.Concatenates [S1x4x4096x32x128, S1x4x4096x32x128] S2x4x4096x32x128 0
  gather_S4096x64_S4x16x1_S4x16x64_2_0_n_n_0_2_164_wf : GatherDims.WF S4096x64 S4x16x1 S4x16x64 [2] [0] [] [0] [] 2 ![1, 64]
  scatter_S4x4096x32x128_S4x16x2_S4x16x32x128_23_01_01_2_wf : ScatterDims.WF S4x4096x32x128 S4x16x2 S4x16x32x128 [2, 3] [0, 1] [0, 1] 2

variable [Facts₀]

def gather_S4096x64_S4x16x1_S4x16x64_2_0_n_n_0_2_164 : GatherDims S4096x64 S4x16x1 S4x16x64 where
  offsetDims := [2]
  collapsedSliceDims := [0]
  operandBatchingDims := []
  startIndicesBatchingDims := []
  startIndexMap := [0]
  indexVectorDim := 2
  sliceSizes := ![1, 64]
  wf := gather_S4096x64_S4x16x1_S4x16x64_2_0_n_n_0_2_164_wf
def scatter_S4x4096x32x128_S4x16x2_S4x16x32x128_23_01_01_2 : ScatterDims S4x4096x32x128 S4x16x2 S4x16x32x128 where
  updateWindowDims := [2, 3]
  insertedWindowDims := [0, 1]
  scatterDimsToOperandDims := [0, 1]
  indexVectorDim := 2
  wf := scatter_S4x4096x32x128_S4x16x2_S4x16x32x128_23_01_01_2_wf

class Facts : Prop extends Facts₀ where

variable [Facts]
-- ==== Proof.Rows.lean ====
/-
  What one element of a cache row holds after sixteen guarded row writes made one after the other.

  Write t (t = 0, …, 15) carries a position word `pos t` and a new value `new t`; it replaces the element of row `l`
  exactly when the word, read as a signed integer, lies in [0, 4096) and equals `l`. The writes are made in the order
  of t, so of several writes naming one row the last wins, and a row no write names keeps its old value. A word
  outside [0, 4096) (negative, or 4096 and above) names no row: its write is dropped.
-/
import Idealize.ShloMosaic.Lib.ValueIdx

namespace Cert.Proof.Rows

/-- The position word `p` names row `l` of a cache of 4096 rows. -/
def hits (p : BitVec 32) (l : Nat) : Prop := 0 ≤ p.toInt ∧ p.toInt < 4096 ∧ p.toNat = l

instance (p : BitVec 32) (l : Nat) : Decidable (hits p l) := by unfold hits; infer_instance

/-- The element after the sixteen writes, from `old`: the fold, in the order of t, of "take `new t` if `pos t` names
    `l`, else keep". -/
def rows {α : Type} (pos : Fin 16 → BitVec 32) (l : Nat) (new : Fin 16 → α) (old : α) : α :=
  (List.finRange 16).foldl (fun acc t => if hits (pos t) l then new t else acc) old

/-- One step of the fold, by itself. -/
theorem step_eq {α : Type} (p : BitVec 32) (l : Nat) (a b : α) :
    (if hits p l then a else b) = if (0 ≤ p.toInt ∧ p.toInt < 4096 ∧ p.toNat = l) then a else b := rfl

end Cert.Proof.Rows
-- ==== Proof.KGuards.lean ====
/-
  The sixteen row guards of the kernel body, read back.

  For each of the sixteen position words v the body computes a one-bit condition — the chain
  `v ≥ 0` (signed), `v < 4096` (signed), their `and`, widened to 32 bits, compared unequal to zero — and
  assumes a side condition: under that condition the two row windows at offsets (s, j, v, 0, 0), s = 0 / 1,
  j the grid coordinate (below 4), of sizes 1 × 1 × 1 × 32 × 128, fit in the 2 × 4 × 4096 × 32 × 128 cache.

  The condition is one exactly when the word, read signed, lies in [0, 4096): a one-bit word widened is nonzero
  exactly when it is one, the `and` of two bits is one exactly when both are, and the signed compares read the
  word signed. Then the word read unsigned is below 4096 as well, so the window fits along the row axis; the other
  axes fit for every word. Hence every side condition holds for every word, and the condition together with
  "the word read unsigned is l" says the word names row l.

  The sixteen conditions are one function under sixteen names: each statement is the core lemma, by unfolding.
-/
import proofs.«429403_j7868380086953_3_alg».proof.Proof.Gen.Kernel
import proofs.«429403_j7868380086953_3_alg».proof.Proof.Rows
import Idealize.ShloMosaic.Lib.Affine

namespace Cert.Proof.KGuards

open Cert.Kernel Idealize.ShloMosaic

/-! ## The core: the bare scalar chain, and the window fit -/

/-- The chain every guard computes. -/
def guard (v : BitVec 32) : BitVec 1 :=
  Scalar.cmpi .ne (Scalar.extui (Scalar.andi (Scalar.cmpi .sge v 0#32) (Scalar.cmpi .slt v 4096#32))) 0#32

/-- A bit widened to 32 bits is nonzero exactly when it is one. -/
theorem ne_zero_widen (c : BitVec 1) : IntOp.cmpi .ne (c.setWidth 32) 0#32 = 1#1 ↔ c = 1#1 := by
  rcases BitVec.eq_zero_or_eq_one c with rfl | rfl <;> decide

/-- The guard is one exactly when the word, read signed, lies in [0, 4096). -/
theorem guard_iff (v : BitVec 32) : guard v = 1#1 ↔ (0 ≤ v.toInt ∧ v.toInt < 4096) := by
  have h0 : (0#32 : BitVec 32).toInt = 0 := by decide
  have h1 : (4096#32 : BitVec 32).toInt = 4096 := by decide
  unfold guard Scalar.cmpi Scalar.extui Scalar.andi
  rw [ne_zero_widen, IntOp.andi_eq_one, IntOp.cmpi_sge, IntOp.cmpi_slt, h0, h1]

/-- A word that lies in [0, 4096) read signed is below 4096 read unsigned. -/
theorem toNat_lt_of_guard (v : BitVec 32) (h : guard v = 1#1) : v.toNat < 4096 := by
  obtain ⟨h0, h1⟩ := (guard_iff v).1 h
  have hlt := v.isLt
  rw [BitVec.toInt_eq_toNat_cond] at h0 h1
  split at h0 <;> omega

/-- The row window at (s, j, v, 0, 0), s ≤ 1, j < 4, v < 4096, fits in the cache, axis by axis. -/
theorem fit (s j v : Nat) (hs : s ≤ 1) (hj : j < 4) (hv : v < 4096) :
    ∀ a, (![s, j, v, 0, 0] : Fin 5 → Nat) a + S1x1x1x32x128.size a ≤ S2x4x4096x32x128.size a := by
  intro a
  match a with
  | ⟨0, _⟩ => show s + 1 ≤ 2; omega
  | ⟨1, _⟩ => show j + 1 ≤ 4; omega
  | ⟨2, _⟩ => show v + 1 ≤ 4096; omega
  | ⟨3, _⟩ => show 0 + 32 ≤ 32; omega
  | ⟨4, _⟩ => show 0 + 128 ≤ 128; omega

/-- The grid coordinate, as the word the kernel makes of it, is below 4. -/
theorem coord_lt (i : grid0.Coords) : (BitVec.ofNat 32 (i 0).val).toNat < 4 := by
  have h : (i 0).val < 4 := (i 0).isLt
  rw [BitVec.toNat_ofNat]
  omega

/-- Both windows of a guarded word fit. -/
theorem fit_both (i : grid0.Coords) (v : BitVec 32) :
    (guard v = 1#1 → ∀ a, (![0, (BitVec.ofNat 32 (i 0).val).toNat, v.toNat, 0, 0] : Fin 5 → Nat) a + S1x1x1x32x128.size a ≤ S2x4x4096x32x128.size a) ∧
    (guard v = 1#1 → ∀ a, (![1, (BitVec.ofNat 32 (i 0).val).toNat, v.toNat, 0, 0] : Fin 5 → Nat) a + S1x1x1x32x128.size a ≤ S2x4x4096x32x128.size a) :=
  ⟨fun h => fit 0 _ _ (by omega) (coord_lt i) (toNat_lt_of_guard v h), fun h => fit 1 _ _ (by omega) (coord_lt i) (toNat_lt_of_guard v h)⟩

/-- The guard with "the word read unsigned is l" says the word names row l. -/
theorem guard_hits (v : BitVec 32) (l : Nat) : (guard v = 1#1 ∧ v.toNat = l) ↔ Cert.Proof.Rows.hits v l :=
  ⟨fun ⟨h, e⟩ => ⟨((guard_iff v).1 h).1, ((guard_iff v).1 h).2, e⟩, fun ⟨h0, h1, e⟩ => ⟨(guard_iff v).2 ⟨h0, h1⟩, e⟩⟩

/-! ## The sixteen guards -/

theorem cond_iff_1 (v : BitVec 32) : k0_cond1 v = 1#1 ↔ (0 ≤ v.toInt ∧ v.toInt < 4096) := guard_iff v
theorem chk_1 (i : grid0.Coords) (v : BitVec 32) : k0_chk1 i v := fit_both i v
theorem cond_hits_1 (v : BitVec 32) (l : Nat) : (k0_cond1 v = 1#1 ∧ v.toNat = l) ↔ Cert.Proof.Rows.hits v l := guard_hits v l

theorem cond_iff_2 (v : BitVec 32) : k0_cond2 v = 1#1 ↔ (0 ≤ v.toInt ∧ v.toInt < 4096) := guard_iff v
theorem chk_2 (i : grid0.Coords) (v : BitVec 32) : k0_chk2 i v := fit_both i v
theorem cond_hits_2 (v : BitVec 32) (l : Nat) : (k0_cond2 v = 1#1 ∧ v.toNat = l) ↔ Cert.Proof.Rows.hits v l := guard_hits v l

theorem cond_iff_3 (v : BitVec 32) : k0_cond3 v = 1#1 ↔ (0 ≤ v.toInt ∧ v.toInt < 4096) := guard_iff v
theorem chk_3 (i : grid0.Coords) (v : BitVec 32) : k0_chk3 i v := fit_both i v
theorem cond_hits_3 (v : BitVec 32) (l : Nat) : (k0_cond3 v = 1#1 ∧ v.toNat = l) ↔ Cert.Proof.Rows.hits v l := guard_hits v l

theorem cond_iff_4 (v : BitVec 32) : k0_cond4 v = 1#1 ↔ (0 ≤ v.toInt ∧ v.toInt < 4096) := guard_iff v
theorem chk_4 (i : grid0.Coords) (v : BitVec 32) : k0_chk4 i v := fit_both i v
theorem cond_hits_4 (v : BitVec 32) (l : Nat) : (k0_cond4 v = 1#1 ∧ v.toNat = l) ↔ Cert.Proof.Rows.hits v l := guard_hits v l

theorem cond_iff_5 (v : BitVec 32) : k0_cond5 v = 1#1 ↔ (0 ≤ v.toInt ∧ v.toInt < 4096) := guard_iff v
theorem chk_5 (i : grid0.Coords) (v : BitVec 32) : k0_chk5 i v := fit_both i v
theorem cond_hits_5 (v : BitVec 32) (l : Nat) : (k0_cond5 v = 1#1 ∧ v.toNat = l) ↔ Cert.Proof.Rows.hits v l := guard_hits v l

theorem cond_iff_6 (v : BitVec 32) : k0_cond6 v = 1#1 ↔ (0 ≤ v.toInt ∧ v.toInt < 4096) := guard_iff v
theorem chk_6 (i : grid0.Coords) (v : BitVec 32) : k0_chk6 i v := fit_both i v
theorem cond_hits_6 (v : BitVec 32) (l : Nat) : (k0_cond6 v = 1#1 ∧ v.toNat = l) ↔ Cert.Proof.Rows.hits v l := guard_hits v l

theorem cond_iff_7 (v : BitVec 32) : k0_cond7 v = 1#1 ↔ (0 ≤ v.toInt ∧ v.toInt < 4096) := guard_iff v
theorem chk_7 (i : grid0.Coords) (v : BitVec 32) : k0_chk7 i v := fit_both i v
theorem cond_hits_7 (v : BitVec 32) (l : Nat) : (k0_cond7 v = 1#1 ∧ v.toNat = l) ↔ Cert.Proof.Rows.hits v l := guard_hits v l

theorem cond_iff_8 (v : BitVec 32) : k0_cond8 v = 1#1 ↔ (0 ≤ v.toInt ∧ v.toInt < 4096) := guard_iff v
theorem chk_8 (i : grid0.Coords) (v : BitVec 32) : k0_chk8 i v := fit_both i v
theorem cond_hits_8 (v : BitVec 32) (l : Nat) : (k0_cond8 v = 1#1 ∧ v.toNat = l) ↔ Cert.Proof.Rows.hits v l := guard_hits v l

theorem cond_iff_9 (v : BitVec 32) : k0_cond9 v = 1#1 ↔ (0 ≤ v.toInt ∧ v.toInt < 4096) := guard_iff v
theorem chk_9 (i : grid0.Coords) (v : BitVec 32) : k0_chk9 i v := fit_both i v
theorem cond_hits_9 (v : BitVec 32) (l : Nat) : (k0_cond9 v = 1#1 ∧ v.toNat = l) ↔ Cert.Proof.Rows.hits v l := guard_hits v l

theorem cond_iff_10 (v : BitVec 32) : k0_cond10 v = 1#1 ↔ (0 ≤ v.toInt ∧ v.toInt < 4096) := guard_iff v
theorem chk_10 (i : grid0.Coords) (v : BitVec 32) : k0_chk10 i v := fit_both i v
theorem cond_hits_10 (v : BitVec 32) (l : Nat) : (k0_cond10 v = 1#1 ∧ v.toNat = l) ↔ Cert.Proof.Rows.hits v l := guard_hits v l

theorem cond_iff_11 (v : BitVec 32) : k0_cond11 v = 1#1 ↔ (0 ≤ v.toInt ∧ v.toInt < 4096) := guard_iff v
theorem chk_11 (i : grid0.Coords) (v : BitVec 32) : k0_chk11 i v := fit_both i v
theorem cond_hits_11 (v : BitVec 32) (l : Nat) : (k0_cond11 v = 1#1 ∧ v.toNat = l) ↔ Cert.Proof.Rows.hits v l := guard_hits v l

theorem cond_iff_12 (v : BitVec 32) : k0_cond12 v = 1#1 ↔ (0 ≤ v.toInt ∧ v.toInt < 4096) := guard_iff v
theorem chk_12 (i : grid0.Coords) (v : BitVec 32) : k0_chk12 i v := fit_both i v
theorem cond_hits_12 (v : BitVec 32) (l : Nat) : (k0_cond12 v = 1#1 ∧ v.toNat = l) ↔ Cert.Proof.Rows.hits v l := guard_hits v l

theorem cond_iff_13 (v : BitVec 32) : k0_cond13 v = 1#1 ↔ (0 ≤ v.toInt ∧ v.toInt < 4096) := guard_iff v
theorem chk_13 (i : grid0.Coords) (v : BitVec 32) : k0_chk13 i v := fit_both i v
theorem cond_hits_13 (v : BitVec 32) (l : Nat) : (k0_cond13 v = 1#1 ∧ v.toNat = l) ↔ Cert.Proof.Rows.hits v l := guard_hits v l

theorem cond_iff_14 (v : BitVec 32) : k0_cond14 v = 1#1 ↔ (0 ≤ v.toInt ∧ v.toInt < 4096) := guard_iff v
theorem chk_14 (i : grid0.Coords) (v : BitVec 32) : k0_chk14 i v := fit_both i v
theorem cond_hits_14 (v : BitVec 32) (l : Nat) : (k0_cond14 v = 1#1 ∧ v.toNat = l) ↔ Cert.Proof.Rows.hits v l := guard_hits v l

theorem cond_iff_15 (v : BitVec 32) : k0_cond15 v = 1#1 ↔ (0 ≤ v.toInt ∧ v.toInt < 4096) := guard_iff v
theorem chk_15 (i : grid0.Coords) (v : BitVec 32) : k0_chk15 i v := fit_both i v
theorem cond_hits_15 (v : BitVec 32) (l : Nat) : (k0_cond15 v = 1#1 ∧ v.toNat = l) ↔ Cert.Proof.Rows.hits v l := guard_hits v l

theorem cond_iff_16 (v : BitVec 32) : k0_cond16 v = 1#1 ↔ (0 ≤ v.toInt ∧ v.toInt < 4096) := guard_iff v
theorem chk_16 (i : grid0.Coords) (v : BitVec 32) : k0_chk16 i v := fit_both i v
theorem cond_hits_16 (v : BitVec 32) (l : Nat) : (k0_cond16 v = 1#1 ∧ v.toNat = l) ↔ Cert.Proof.Rows.hits v l := guard_hits v l

end Cert.Proof.KGuards
-- ==== Proof.KernelBody.lean ====
/-
  The kernel body at one grid point, run once at symbolic operands.

  At point b the body copies batch b of the two caches into the two halves of the result (two transfers between
  arrays left in HBM, each on a cell of its own, both waited before anything else), then for t = 0, …, 15 reads the
  position word of (b, t) from the table and, when the word read signed lies in [0, 4096), copies row t of the two
  staged blocks onto that row of batch b in the two halves (two transfers on two further cells, both waited inside the
  branch). Every transfer is waited at the point that issued it, so the point starts and ends with the four cells at
  zero and everything it was lent back in its hands; a word outside the range skips its branch, so the window's
  side condition, which is stated under the branch's condition, holds of every word.

  `bodyRun` packages the run with what it leaves in the result's buffer: that contents is the witness the run finds
  (one guarded write per t over the bulk copy, the guards undecided), and it depends only on the point, the two staged
  blocks, the table, the two caches and the result's contents before the point.
-/
import proofs.«429403_j7868380086953_3_alg».proof.Proof.Gen.Kernel
import proofs.«429403_j7868380086953_3_alg».proof.Proof.Gen.Kernel.Skeleton
import proofs.«429403_j7868380086953_3_alg».proof.Proof.Gen.Kernel.Launch
import proofs.«429403_j7868380086953_3_alg».proof.Proof.KGuards
import Idealize.ShloMosaic.Lib.Transfers
import Idealize.ShloMosaic.Lib.Writes
import Idealize.ShloMosaic.Lib.Pipeline.FrameBody
import Idealize.ShloMosaic.Lib.Pipeline.Kit
import Idealize.ShloMosaic.Lib.Tactic

noncomputable section

namespace Cert.Proof.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the transfers' invariants draw on. -/
abbrev UC : Type := UR sig nD τ × Counters

local notation "𝕄" => MT nD τ sig Unit (Elt F) ℕ UC ℕ

/-- A memref's buffer on core `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own cells: two for the bulk copies, two for the row copies. -/
abbrev osem : Fin 4 → SemLoc sig := fun | 0 => .dma 4 | 1 => .dma 5 | 2 => .dma 6 | 3 => .dma 7

/-- The four counters at zero. -/
abbrev sems0 (c : Dev nD) : sProp 𝕄 :=
  iprop(semVal ((c : Thread nD τ), osem 0) 0 ∗ semVal ((c : Thread nD τ), osem 1) 0 ∗ semVal ((c : Thread nD τ), osem 2) 0
    ∗ semVal ((c : Thread nD τ), osem 3) 0)

/-- What the point holds besides the result's buffer, before and after: the two staged blocks, the table, the two
    caches. -/
abbrev held (c : Dev nD) (M2 M3 : Memref sig .tc .vmem S1x16x32x128 .f32) (x2 x3 : Vec F S1x16x32x128 .f32)
    (fp : Bf (F := F) c (Memref.whole main_arg6)) (f4 : Bf (F := F) c (Memref.whole main_arg4)) (f5 : Bf (F := F) c (Memref.whole main_arg5)) : sProp 𝕄 :=
  iprop(owns (c : Thread nD τ) M2 fullShare x2 ∗ owns (c : Thread nD τ) M3 fullShare x3 ∗ pt c (Memref.whole main_arg6) fp ∗ pt c (Memref.whole main_arg4) f4 ∗ pt c (Memref.whole main_arg5) f5)

set_option maxHeartbeats 4000000 in
/-- The body at point `i`, from the staged blocks `x2`, `x3`, the table `fp`, the caches `f4`, `f5` and the result at
    `fo`: it runs to its return with all of those as they were, the cells at zero again, and the result's buffer at
    the contents the run finds — the witness. -/
noncomputable def bodyRun (c : Dev nD) (i : grid0.Coords)
    (M2 : Memref sig .tc .vmem S1x16x32x128 .f32) (h2 : M2.IsWhole) (M3 : Memref sig .tc .vmem S1x16x32x128 .f32) (h3 : M3.IsWhole)
    (x2 x3 : Vec F S1x16x32x128 .f32)
    (fp : Bf (F := F) c (Memref.whole main_arg6)) (f4 : Bf (F := F) c (Memref.whole main_arg4)) (f5 : Bf (F := F) c (Memref.whole main_arg5))
    (fo : Bf (F := F) c (Memref.whole main_v35)) :
    { fo' : Bf (F := F) c (Memref.whole main_v35) //
      ∀ (W : Waits sig Unit) (Q : PUnit → sProp 𝕄),
        iprop(held c M2 M3 x2 x3 fp f4 f5 ∗ pt c (Memref.whole main_v35) fo ∗ sems0 c ∗ owes (c : Thread nD τ) 0 W
          ∗ (iprop(held c M2 M3 x2 x3 fp f4 f5 ∗ pt c (Memref.whole main_v35) fo' ∗ sems0 c ∗ ∃ W', owes (c : Thread nD τ) 0 W') -∗ Q ⟨⟩))
        ⊢ wp frame (wpE (defs₀ (F := F)) Variants.none c none) Set.univ
            (cc0__kernel i (Memref.whole main_arg6) (Memref.isWhole_whole _) M2 h2 M3 h3 (Memref.whole main_arg4) (Memref.isWhole_whole _)
              (Memref.whole main_arg5) (Memref.isWhole_whole _) (Memref.whole main_v35) (Memref.isWhole_whole _) cc0_scratch0 cc0_scratch1) Q } := by
  have hchk1 : ∀ v : BitVec 32, k0_chk1 i v := Cert.Proof.KGuards.chk_1 i
  have hchk2 : ∀ v : BitVec 32, k0_chk2 i v := Cert.Proof.KGuards.chk_2 i
  have hchk3 : ∀ v : BitVec 32, k0_chk3 i v := Cert.Proof.KGuards.chk_3 i
  have hchk4 : ∀ v : BitVec 32, k0_chk4 i v := Cert.Proof.KGuards.chk_4 i
  have hchk5 : ∀ v : BitVec 32, k0_chk5 i v := Cert.Proof.KGuards.chk_5 i
  have hchk6 : ∀ v : BitVec 32, k0_chk6 i v := Cert.Proof.KGuards.chk_6 i
  have hchk7 : ∀ v : BitVec 32, k0_chk7 i v := Cert.Proof.KGuards.chk_7 i
  have hchk8 : ∀ v : BitVec 32, k0_chk8 i v := Cert.Proof.KGuards.chk_8 i
  have hchk9 : ∀ v : BitVec 32, k0_chk9 i v := Cert.Proof.KGuards.chk_9 i
  have hchk10 : ∀ v : BitVec 32, k0_chk10 i v := Cert.Proof.KGuards.chk_10 i
  have hchk11 : ∀ v : BitVec 32, k0_chk11 i v := Cert.Proof.KGuards.chk_11 i
  have hchk12 : ∀ v : BitVec 32, k0_chk12 i v := Cert.Proof.KGuards.chk_12 i
  have hchk13 : ∀ v : BitVec 32, k0_chk13 i v := Cert.Proof.KGuards.chk_13 i
  have hchk14 : ∀ v : BitVec 32, k0_chk14 i v := Cert.Proof.KGuards.chk_14 i
  have hchk15 : ∀ v : BitVec 32, k0_chk15 i v := Cert.Proof.KGuards.chk_15 i
  have hchk16 : ∀ v : BitVec 32, k0_chk16 i v := Cert.Proof.KGuards.chk_16 i
  refine ⟨?_, fun W Q => ?run⟩
  case run =>
    unfold held owns
    iintro ⟨⟨⟨%g2, %hg2, H2⟩, ⟨%g3, %hg3, H3⟩, Hp, H4, H5⟩, Ho, ⟨Hs4, Hs5, Hs6, Hs7⟩, HO, Hk⟩
    obtain rfl := h2.eq_unread hg2
    obtain rfl := h3.eq_unread hg3
    sl_exec!
    sl_step
    iapply Hk
    isplitl [H2 H3 Hp H4 H5]
    · isplitl [H2]
      · iexists _; isplitr; (· ipureintro; exact h2.read_unread _); iexact H2
      isplitl [H3]
      · iexists _; isplitr; (· ipureintro; exact h3.read_unread _); iexact H3
      isplitl [Hp]; · iexact Hp
      isplitl [H4]; · iexact H4
      iexact H5
    isplitl [Ho]; · iexact Ho
    isplitl [Hs4 Hs5 Hs6 Hs7]
    · isplitl [Hs4]; · iexact Hs4
      isplitl [Hs5]; · iexact Hs5
      isplitl [Hs6]; · iexact Hs6
      iexact Hs7
    iexists _; iexact HO

end Cert.Proof.KernelRun

end
-- ==== Proof.KernelData.lean ====
/-
  The kernel program's pipeline: its proof data and the body obligation at every grid point.

  The pipeline has two input windows (the rotated keys and the new values, one block of sixteen rows per batch, fetched
  at every point) and no output window: the result, the two caches and the position table are arrays the kernel moves
  itself. Between points the invariant holds the result's buffer at what the points so far have left in it
  (`outAt`: by recursion on the point, each point's contents the body's found witness over the previous point's), the
  table and the two caches as launched, and the kernel's four cells at zero.
-/
import proofs.«429403_j7868380086953_3_alg».proof.Proof.KernelBody
import Idealize.ShloMosaic.Lib.Pipeline.Regions
import Idealize.ShloMosaic.Lib.Pipeline.Frame

noncomputable section

namespace Cert.Proof.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- The pipeline library's algebra is the left component of the proof's. -/
abbrev EP : Emb (UR sig nD τ) (MT nD τ sig Unit (Elt F) ℕ UC ℕ) := embL

variable (m : (ℓ : Loc nD τ sig) → Buf (Elt F) ℓ) (ρ : Dev nD → PrngReg)

/-- Core `c`'s buffers at launch, as the host operations' valuation; -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- The position table's contents at launch, on the one device: what the region reads at its entry. -/
def pf0 : pre0.Contents (Elt F) := fun k => m ((((0 : Dev nD)) : Thread nD τ).loc (pre0.ref k))

/-- They are admissible: this pipeline's index maps read no table, so its side condition on the tables is empty. -/
def adm : (p : Fin 1) → (pcfgs (F := F) p).Adm := fun _ => ⟨pf0 m, (show ok0 (pf0 m) from by unfold ok0; trivial)⟩

/-- The pipeline at those contents. -/
abbrev cfgA : Pipeline.Cfg sig Λ₀ := Pipeline.pin (pcfgs (F := F)) (adm m) 0

/-- What the fetch of window `w` stages at point `t`: the block of its array there. -/
abbrev stg (c : Dev nD) (w : Fin (cfgA m).W) (t : Fin (cfgA m).N) : ((cfgA m).win w).block.Idx → Elt F ((cfgA m).win w).elt :=
  (((cfgA m).win w).blk t).view.read (Elt F) (V m ρ c (Pipeline.arrRef spec0 w))

/-- The table and the caches as the body holds them: the launch's contents. -/
abbrev tbl (c : Dev nD) : Bf (F := F) c (Memref.whole main_arg6) := V m ρ c main_arg6
abbrev ck (c : Dev nD) : Bf (F := F) c (Memref.whole main_arg4) := V m ρ c main_arg4
abbrev cv (c : Dev nD) : Bf (F := F) c (Memref.whole main_arg5) := V m ρ c main_arg5

/-- One point's effect on the result's buffer: the body's found witness, at the point's staging memrefs and blocks. -/
def step (c : Dev nD) (t : Fin (cfgA m).N) (fo : Bf (F := F) c (Memref.whole main_v35)) : Bf (F := F) c (Memref.whole main_v35) :=
  (bodyRun c (grid0.coords t) (spec0_0.stage ((cfgA m).slots t 0)) (hstage0_0 (((cfgA m).slots t 0).cast nbuf0_0))
    (spec0_1.stage ((cfgA m).slots t 1)) (hstage0_1 (((cfgA m).slots t 1).cast nbuf0_1))
    (stg m ρ c 0 t) (stg m ρ c 1 t) (tbl m ρ c) (ck m ρ c) (cv m ρ c) fo).1

/-- The result's buffer before point `n` (after point `n - 1`): the launch's contents, then one step per point. -/
def outAtN (c : Dev nD) : Nat → Bf (F := F) c (Memref.whole main_v35)
  | 0 => V m ρ c main_v35
  | n + 1 => if h : n < (cfgA m).N then step m ρ c ⟨n, h⟩ (outAtN c n) else outAtN c n

theorem outAtN_succ (c : Dev nD) (t : Fin (cfgA m).N) : outAtN m ρ c (t.val + 1) = step m ρ c t (outAtN m ρ c t.val) := by
  rw [outAtN, dif_pos t.isLt]

/-- The invariant before point `n`: the result at `outAtN n`, the table and the caches as launched, the cells at zero. -/
def Φc (c : Dev nD) (n : Nat) : sProp 𝕄 :=
  iprop(pt c (Memref.whole main_v35) (outAtN m ρ c n) ∗ pt c (Memref.whole main_arg6) (tbl m ρ c) ∗ pt c (Memref.whole main_arg4) (ck m ρ c)
    ∗ pt c (Memref.whole main_arg5) (cv m ρ c) ∗ sems0 c)

/-- The proof data on core `c`: each window's array at its entry contents; after the body each staging buffer as
    fetched; the invariant; nothing owed; the full share. -/
def dats (_ : Fin 1) (c : Dev nD) : Dat τ (Elt F) Unit ℕ UC ℕ (cfgA m) c where
  A w := V m ρ c (Pipeline.arrRef spec0 w)
  after w t := stg m ρ c w t
  Φ n := Φc m ρ c n.val
  q _ := fullShare
  owed _ := 0

abbrev 𝒱₀ : Variants := Variants.none

/-- Every point fetches both windows (each window's block index is the point's batch). -/
theorem tr_0 : ∀ t : Fin grid0.N, cc0_transform_0 (grid0.coords t) (0 : Fin 4) = t.val := by decide
theorem tr_1 : ∀ t : Fin grid0.N, cc0_transform_1 (grid0.coords t) (0 : Fin 4) = t.val := by decide
theorem ix_0 (t : Fin (cfgA m).N) : ((cfgA m).win (0 : Fin 2)).index t (0 : Fin 4) = t.val := tr_0 t
theorem fetch_0 (t : Fin (cfgA m).N) : ((cfgA m).win (0 : Fin 2)).fetch t = true := by
  have hne : ∀ t t' : Fin (cfgA m).N, t.val ≠ t'.val → ((cfgA m).win (0 : Fin 2)).index t ≠ ((cfgA m).win (0 : Fin 2)).index t' := fun t t' h e =>
    h (by rw [← ix_0 m t, ← ix_0 m t']; exact congrFun e _)
  have key : t.val = 0 ∨ ∃ _ : 0 < t.val, ((cfgA m).win (0 : Fin 2)).index t
      ≠ ((cfgA m).win (0 : Fin 2)).index ⟨t.val - 1, Nat.lt_of_le_of_lt (Nat.sub_le _ _) t.isLt⟩ := by
    by_cases h0 : t.val = 0
    · exact .inl h0
    · exact .inr ⟨Nat.pos_of_ne_zero h0, hne _ _ (by show t.val ≠ t.val - 1; omega)⟩
  simp only [Pipeline.Window.fetch, Bool.and_eq_true, Bool.not_eq_true', Bool.or_eq_true, decide_eq_true_eq]
  exact ⟨by first | rfl | trivial, key⟩
theorem ix_1 (t : Fin (cfgA m).N) : ((cfgA m).win (1 : Fin 2)).index t (0 : Fin 4) = t.val := tr_1 t
theorem fetch_1 (t : Fin (cfgA m).N) : ((cfgA m).win (1 : Fin 2)).fetch t = true := by
  have hne : ∀ t t' : Fin (cfgA m).N, t.val ≠ t'.val → ((cfgA m).win (1 : Fin 2)).index t ≠ ((cfgA m).win (1 : Fin 2)).index t' := fun t t' h e =>
    h (by rw [← ix_1 m t, ← ix_1 m t']; exact congrFun e _)
  have key : t.val = 0 ∨ ∃ _ : 0 < t.val, ((cfgA m).win (1 : Fin 2)).index t
      ≠ ((cfgA m).win (1 : Fin 2)).index ⟨t.val - 1, Nat.lt_of_le_of_lt (Nat.sub_le _ _) t.isLt⟩ := by
    by_cases h0 : t.val = 0
    · exact .inl h0
    · exact .inr ⟨Nat.pos_of_ne_zero h0, hne _ _ (by show t.val ≠ t.val - 1; omega)⟩
  simp only [Pipeline.Window.fetch, Bool.and_eq_true, Bool.not_eq_true', Bool.or_eq_true, decide_eq_true_eq]
  exact ⟨by first | rfl | trivial, key⟩

/-- A fetched window's buffer holds the array's block when the body runs. -/
theorem before_0 (c : Dev nD) (t : Fin (cfgA m).N) (d : ((cfgA m).win (0 : Fin 2)).block.Idx → Elt F ((cfgA m).win (0 : Fin 2)).elt) :
    (dats m ρ 0 c).before (0 : Fin 2) t d = stg m ρ c (0 : Fin 2) t := by
  unfold Dat.before; rw [if_pos (fetch_0 m t)]; unfold Dat.fetched Dat.blockOf; dsimp only [dats]; rfl
theorem before_1 (c : Dev nD) (t : Fin (cfgA m).N) (d : ((cfgA m).win (1 : Fin 2)).block.Idx → Elt F ((cfgA m).win (1 : Fin 2)).elt) :
    (dats m ρ 0 c).before (1 : Fin 2) t d = stg m ρ c (1 : Fin 2) t := by
  unfold Dat.before; rw [if_pos (fetch_1 m t)]; unfold Dat.fetched Dat.blockOf; dsimp only [dats]; rfl

/-- The library's body obligation at every point: the two staged blocks and the invariant taken apart, the body's run
    applied at the point's blocks, its post reassembled with the result one step further. -/
theorem body_obligation (c : Dev nD) : BodyObligation (dats m ρ 0 c) (defs₀ (F := F)) 𝒱₀ () Set.univ := fun t => by
  rw [bigSep_W0, bigSep_W0]
  simp only [before_0 m ρ c, before_1 m ρ c]
  rw [show (dats m ρ 0 c).Φ t.castSucc = Φc m ρ c t.val from rfl, show (dats m ρ 0 c).Φ t.succ = Φc m ρ c (t.val + 1) from rfl]
  unfold Φc Dat.owesAt Pipeline.owesWithin
  rw [show (dats m ρ 0 c).owed t.castSucc = 0 from rfl, show (dats m ρ 0 c).owed t.succ = 0 from rfl, outAtN_succ]
  unfold step
  iintro ⟨⟨Ho, Hp, H4, H5, Hsems⟩, ⟨%W, %hW, HO⟩, ⟨%d0, H0⟩, ⟨%d1, H1⟩⟩
  iapply ((bodyRun c (grid0.coords t) _ _ _ _ (stg m ρ c 0 t) (stg m ρ c 1 t) (tbl m ρ c) (ck m ρ c) (cv m ρ c) (outAtN m ρ c t.val)).2 W _)
  isplitl [H0 H1 Hp H4 H5]
  · isplitl [H0]; · iexact H0
    isplitl [H1]; · iexact H1
    isplitl [Hp]; · iexact Hp
    isplitl [H4]; · iexact H4
    iexact H5
  isplitl [Ho]; · iexact Ho
  isplitl [Hsems]; · iexact Hsems
  isplitl [HO]; · iexact HO
  iintro ⟨⟨H0, H1, Hp, H4, H5⟩, Ho, Hsems, ⟨%W', HO⟩⟩
  isplitl [Ho Hp H4 H5 Hsems]
  · isplitl [Ho]; · iexact Ho
    isplitl [Hp]; · iexact Hp
    isplitl [H4]; · iexact H4
    isplitl [H5]; · iexact H5
    iexact Hsems
  isplitl [HO]
  · iexists W'; isplitr; · ipureintro; exact fun _ _ => Or.inl trivial
    iexact HO
  isplitl [H0]; · iexact H0
  iexact H1

end Cert.Proof.KernelRun

end
-- ==== Proof.KernelHost.lean ====
/-
  The host prefix of the program: the rotated new keys.

  Before the kernel the program computes, from the new keys, the cosine and sine tables and the positions, the new
  keys rotated: each position, wrapped once if negative (4096 added), picks a row of each table; the keys' last axis
  is read as 64 (even, odd) pairs; and a pair (e, o) at a position whose rows hold (c, s) becomes
  (e·c − o·s, e·s + o·c), the pairs laid back along the last axis. `krot` is that array as one term over the four
  arguments, and the 39 operations leave exactly it in the buffer the kernel stages from; they write none of the
  arguments, nor the kernel's result buffer.
-/
import proofs.«429403_j7868380086953_3_alg».proof.Proof.Gen.Kernel.Launch
import Idealize.ShloMosaic.Lib.StableHlo.Run
import Idealize.ShloMosaic.Lib.Pipeline.Regions

noncomputable section

namespace Cert.Proof.KernelRun

open Cert.Kernel Cert.Kernel.Gen Idealize.ShloMosaic

variable {F : FTy → Type} [FloatOps F]

/-- The positions, a negative one wrapped by the table's 4096 rows. -/
def wrapped (a6 : IVec S4x16 32) : IVec S4x16 32 :=
  select (cmpi .slt a6 (broadcastInDim S4x16 ![] bcast_S_S4x16 (constantI S_ 32 0#32)))
    (addi a6 (broadcastInDim S4x16 ![] bcast_S_S4x16 (constantI S_ 32 4096#32))) a6

/-- A table's rows at the wrapped positions, laid along the 32 heads. -/
def rowsOf (a : FVec F S4096x64 .f32) (a6 : IVec S4x16 32) : FVec F S4x16x32x64 .f32 :=
  broadcastInDim S4x16x32x64 ![0, 1, 2, 3] bcast_S4x16x1x64_S4x16x32x64_0_1_2_3
    (broadcastInDim S4x16x1x64 ![0, 1, 3] bcast_S4x16x64_S4x16x1x64_0_1_3
      (Host.gather gather_S4096x64_S4x16x1_S4x16x64_2_0_n_n_0_2_164 a
        (broadcastInDim S4x16x1 ![0, 1] bcast_S4x16_S4x16x1_0_1 (wrapped a6))))

/-- The new keys' last axis as 64 pairs. -/
def pairs (a0 : FVec F S4x16x32x128 .f32) : FVec F S4x16x32x64x2 .f32 :=
  shapeCast S4x16x32x64x2 a0 shapeCasts_S4x16x32x128_S4x16x32x64x2

/-- The even members of the pairs. -/
def evens (a0 : FVec F S4x16x32x128 .f32) : FVec F S4x16x32x64 .f32 :=
  shapeCast S4x16x32x64 (extractStridedSlice S4x16x32x64x1 ![0, 0, 0, 0, 0] (pairs a0) slices_S4x16x32x64x2_S4x16x32x64x1_0_0_0_0_0)
    shapeCasts_S4x16x32x64x1_S4x16x32x64

/-- The odd members of the pairs. -/
def odds (a0 : FVec F S4x16x32x128 .f32) : FVec F S4x16x32x64 .f32 :=
  shapeCast S4x16x32x64 (extractStridedSlice S4x16x32x64x1 ![0, 0, 0, 0, 1] (pairs a0) slices_S4x16x32x64x2_S4x16x32x64x1_0_0_0_0_1)
    shapeCasts_S4x16x32x64x1_S4x16x32x64

/-- The rotated new keys: the pair (e, o) under (c, s) becomes (e·c − o·s, e·s + o·c). -/
def krot (a0 : FVec F S4x16x32x128 .f32) (a2 a3 : FVec F S4096x64 .f32) (a6 : IVec S4x16 32) : FVec F S4x16x32x128 .f32 :=
  shapeCast S4x16x32x128
    (concatenate S4x16x32x64x2 4
      [⟨S4x16x32x64x1, broadcastInDim S4x16x32x64x1 ![0, 1, 2, 3] bcast_S4x16x32x64_S4x16x32x64x1_0_1_2_3
          (subf (mulf (evens a0) (rowsOf a2 a6)) (mulf (odds a0) (rowsOf a3 a6)))⟩,
       ⟨S4x16x32x64x1, broadcastInDim S4x16x32x64x1 ![0, 1, 2, 3] bcast_S4x16x32x64_S4x16x32x64x1_0_1_2_3
          (addf (mulf (evens a0) (rowsOf a3 a6)) (mulf (odds a0) (rowsOf a2 a6)))⟩]
      concatenates_S4x16x32x64x1_S4x16x32x64x1_S4x16x32x64x2_d4)
    shapeCasts_S4x16x32x64x2_S4x16x32x128

/-- The 39 operations leave the rotated new keys in the buffer the kernel stages from. -/
theorem after_krot (W : Valuation τ sig (Elt F)) :
    StableHlo.after (hostOps0 (F := F)) W (Proc.devRef .tc main_v34)
      = krot (W (Proc.devRef .tc main_arg0)) (W (Proc.devRef .tc main_arg2)) (W (Proc.devRef .tc main_arg3)) (W (Proc.devRef .tc main_arg6)) := by
  open Idealize.ShloMosaic.StableHlo in after_results_simp
  rfl

/-- No host operation writes a buffer that is none of the 39 results: such a buffer reaches the kernel as launched. -/
theorem not_written (b : Ref sig .tc)
    (hb : b ≠ main_c ∧ b ≠ main_v0 ∧ b ≠ main_v1 ∧ b ≠ main_c_0 ∧ b ≠ main_v2 ∧ b ≠ main_v3 ∧ b ≠ main_v4 ∧ b ≠ main_v5 ∧ b ≠ main_v6 ∧ b ≠ main_v7 ∧ b ≠ main_c_1 ∧ b ≠ main_v8 ∧ b ≠ main_v9 ∧ b ≠ main_c_2 ∧ b ≠ main_v10 ∧ b ≠ main_v11 ∧ b ≠ main_v12 ∧ b ≠ main_v13 ∧ b ≠ main_v14 ∧ b ≠ main_v15 ∧ b ≠ main_v16 ∧ b ≠ main_v17 ∧ b ≠ main_v18 ∧ b ≠ main_v19 ∧ b ≠ main_v20 ∧ b ≠ main_v21 ∧ b ≠ main_v22 ∧ b ≠ main_v23 ∧ b ≠ main_v24 ∧ b ≠ main_v25 ∧ b ≠ main_v26 ∧ b ≠ main_v27 ∧ b ≠ main_v28 ∧ b ≠ main_v29 ∧ b ≠ main_v30 ∧ b ≠ main_v31 ∧ b ≠ main_v32 ∧ b ≠ main_v33 ∧ b ≠ main_v34) :
    ∀ op ∈ (hostOps0 (F := F)), Proc.devRef .tc b ∉ op.writes := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes,
      Finset.mem_singleton] <;>
    exact StableHlo.devRef_ne_of_ne ‹_›

/-- The new keys reach the kernel as launched. -/
theorem after_arg0 (W : Valuation τ sig (Elt F)) :
    StableHlo.after (hostOps0 (F := F)) W (Proc.devRef .tc main_arg0) = W (Proc.devRef .tc main_arg0) :=
  StableHlo.after_of_forall_not_mem (b := Proc.devRef .tc main_arg0) hostOps0 W (not_written main_arg0 (by decide))

/-- The new values reach the kernel as launched. -/
theorem after_arg1 (W : Valuation τ sig (Elt F)) :
    StableHlo.after (hostOps0 (F := F)) W (Proc.devRef .tc main_arg1) = W (Proc.devRef .tc main_arg1) :=
  StableHlo.after_of_forall_not_mem (b := Proc.devRef .tc main_arg1) hostOps0 W (not_written main_arg1 (by decide))

/-- The cosine table reaches the kernel as launched. -/
theorem after_arg2 (W : Valuation τ sig (Elt F)) :
    StableHlo.after (hostOps0 (F := F)) W (Proc.devRef .tc main_arg2) = W (Proc.devRef .tc main_arg2) :=
  StableHlo.after_of_forall_not_mem (b := Proc.devRef .tc main_arg2) hostOps0 W (not_written main_arg2 (by decide))

/-- The sine table reaches the kernel as launched. -/
theorem after_arg3 (W : Valuation τ sig (Elt F)) :
    StableHlo.after (hostOps0 (F := F)) W (Proc.devRef .tc main_arg3) = W (Proc.devRef .tc main_arg3) :=
  StableHlo.after_of_forall_not_mem (b := Proc.devRef .tc main_arg3) hostOps0 W (not_written main_arg3 (by decide))

/-- The key cache reaches the kernel as launched. -/
theorem after_arg4 (W : Valuation τ sig (Elt F)) :
    StableHlo.after (hostOps0 (F := F)) W (Proc.devRef .tc main_arg4) = W (Proc.devRef .tc main_arg4) :=
  StableHlo.after_of_forall_not_mem (b := Proc.devRef .tc main_arg4) hostOps0 W (not_written main_arg4 (by decide))

/-- The value cache reaches the kernel as launched. -/
theorem after_arg5 (W : Valuation τ sig (Elt F)) :
    StableHlo.after (hostOps0 (F := F)) W (Proc.devRef .tc main_arg5) = W (Proc.devRef .tc main_arg5) :=
  StableHlo.after_of_forall_not_mem (b := Proc.devRef .tc main_arg5) hostOps0 W (not_written main_arg5 (by decide))

/-- The positions reach the kernel as launched. -/
theorem after_arg6 (W : Valuation τ sig (Elt F)) :
    StableHlo.after (hostOps0 (F := F)) W (Proc.devRef .tc main_arg6) = W (Proc.devRef .tc main_arg6) :=
  StableHlo.after_of_forall_not_mem (b := Proc.devRef .tc main_arg6) hostOps0 W (not_written main_arg6 (by decide))

/-- The kernel's result buffer reaches the kernel as launched. -/
theorem after_v35 (W : Valuation τ sig (Elt F)) :
    StableHlo.after (hostOps0 (F := F)) W (Proc.devRef .tc main_v35) = W (Proc.devRef .tc main_v35) :=
  StableHlo.after_of_forall_not_mem (b := Proc.devRef .tc main_v35) hostOps0 W (not_written main_v35 (by decide))

end Cert.Proof.KernelRun

end
-- ==== Proof.KernelRun.lean ====
/-
  The kernel program's launch: @main as a stretch of host operations followed by the kernel region.

  The host stretch computes the rotated keys from the arguments; the region is entered from what it leaves: the two
  windows' arrays go to the pipeline, the position table is read at the entry, the result, the two caches and the
  kernel's four cells go into the invariant, and the three arguments only the host stretch reads bypass the region.
  At the end every argument is read back unchanged and the result is at what the four points left in it.
-/
import proofs.«429403_j7868380086953_3_alg».proof.Proof.KernelData
import proofs.«429403_j7868380086953_3_alg».proof.Proof.KernelHost
import Idealize.ShloMosaic.Lib.Pipeline.Regions
import Idealize.ShloMosaic.Lib.Pipeline.Frame

noncomputable section

namespace Cert.Proof.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

variable (m : (ℓ : Loc nD τ sig) → Buf (Elt F) ℓ) (ρ : Dev nD → PrngReg)

/-! ## The launch: @main as a host stretch and the region -/

/-- The layout the launch needs of the kernel's own cells: scoped, distinct, and no staging cell. -/
theorem ownSemFacts : Pipeline.OwnSemFacts spec0 osem := by decide

/-- The launch element: the pipeline library's at the staging cells; no counter yet. -/
def u₀ : UC :=
  (initOf (Pipeline.cells (Pipeline.pin (pcfgs (F := F)) (adm m)) (cellOf_inj (adm m)))
    (Pipeline.launchToks (Pipeline.pin (pcfgs (F := F)) (adm m)) (cellOf_inj (adm m))), 1)

omit [FloatOps F] in
/-- The kernel's own cells at zero, listed. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1, 2, 3] (by decide) (by decide)

/-- No core owes another anything: no level is assigned. -/
abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- THE HOST STRETCH: the operations before the region, over the unscoped buffers. -/
def seg0 : Pipeline.HostSeg (Name := ℕ) (U := UC) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The unscoped buffers that are no window's array and that the proof names: the three arguments only the host
    stretch reads, the two caches, the table, the result. -/
def Hs : Finset (Ref sig .tc) := {main_arg0, main_arg2, main_arg3, main_arg4, main_arg5, main_arg6, main_v35}

theorem Hs_sub : Hs ⊆ Pipeline.restRefs sig spec0 := by decide

/-- Those seven, one by one. -/
theorem bigSep_Hs (Φ : Ref sig .tc → sProp 𝕄) :
    bigSep Hs Φ = iprop(Φ main_arg0 ∗ Φ main_arg2 ∗ Φ main_arg3 ∗ Φ main_arg4 ∗ Φ main_arg5 ∗ Φ main_arg6 ∗ Φ main_v35) := by
  unfold Hs
  rw [bigSep_insert (by decide), bigSep_insert (by decide), bigSep_insert (by decide), bigSep_insert (by decide),
    bigSep_insert (by decide), bigSep_insert (by decide), bigSep_singleton]
  rfl

/-- No host operation writes the table, the caches, the result or an argument: each reaches the region as launched. -/
theorem V_arg0 (c : Dev nD) : V m ρ c main_arg0 = m ((c : Thread nD τ).loc main_arg0) := after_arg0 (V₀ m ρ c)
theorem V_arg1 (c : Dev nD) : V m ρ c main_arg1 = m ((c : Thread nD τ).loc main_arg1) := after_arg1 (V₀ m ρ c)
theorem V_arg2 (c : Dev nD) : V m ρ c main_arg2 = m ((c : Thread nD τ).loc main_arg2) := after_arg2 (V₀ m ρ c)
theorem V_arg3 (c : Dev nD) : V m ρ c main_arg3 = m ((c : Thread nD τ).loc main_arg3) := after_arg3 (V₀ m ρ c)
theorem V_arg4 (c : Dev nD) : V m ρ c main_arg4 = m ((c : Thread nD τ).loc main_arg4) := after_arg4 (V₀ m ρ c)
theorem V_arg5 (c : Dev nD) : V m ρ c main_arg5 = m ((c : Thread nD τ).loc main_arg5) := after_arg5 (V₀ m ρ c)
theorem V_arg6 (c : Dev nD) : V m ρ c main_arg6 = m ((c : Thread nD τ).loc main_arg6) := after_arg6 (V₀ m ρ c)

/-- On the one device the table the body holds is the table the region read at its entry. -/
theorem tbl_eq (c : Dev nD) : tbl m ρ c = (adm m 0).1 0 := by
  obtain rfl : c = 0 := Subsingleton.elim _ _
  exact V_arg6 m ρ 0

/-- What the region leaves for the end: the windows' arrays at their final contents; the result at what the four
    points left, the table and the caches as launched; the three arguments that bypassed the region. -/
abbrev Yc (c : Dev nD) : sProp 𝕄 :=
  iprop(pt c (Memref.whole main_v35) (outAtN m ρ c (cfgA m).N) ∗ pt c (Memref.whole main_arg6) (tbl m ρ c)
    ∗ pt c (Memref.whole main_arg4) (ck m ρ c) ∗ pt c (Memref.whole main_arg5) (cv m ρ c))
abbrev Zc (c : Dev nD) : sProp 𝕄 :=
  iprop(pt c (Memref.whole main_arg0) (V m ρ c main_arg0) ∗ pt c (Memref.whole main_arg2) (V m ρ c main_arg2)
    ∗ pt c (Memref.whole main_arg3) (V m ρ c main_arg3))
abbrev Tₙ (c : Dev nD) : sProp 𝕄 :=
  iprop((dats m ρ 0 c).arrays ((dats m ρ 0 c).arrAt · (cfgA m).N) ∗ Yc m ρ c ∗ Zc m ρ c)

-- `iapply` of a launch lemma stated over the pinned configuration unifies only when unification may unfold plain
-- definitions in a metavariable's type
set_option backward.isDefEq.respectTransparency.types false in
/-- THE REGION: the launch kit's layout, the kernel's four cells, the body obligation; entered from what the host
    stretch left — the windows' arrays into the pipeline, the table read, the result, the caches and the cells into the
    invariant, three arguments bypassing —, left with the arrays at their final contents and the invariant's buffers. -/
def reg0 : Pipeline.RegionSeg (pcfgs (F := F)) (adm m) (dats m ρ) () defs₀ 𝒱₀ L lv 0 where
  win := (launch0 (F := F)).win.to₀
  block_pos := (launch0 (F := F)).block_pos
  stage_whole := (launch0 (F := F)).stage_whole
  K := Fin 4
  osem := osem
  ho := ownSemFacts
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(Tₙ m ρ c ∗ R c)
  X c := iprop(pt c (Memref.whole main_v35) (V m ρ c main_v35) ∗ pt c (Memref.whole main_arg4) (ck m ρ c)
    ∗ pt c (Memref.whole main_arg5) (cv m ρ c) ∗ sems0 c)
  Y c := Yc m ρ c
  Z c := Zc m ρ c
  hentry c := by
    rw [show StableHlo.held (c : Thread nD τ) (Pipeline.ucRefs τ sig) (StableHlo.after hostOps0 (V₀ m ρ c)) = unscopedBufs c (V m ρ c) from (Pipeline.unscopedBufs_held c _).symm,
      ownSems0_eq]
    have hrest : (Pipeline.unscopedRest (Ix := Unit) (Name := ℕ) (U := UC) (Lvl := ℕ) spec0 c (V m ρ c) : sProp 𝕄) = _ :=
      Pipeline.unscopedRest_sdiff (Val := Elt F) spec0 Hs Hs_sub c (V m ρ c)
    rw [bigSep_Hs] at hrest
    have hsplit := (Pipeline.arrays_of_unscopedBufs (pcfgs (F := F)) (adm m) (dats m ρ) (launch0 (F := F)).win (launch0 (F := F)).arr_whole c
      ((dats m ρ 0 c).share_full fun _ => rfl) (V m ρ c) fun _ => rfl).trans (sep_mono .rfl (Entails.of_eq hrest))
    iintro ⟨⟨Hub, HO⟩, Hos, -⟩
    ihave H := hsplit $$ Hub
    icases H with ⟨Ha, ⟨H0, H2, H3, H4, H5, H6, Ho⟩, -⟩
    imodintro
    isplitl [Ha]; · iexact Ha
    isplitl [H6]
    · unfold Pipeline.prefHeld
      rw [show (Finset.univ : Finset (Fin pre0.K)) = {0} from rfl, bigSep_singleton, ← tbl_eq m ρ c]
      iexact H6
    isplitl [HO]
    · unfold Pipeline.Dat.owesAt Pipeline.owesWithin
      icases HO with ⟨%W, HO⟩; iexists W; isplitr; · ipureintro; exact fun _ _ => Or.inl trivial
      iexact HO
    isplitl [Ho H4 H5 Hos]
    · isplitl [Ho]; · iexact Ho
      isplitl [H4]; · iexact H4
      isplitl [H5]; · iexact H5
      iexact Hos
    isplitl [H0]; · iexact H0
    isplitl [H2]; · iexact H2
    iexact H3
  hin c := by
    rw [show (dats m ρ 0 c).Φ 0 = Φc m ρ c 0 from rfl]; unfold Φc Pipeline.prefHeld
    rw [show (Finset.univ : Finset (Fin pre0.K)) = {0} from rfl, bigSep_singleton, ← tbl_eq m ρ c]
    iintro ⟨⟨Ho, H4, H5, Hos⟩, H6, -⟩
    isplitl [Ho]; · iexact Ho
    isplitl [H6]; · iexact H6
    isplitl [H4]; · iexact H4
    isplitl [H5]; · iexact H5
    iexact Hos
  hout c := by
    rw [ownSems0_eq, scopedRest0_eq, show (dats m ρ 0 c).Φ (Fin.last (cfgA m).N) = Φc m ρ c (cfgA m).N from rfl]; unfold Φc
    iintro ⟨Ho, H6, H4, H5, Hos⟩
    isplitl [Ho H6 H4 H5]
    · isplitl [Ho]; · iexact Ho
      isplitl [H6]; · iexact H6
      isplitl [H4]; · iexact H4
      iexact H5
    isplitl [Hos]; · iexact Hos
    iempintro
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-! ## The run -/

/-- What is read of the final memory on core `c`: the result at what the four points left, every argument as launched. -/
def QY (c : Dev nD) (s : MemSt nD τ sig (Elt F)) : Prop :=
  s.mem ((c : Thread nD τ).loc main_v35) = outAtN m ρ c (cfgA m).N
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

/-- @main as the list of the two. -/
abbrev segs : List (Pipeline.Seg (pcfgs (F := F)) (adm m) (dats m ρ) () defs₀ 𝒱₀ L lv) := [.host (seg0 m ρ), .region (reg0 m ρ)]

/-- Window 1's array is the argument with the new values: after the run it holds what it held at launch. -/
theorem finalA_1 (c : Dev nD) : (dats (F := F) m ρ 0 c).arrAt 1 (cfgA m).N = m ((c : Thread nD τ).loc main_arg1) :=
  ((dats (F := F) m ρ 0 c).arrAt_in 1 rfl _).trans (V_arg1 m ρ c)

set_option backward.isDefEq.respectTransparency.types false in
/-- From any memory with zero counters: every weakly fair execution of @main terminates, nothing faulting, and every
    final state has the result at what the four points left in it and every argument unchanged. -/
theorem run_main : θ_run defs (onTc (τ := τ) (main (F := F))) (s₀ m ρ) (fun r => ∀ c : Dev nD, QY m ρ c r.2) :=
  Pipeline.θ_run_regions_kit (pcfgs (F := F)) (adm m) (dats m ρ) () (cellOf_inj (adm m)) EP defs₀ 𝒱₀ L lv m ρ main (segs m ρ)
    (fun c Q => by rw [main_segs (adm m) (dats m ρ) () 𝒱₀ L lv (seg0 m ρ) (reg0 m ρ) rfl c])
    (by simp only [Pipeline.Seg.pipes_host, Pipeline.Seg.pipes_region, Pipeline.Seg.pipes_nil]; decide) (O₀ := 0) (hL := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := QY m ρ)
    (hfin := fun c s' => by
      dsimp only [Tₙ, Yc, Zc]
      rw [V_arg0, V_arg2, V_arg3, show tbl m ρ c = m ((c : Thread nD τ).loc main_arg6) from V_arg6 m ρ c,
        show ck m ρ c = m ((c : Thread nD τ).loc main_arg4) from V_arg4 m ρ c, show cv m ρ c = m ((c : Thread nD τ).loc main_arg5) from V_arg5 m ρ c]
      iintro ⟨⟨Ha, ⟨Ho, H6, H4, H5⟩, ⟨H0, H2, H3⟩⟩, HSI⟩
      icombine HSI Ho gives %ho
      icombine HSI H6 gives %h6
      icombine HSI H4 gives %h4
      icombine HSI H5 gives %h5
      icombine HSI H0 gives %h0
      icombine HSI H2 gives %h2
      icombine HSI H3 gives %h3
      ihave Hr := (Pipeline.arrays_read (pcfgs (F := F)) (adm m) (dats m ρ) (launch0 (F := F)).arr_whole c ((dats m ρ 0 c).share_full fun _ => rfl) _ s') $$ [Ha HSI]
      · isplitl [Ha] <;> iassumption
      icases Hr with ⟨%ha, HSI⟩
      imodintro
      isplitr
      · ipureintro
        exact ⟨Buf.eq_of_forall_mem_univ ho, Buf.eq_of_forall_mem_univ h0, (ha 1).trans (finalA_1 m ρ c), Buf.eq_of_forall_mem_univ h2,
          Buf.eq_of_forall_mem_univ h3, Buf.eq_of_forall_mem_univ h4, Buf.eq_of_forall_mem_univ h5, Buf.eq_of_forall_mem_univ h6⟩
      iexact HSI)
    (hQ := fun _ h => h)

end Cert.Proof.KernelRun

end
-- ==== Proof.KIGuards.lean ====
/-
  The sixteen row guards of the kernel body, read back.

  For each of the sixteen position words v the body computes a one-bit condition — the chain
  `v ≥ 0` (signed), `v < 4096` (signed), their `and`, widened to 32 bits, compared unequal to zero — and
  assumes a side condition: under that condition the two row windows at offsets (s, j, v, 0, 0), s = 0 / 1,
  j the grid coordinate (below 4), of sizes 1 × 1 × 1 × 32 × 128, fit in the 2 × 4 × 4096 × 32 × 128 cache.

  The condition is one exactly when the word, read signed, lies in [0, 4096): a one-bit word widened is nonzero
  exactly when it is one, the `and` of two bits is one exactly when both are, and the signed compares read the
  word signed. Then the word read unsigned is below 4096 as well, so the window fits along the row axis; the other
  axes fit for every word. Hence every side condition holds for every word, and the condition together with
  "the word read unsigned is l" says the word names row l.

  The sixteen conditions are one function under sixteen names: each statement is the core lemma, by unfolding.
-/
import proofs.«429403_j7868380086953_3_alg».proof.Proof.Gen.KernelIdeal
import proofs.«429403_j7868380086953_3_alg».proof.Proof.Rows
import Idealize.ShloMosaic.Lib.Affine

namespace Cert.Proof.KIGuards

open Cert.KernelIdeal Idealize.ShloMosaic

/-! ## The core: the bare scalar chain, and the window fit -/

/-- The chain every guard computes. -/
def guard (v : BitVec 32) : BitVec 1 :=
  Scalar.cmpi .ne (Scalar.extui (Scalar.andi (Scalar.cmpi .sge v 0#32) (Scalar.cmpi .slt v 4096#32))) 0#32

/-- A bit widened to 32 bits is nonzero exactly when it is one. -/
theorem ne_zero_widen (c : BitVec 1) : IntOp.cmpi .ne (c.setWidth 32) 0#32 = 1#1 ↔ c = 1#1 := by
  rcases BitVec.eq_zero_or_eq_one c with rfl | rfl <;> decide

/-- The guard is one exactly when the word, read signed, lies in [0, 4096). -/
theorem guard_iff (v : BitVec 32) : guard v = 1#1 ↔ (0 ≤ v.toInt ∧ v.toInt < 4096) := by
  have h0 : (0#32 : BitVec 32).toInt = 0 := by decide
  have h1 : (4096#32 : BitVec 32).toInt = 4096 := by decide
  unfold guard Scalar.cmpi Scalar.extui Scalar.andi
  rw [ne_zero_widen, IntOp.andi_eq_one, IntOp.cmpi_sge, IntOp.cmpi_slt, h0, h1]

/-- A word that lies in [0, 4096) read signed is below 4096 read unsigned. -/
theorem toNat_lt_of_guard (v : BitVec 32) (h : guard v = 1#1) : v.toNat < 4096 := by
  obtain ⟨h0, h1⟩ := (guard_iff v).1 h
  have hlt := v.isLt
  rw [BitVec.toInt_eq_toNat_cond] at h0 h1
  split at h0 <;> omega

/-- The row window at (s, j, v, 0, 0), s ≤ 1, j < 4, v < 4096, fits in the cache, axis by axis. -/
theorem fit (s j v : Nat) (hs : s ≤ 1) (hj : j < 4) (hv : v < 4096) :
    ∀ a, (![s, j, v, 0, 0] : Fin 5 → Nat) a + S1x1x1x32x128.size a ≤ S2x4x4096x32x128.size a := by
  intro a
  match a with
  | ⟨0, _⟩ => show s + 1 ≤ 2; omega
  | ⟨1, _⟩ => show j + 1 ≤ 4; omega
  | ⟨2, _⟩ => show v + 1 ≤ 4096; omega
  | ⟨3, _⟩ => show 0 + 32 ≤ 32; omega
  | ⟨4, _⟩ => show 0 + 128 ≤ 128; omega

/-- The grid coordinate, as the word the kernel makes of it, is below 4. -/
theorem coord_lt (i : grid0.Coords) : (BitVec.ofNat 32 (i 0).val).toNat < 4 := by
  have h : (i 0).val < 4 := (i 0).isLt
  rw [BitVec.toNat_ofNat]
  omega

/-- Both windows of a guarded word fit. -/
theorem fit_both (i : grid0.Coords) (v : BitVec 32) :
    (guard v = 1#1 → ∀ a, (![0, (BitVec.ofNat 32 (i 0).val).toNat, v.toNat, 0, 0] : Fin 5 → Nat) a + S1x1x1x32x128.size a ≤ S2x4x4096x32x128.size a) ∧
    (guard v = 1#1 → ∀ a, (![1, (BitVec.ofNat 32 (i 0).val).toNat, v.toNat, 0, 0] : Fin 5 → Nat) a + S1x1x1x32x128.size a ≤ S2x4x4096x32x128.size a) :=
  ⟨fun h => fit 0 _ _ (by omega) (coord_lt i) (toNat_lt_of_guard v h), fun h => fit 1 _ _ (by omega) (coord_lt i) (toNat_lt_of_guard v h)⟩

/-- The guard with "the word read unsigned is l" says the word names row l. -/
theorem guard_hits (v : BitVec 32) (l : Nat) : (guard v = 1#1 ∧ v.toNat = l) ↔ Cert.Proof.Rows.hits v l :=
  ⟨fun ⟨h, e⟩ => ⟨((guard_iff v).1 h).1, ((guard_iff v).1 h).2, e⟩, fun ⟨h0, h1, e⟩ => ⟨(guard_iff v).2 ⟨h0, h1⟩, e⟩⟩

/-! ## The sixteen guards -/

theorem cond_iff_1 (v : BitVec 32) : k0_cond1 v = 1#1 ↔ (0 ≤ v.toInt ∧ v.toInt < 4096) := guard_iff v
theorem chk_1 (i : grid0.Coords) (v : BitVec 32) : k0_chk1 i v := fit_both i v
theorem cond_hits_1 (v : BitVec 32) (l : Nat) : (k0_cond1 v = 1#1 ∧ v.toNat = l) ↔ Cert.Proof.Rows.hits v l := guard_hits v l

theorem cond_iff_2 (v : BitVec 32) : k0_cond2 v = 1#1 ↔ (0 ≤ v.toInt ∧ v.toInt < 4096) := guard_iff v
theorem chk_2 (i : grid0.Coords) (v : BitVec 32) : k0_chk2 i v := fit_both i v
theorem cond_hits_2 (v : BitVec 32) (l : Nat) : (k0_cond2 v = 1#1 ∧ v.toNat = l) ↔ Cert.Proof.Rows.hits v l := guard_hits v l

theorem cond_iff_3 (v : BitVec 32) : k0_cond3 v = 1#1 ↔ (0 ≤ v.toInt ∧ v.toInt < 4096) := guard_iff v
theorem chk_3 (i : grid0.Coords) (v : BitVec 32) : k0_chk3 i v := fit_both i v
theorem cond_hits_3 (v : BitVec 32) (l : Nat) : (k0_cond3 v = 1#1 ∧ v.toNat = l) ↔ Cert.Proof.Rows.hits v l := guard_hits v l

theorem cond_iff_4 (v : BitVec 32) : k0_cond4 v = 1#1 ↔ (0 ≤ v.toInt ∧ v.toInt < 4096) := guard_iff v
theorem chk_4 (i : grid0.Coords) (v : BitVec 32) : k0_chk4 i v := fit_both i v
theorem cond_hits_4 (v : BitVec 32) (l : Nat) : (k0_cond4 v = 1#1 ∧ v.toNat = l) ↔ Cert.Proof.Rows.hits v l := guard_hits v l

theorem cond_iff_5 (v : BitVec 32) : k0_cond5 v = 1#1 ↔ (0 ≤ v.toInt ∧ v.toInt < 4096) := guard_iff v
theorem chk_5 (i : grid0.Coords) (v : BitVec 32) : k0_chk5 i v := fit_both i v
theorem cond_hits_5 (v : BitVec 32) (l : Nat) : (k0_cond5 v = 1#1 ∧ v.toNat = l) ↔ Cert.Proof.Rows.hits v l := guard_hits v l

theorem cond_iff_6 (v : BitVec 32) : k0_cond6 v = 1#1 ↔ (0 ≤ v.toInt ∧ v.toInt < 4096) := guard_iff v
theorem chk_6 (i : grid0.Coords) (v : BitVec 32) : k0_chk6 i v := fit_both i v
theorem cond_hits_6 (v : BitVec 32) (l : Nat) : (k0_cond6 v = 1#1 ∧ v.toNat = l) ↔ Cert.Proof.Rows.hits v l := guard_hits v l

theorem cond_iff_7 (v : BitVec 32) : k0_cond7 v = 1#1 ↔ (0 ≤ v.toInt ∧ v.toInt < 4096) := guard_iff v
theorem chk_7 (i : grid0.Coords) (v : BitVec 32) : k0_chk7 i v := fit_both i v
theorem cond_hits_7 (v : BitVec 32) (l : Nat) : (k0_cond7 v = 1#1 ∧ v.toNat = l) ↔ Cert.Proof.Rows.hits v l := guard_hits v l

theorem cond_iff_8 (v : BitVec 32) : k0_cond8 v = 1#1 ↔ (0 ≤ v.toInt ∧ v.toInt < 4096) := guard_iff v
theorem chk_8 (i : grid0.Coords) (v : BitVec 32) : k0_chk8 i v := fit_both i v
theorem cond_hits_8 (v : BitVec 32) (l : Nat) : (k0_cond8 v = 1#1 ∧ v.toNat = l) ↔ Cert.Proof.Rows.hits v l := guard_hits v l

theorem cond_iff_9 (v : BitVec 32) : k0_cond9 v = 1#1 ↔ (0 ≤ v.toInt ∧ v.toInt < 4096) := guard_iff v
theorem chk_9 (i : grid0.Coords) (v : BitVec 32) : k0_chk9 i v := fit_both i v
theorem cond_hits_9 (v : BitVec 32) (l : Nat) : (k0_cond9 v = 1#1 ∧ v.toNat = l) ↔ Cert.Proof.Rows.hits v l := guard_hits v l

theorem cond_iff_10 (v : BitVec 32) : k0_cond10 v = 1#1 ↔ (0 ≤ v.toInt ∧ v.toInt < 4096) := guard_iff v
theorem chk_10 (i : grid0.Coords) (v : BitVec 32) : k0_chk10 i v := fit_both i v
theorem cond_hits_10 (v : BitVec 32) (l : Nat) : (k0_cond10 v = 1#1 ∧ v.toNat = l) ↔ Cert.Proof.Rows.hits v l := guard_hits v l

theorem cond_iff_11 (v : BitVec 32) : k0_cond11 v = 1#1 ↔ (0 ≤ v.toInt ∧ v.toInt < 4096) := guard_iff v
theorem chk_11 (i : grid0.Coords) (v : BitVec 32) : k0_chk11 i v := fit_both i v
theorem cond_hits_11 (v : BitVec 32) (l : Nat) : (k0_cond11 v = 1#1 ∧ v.toNat = l) ↔ Cert.Proof.Rows.hits v l := guard_hits v l

theorem cond_iff_12 (v : BitVec 32) : k0_cond12 v = 1#1 ↔ (0 ≤ v.toInt ∧ v.toInt < 4096) := guard_iff v
theorem chk_12 (i : grid0.Coords) (v : BitVec 32) : k0_chk12 i v := fit_both i v
theorem cond_hits_12 (v : BitVec 32) (l : Nat) : (k0_cond12 v = 1#1 ∧ v.toNat = l) ↔ Cert.Proof.Rows.hits v l := guard_hits v l

theorem cond_iff_13 (v : BitVec 32) : k0_cond13 v = 1#1 ↔ (0 ≤ v.toInt ∧ v.toInt < 4096) := guard_iff v
theorem chk_13 (i : grid0.Coords) (v : BitVec 32) : k0_chk13 i v := fit_both i v
theorem cond_hits_13 (v : BitVec 32) (l : Nat) : (k0_cond13 v = 1#1 ∧ v.toNat = l) ↔ Cert.Proof.Rows.hits v l := guard_hits v l

theorem cond_iff_14 (v : BitVec 32) : k0_cond14 v = 1#1 ↔ (0 ≤ v.toInt ∧ v.toInt < 4096) := guard_iff v
theorem chk_14 (i : grid0.Coords) (v : BitVec 32) : k0_chk14 i v := fit_both i v
theorem cond_hits_14 (v : BitVec 32) (l : Nat) : (k0_cond14 v = 1#1 ∧ v.toNat = l) ↔ Cert.Proof.Rows.hits v l := guard_hits v l

theorem cond_iff_15 (v : BitVec 32) : k0_cond15 v = 1#1 ↔ (0 ≤ v.toInt ∧ v.toInt < 4096) := guard_iff v
theorem chk_15 (i : grid0.Coords) (v : BitVec 32) : k0_chk15 i v := fit_both i v
theorem cond_hits_15 (v : BitVec 32) (l : Nat) : (k0_cond15 v = 1#1 ∧ v.toNat = l) ↔ Cert.Proof.Rows.hits v l := guard_hits v l

theorem cond_iff_16 (v : BitVec 32) : k0_cond16 v = 1#1 ↔ (0 ≤ v.toInt ∧ v.toInt < 4096) := guard_iff v
theorem chk_16 (i : grid0.Coords) (v : BitVec 32) : k0_chk16 i v := fit_both i v
theorem cond_hits_16 (v : BitVec 32) (l : Nat) : (k0_cond16 v = 1#1 ∧ v.toNat = l) ↔ Cert.Proof.Rows.hits v l := guard_hits v l

end Cert.Proof.KIGuards
-- ==== Proof.KernelIdealBody.lean ====
/-
  The kernel body at one grid point, run once at symbolic operands.

  At point b the body copies batch b of the two caches into the two halves of the result (two transfers between
  arrays left in HBM, each on a cell of its own, both waited before anything else), then for t = 0, …, 15 reads the
  position word of (b, t) from the table and, when the word read signed lies in [0, 4096), copies row t of the two
  staged blocks onto that row of batch b in the two halves (two transfers on two further cells, both waited inside the
  branch). Every transfer is waited at the point that issued it, so the point starts and ends with the four cells at
  zero and everything it was lent back in its hands; a word outside the range skips its branch, so the window's
  side condition, which is stated under the branch's condition, holds of every word.

  `bodyRun` packages the run with what it leaves in the result's buffer: that contents is the witness the run finds
  (one guarded write per t over the bulk copy, the guards undecided), and it depends only on the point, the two staged
  blocks, the table, the two caches and the result's contents before the point.
-/
import proofs.«429403_j7868380086953_3_alg».proof.Proof.Gen.KernelIdeal
import proofs.«429403_j7868380086953_3_alg».proof.Proof.Gen.KernelIdeal.Skeleton
import proofs.«429403_j7868380086953_3_alg».proof.Proof.Gen.KernelIdeal.Launch
import proofs.«429403_j7868380086953_3_alg».proof.Proof.KIGuards
import Idealize.ShloMosaic.Lib.Transfers
import Idealize.ShloMosaic.Lib.Writes
import Idealize.ShloMosaic.Lib.Pipeline.FrameBody
import Idealize.ShloMosaic.Lib.Pipeline.Kit
import Idealize.ShloMosaic.Lib.Tactic

noncomputable section

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the transfers' invariants draw on. -/
abbrev UC : Type := UR sig nD τ × Counters

local notation "𝕄" => MT nD τ sig Unit (Elt F) ℕ UC ℕ

/-- A memref's buffer on core `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own cells: two for the bulk copies, two for the row copies. -/
abbrev osem : Fin 4 → SemLoc sig := fun | 0 => .dma 4 | 1 => .dma 5 | 2 => .dma 6 | 3 => .dma 7

/-- The four counters at zero. -/
abbrev sems0 (c : Dev nD) : sProp 𝕄 :=
  iprop(semVal ((c : Thread nD τ), osem 0) 0 ∗ semVal ((c : Thread nD τ), osem 1) 0 ∗ semVal ((c : Thread nD τ), osem 2) 0
    ∗ semVal ((c : Thread nD τ), osem 3) 0)

/-- What the point holds besides the result's buffer, before and after: the two staged blocks, the table, the two
    caches. -/
abbrev held (c : Dev nD) (M2 M3 : Memref sig .tc .vmem S1x16x32x128 .f32) (x2 x3 : Vec F S1x16x32x128 .f32)
    (fp : Bf (F := F) c (Memref.whole main_arg6)) (f4 : Bf (F := F) c (Memref.whole main_arg4)) (f5 : Bf (F := F) c (Memref.whole main_arg5)) : sProp 𝕄 :=
  iprop(owns (c : Thread nD τ) M2 fullShare x2 ∗ owns (c : Thread nD τ) M3 fullShare x3 ∗ pt c (Memref.whole main_arg6) fp ∗ pt c (Memref.whole main_arg4) f4 ∗ pt c (Memref.whole main_arg5) f5)

set_option maxHeartbeats 4000000 in
/-- The body at point `i`, from the staged blocks `x2`, `x3`, the table `fp`, the caches `f4`, `f5` and the result at
    `fo`: it runs to its return with all of those as they were, the cells at zero again, and the result's buffer at
    the contents the run finds — the witness. -/
noncomputable def bodyRun (c : Dev nD) (i : grid0.Coords)
    (M2 : Memref sig .tc .vmem S1x16x32x128 .f32) (h2 : M2.IsWhole) (M3 : Memref sig .tc .vmem S1x16x32x128 .f32) (h3 : M3.IsWhole)
    (x2 x3 : Vec F S1x16x32x128 .f32)
    (fp : Bf (F := F) c (Memref.whole main_arg6)) (f4 : Bf (F := F) c (Memref.whole main_arg4)) (f5 : Bf (F := F) c (Memref.whole main_arg5))
    (fo : Bf (F := F) c (Memref.whole main_v35)) :
    { fo' : Bf (F := F) c (Memref.whole main_v35) //
      ∀ (W : Waits sig Unit) (Q : PUnit → sProp 𝕄),
        iprop(held c M2 M3 x2 x3 fp f4 f5 ∗ pt c (Memref.whole main_v35) fo ∗ sems0 c ∗ owes (c : Thread nD τ) 0 W
          ∗ (iprop(held c M2 M3 x2 x3 fp f4 f5 ∗ pt c (Memref.whole main_v35) fo' ∗ sems0 c ∗ ∃ W', owes (c : Thread nD τ) 0 W') -∗ Q ⟨⟩))
        ⊢ wp frame (wpE (defs₀ (F := F)) Variants.none c none) Set.univ
            (cc0__kernel i (Memref.whole main_arg6) (Memref.isWhole_whole _) M2 h2 M3 h3 (Memref.whole main_arg4) (Memref.isWhole_whole _)
              (Memref.whole main_arg5) (Memref.isWhole_whole _) (Memref.whole main_v35) (Memref.isWhole_whole _) cc0_scratch0 cc0_scratch1) Q } := by
  have hchk1 : ∀ v : BitVec 32, k0_chk1 i v := Cert.Proof.KIGuards.chk_1 i
  have hchk2 : ∀ v : BitVec 32, k0_chk2 i v := Cert.Proof.KIGuards.chk_2 i
  have hchk3 : ∀ v : BitVec 32, k0_chk3 i v := Cert.Proof.KIGuards.chk_3 i
  have hchk4 : ∀ v : BitVec 32, k0_chk4 i v := Cert.Proof.KIGuards.chk_4 i
  have hchk5 : ∀ v : BitVec 32, k0_chk5 i v := Cert.Proof.KIGuards.chk_5 i
  have hchk6 : ∀ v : BitVec 32, k0_chk6 i v := Cert.Proof.KIGuards.chk_6 i
  have hchk7 : ∀ v : BitVec 32, k0_chk7 i v := Cert.Proof.KIGuards.chk_7 i
  have hchk8 : ∀ v : BitVec 32, k0_chk8 i v := Cert.Proof.KIGuards.chk_8 i
  have hchk9 : ∀ v : BitVec 32, k0_chk9 i v := Cert.Proof.KIGuards.chk_9 i
  have hchk10 : ∀ v : BitVec 32, k0_chk10 i v := Cert.Proof.KIGuards.chk_10 i
  have hchk11 : ∀ v : BitVec 32, k0_chk11 i v := Cert.Proof.KIGuards.chk_11 i
  have hchk12 : ∀ v : BitVec 32, k0_chk12 i v := Cert.Proof.KIGuards.chk_12 i
  have hchk13 : ∀ v : BitVec 32, k0_chk13 i v := Cert.Proof.KIGuards.chk_13 i
  have hchk14 : ∀ v : BitVec 32, k0_chk14 i v := Cert.Proof.KIGuards.chk_14 i
  have hchk15 : ∀ v : BitVec 32, k0_chk15 i v := Cert.Proof.KIGuards.chk_15 i
  have hchk16 : ∀ v : BitVec 32, k0_chk16 i v := Cert.Proof.KIGuards.chk_16 i
  refine ⟨?_, fun W Q => ?run⟩
  case run =>
    unfold held owns
    iintro ⟨⟨⟨%g2, %hg2, H2⟩, ⟨%g3, %hg3, H3⟩, Hp, H4, H5⟩, Ho, ⟨Hs4, Hs5, Hs6, Hs7⟩, HO, Hk⟩
    obtain rfl := h2.eq_unread hg2
    obtain rfl := h3.eq_unread hg3
    sl_exec!
    sl_step
    iapply Hk
    isplitl [H2 H3 Hp H4 H5]
    · isplitl [H2]
      · iexists _; isplitr; (· ipureintro; exact h2.read_unread _); iexact H2
      isplitl [H3]
      · iexists _; isplitr; (· ipureintro; exact h3.read_unread _); iexact H3
      isplitl [Hp]; · iexact Hp
      isplitl [H4]; · iexact H4
      iexact H5
    isplitl [Ho]; · iexact Ho
    isplitl [Hs4 Hs5 Hs6 Hs7]
    · isplitl [Hs4]; · iexact Hs4
      isplitl [Hs5]; · iexact Hs5
      isplitl [Hs6]; · iexact Hs6
      iexact Hs7
    iexists _; iexact HO

end Cert.Proof.KernelIdealRun

end
-- ==== Proof.KernelIdealData.lean ====
/-
  The kernel program's pipeline: its proof data and the body obligation at every grid point.

  The pipeline has two input windows (the rotated keys and the new values, one block of sixteen rows per batch, fetched
  at every point) and no output window: the result, the two caches and the position table are arrays the kernel moves
  itself. Between points the invariant holds the result's buffer at what the points so far have left in it
  (`outAt`: by recursion on the point, each point's contents the body's found witness over the previous point's), the
  table and the two caches as launched, and the kernel's four cells at zero.
-/
import proofs.«429403_j7868380086953_3_alg».proof.Proof.KernelIdealBody
import Idealize.ShloMosaic.Lib.Pipeline.Regions
import Idealize.ShloMosaic.Lib.Pipeline.Frame

noncomputable section

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- The pipeline library's algebra is the left component of the proof's. -/
abbrev EP : Emb (UR sig nD τ) (MT nD τ sig Unit (Elt F) ℕ UC ℕ) := embL

variable (m : (ℓ : Loc nD τ sig) → Buf (Elt F) ℓ) (ρ : Dev nD → PrngReg)

/-- Core `c`'s buffers at launch, as the host operations' valuation; -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- The position table's contents at launch, on the one device: what the region reads at its entry. -/
def pf0 : pre0.Contents (Elt F) := fun k => m ((((0 : Dev nD)) : Thread nD τ).loc (pre0.ref k))

/-- They are admissible: this pipeline's index maps read no table, so its side condition on the tables is empty. -/
def adm : (p : Fin 1) → (pcfgs (F := F) p).Adm := fun _ => ⟨pf0 m, (show ok0 (pf0 m) from by unfold ok0; trivial)⟩

/-- The pipeline at those contents. -/
abbrev cfgA : Pipeline.Cfg sig Λ₀ := Pipeline.pin (pcfgs (F := F)) (adm m) 0

/-- What the fetch of window `w` stages at point `t`: the block of its array there. -/
abbrev stg (c : Dev nD) (w : Fin (cfgA m).W) (t : Fin (cfgA m).N) : ((cfgA m).win w).block.Idx → Elt F ((cfgA m).win w).elt :=
  (((cfgA m).win w).blk t).view.read (Elt F) (V m ρ c (Pipeline.arrRef spec0 w))

/-- The table and the caches as the body holds them: the launch's contents. -/
abbrev tbl (c : Dev nD) : Bf (F := F) c (Memref.whole main_arg6) := V m ρ c main_arg6
abbrev ck (c : Dev nD) : Bf (F := F) c (Memref.whole main_arg4) := V m ρ c main_arg4
abbrev cv (c : Dev nD) : Bf (F := F) c (Memref.whole main_arg5) := V m ρ c main_arg5

/-- One point's effect on the result's buffer: the body's found witness, at the point's staging memrefs and blocks. -/
def step (c : Dev nD) (t : Fin (cfgA m).N) (fo : Bf (F := F) c (Memref.whole main_v35)) : Bf (F := F) c (Memref.whole main_v35) :=
  (bodyRun c (grid0.coords t) (spec0_0.stage ((cfgA m).slots t 0)) (hstage0_0 (((cfgA m).slots t 0).cast nbuf0_0))
    (spec0_1.stage ((cfgA m).slots t 1)) (hstage0_1 (((cfgA m).slots t 1).cast nbuf0_1))
    (stg m ρ c 0 t) (stg m ρ c 1 t) (tbl m ρ c) (ck m ρ c) (cv m ρ c) fo).1

/-- The result's buffer before point `n` (after point `n - 1`): the launch's contents, then one step per point. -/
def outAtN (c : Dev nD) : Nat → Bf (F := F) c (Memref.whole main_v35)
  | 0 => V m ρ c main_v35
  | n + 1 => if h : n < (cfgA m).N then step m ρ c ⟨n, h⟩ (outAtN c n) else outAtN c n

theorem outAtN_succ (c : Dev nD) (t : Fin (cfgA m).N) : outAtN m ρ c (t.val + 1) = step m ρ c t (outAtN m ρ c t.val) := by
  rw [outAtN, dif_pos t.isLt]

/-- The invariant before point `n`: the result at `outAtN n`, the table and the caches as launched, the cells at zero. -/
def Φc (c : Dev nD) (n : Nat) : sProp 𝕄 :=
  iprop(pt c (Memref.whole main_v35) (outAtN m ρ c n) ∗ pt c (Memref.whole main_arg6) (tbl m ρ c) ∗ pt c (Memref.whole main_arg4) (ck m ρ c)
    ∗ pt c (Memref.whole main_arg5) (cv m ρ c) ∗ sems0 c)

/-- The proof data on core `c`: each window's array at its entry contents; after the body each staging buffer as
    fetched; the invariant; nothing owed; the full share. -/
def dats (_ : Fin 1) (c : Dev nD) : Dat τ (Elt F) Unit ℕ UC ℕ (cfgA m) c where
  A w := V m ρ c (Pipeline.arrRef spec0 w)
  after w t := stg m ρ c w t
  Φ n := Φc m ρ c n.val
  q _ := fullShare
  owed _ := 0

abbrev 𝒱₀ : Variants := Variants.none

/-- Every point fetches both windows (each window's block index is the point's batch). -/
theorem tr_0 : ∀ t : Fin grid0.N, cc0_transform_0 (grid0.coords t) (0 : Fin 4) = t.val := by decide
theorem tr_1 : ∀ t : Fin grid0.N, cc0_transform_1 (grid0.coords t) (0 : Fin 4) = t.val := by decide
theorem ix_0 (t : Fin (cfgA m).N) : ((cfgA m).win (0 : Fin 2)).index t (0 : Fin 4) = t.val := tr_0 t
theorem fetch_0 (t : Fin (cfgA m).N) : ((cfgA m).win (0 : Fin 2)).fetch t = true := by
  have hne : ∀ t t' : Fin (cfgA m).N, t.val ≠ t'.val → ((cfgA m).win (0 : Fin 2)).index t ≠ ((cfgA m).win (0 : Fin 2)).index t' := fun t t' h e =>
    h (by rw [← ix_0 m t, ← ix_0 m t']; exact congrFun e _)
  have key : t.val = 0 ∨ ∃ _ : 0 < t.val, ((cfgA m).win (0 : Fin 2)).index t
      ≠ ((cfgA m).win (0 : Fin 2)).index ⟨t.val - 1, Nat.lt_of_le_of_lt (Nat.sub_le _ _) t.isLt⟩ := by
    by_cases h0 : t.val = 0
    · exact .inl h0
    · exact .inr ⟨Nat.pos_of_ne_zero h0, hne _ _ (by show t.val ≠ t.val - 1; omega)⟩
  simp only [Pipeline.Window.fetch, Bool.and_eq_true, Bool.not_eq_true', Bool.or_eq_true, decide_eq_true_eq]
  exact ⟨by first | rfl | trivial, key⟩
theorem ix_1 (t : Fin (cfgA m).N) : ((cfgA m).win (1 : Fin 2)).index t (0 : Fin 4) = t.val := tr_1 t
theorem fetch_1 (t : Fin (cfgA m).N) : ((cfgA m).win (1 : Fin 2)).fetch t = true := by
  have hne : ∀ t t' : Fin (cfgA m).N, t.val ≠ t'.val → ((cfgA m).win (1 : Fin 2)).index t ≠ ((cfgA m).win (1 : Fin 2)).index t' := fun t t' h e =>
    h (by rw [← ix_1 m t, ← ix_1 m t']; exact congrFun e _)
  have key : t.val = 0 ∨ ∃ _ : 0 < t.val, ((cfgA m).win (1 : Fin 2)).index t
      ≠ ((cfgA m).win (1 : Fin 2)).index ⟨t.val - 1, Nat.lt_of_le_of_lt (Nat.sub_le _ _) t.isLt⟩ := by
    by_cases h0 : t.val = 0
    · exact .inl h0
    · exact .inr ⟨Nat.pos_of_ne_zero h0, hne _ _ (by show t.val ≠ t.val - 1; omega)⟩
  simp only [Pipeline.Window.fetch, Bool.and_eq_true, Bool.not_eq_true', Bool.or_eq_true, decide_eq_true_eq]
  exact ⟨by first | rfl | trivial, key⟩

/-- A fetched window's buffer holds the array's block when the body runs. -/
theorem before_0 (c : Dev nD) (t : Fin (cfgA m).N) (d : ((cfgA m).win (0 : Fin 2)).block.Idx → Elt F ((cfgA m).win (0 : Fin 2)).elt) :
    (dats m ρ 0 c).before (0 : Fin 2) t d = stg m ρ c (0 : Fin 2) t := by
  unfold Dat.before; rw [if_pos (fetch_0 m t)]; unfold Dat.fetched Dat.blockOf; dsimp only [dats]; rfl
theorem before_1 (c : Dev nD) (t : Fin (cfgA m).N) (d : ((cfgA m).win (1 : Fin 2)).block.Idx → Elt F ((cfgA m).win (1 : Fin 2)).elt) :
    (dats m ρ 0 c).before (1 : Fin 2) t d = stg m ρ c (1 : Fin 2) t := by
  unfold Dat.before; rw [if_pos (fetch_1 m t)]; unfold Dat.fetched Dat.blockOf; dsimp only [dats]; rfl

/-- The library's body obligation at every point: the two staged blocks and the invariant taken apart, the body's run
    applied at the point's blocks, its post reassembled with the result one step further. -/
theorem body_obligation (c : Dev nD) : BodyObligation (dats m ρ 0 c) (defs₀ (F := F)) 𝒱₀ () Set.univ := fun t => by
  rw [bigSep_W0, bigSep_W0]
  simp only [before_0 m ρ c, before_1 m ρ c]
  rw [show (dats m ρ 0 c).Φ t.castSucc = Φc m ρ c t.val from rfl, show (dats m ρ 0 c).Φ t.succ = Φc m ρ c (t.val + 1) from rfl]
  unfold Φc Dat.owesAt Pipeline.owesWithin
  rw [show (dats m ρ 0 c).owed t.castSucc = 0 from rfl, show (dats m ρ 0 c).owed t.succ = 0 from rfl, outAtN_succ]
  unfold step
  iintro ⟨⟨Ho, Hp, H4, H5, Hsems⟩, ⟨%W, %hW, HO⟩, ⟨%d0, H0⟩, ⟨%d1, H1⟩⟩
  iapply ((bodyRun c (grid0.coords t) _ _ _ _ (stg m ρ c 0 t) (stg m ρ c 1 t) (tbl m ρ c) (ck m ρ c) (cv m ρ c) (outAtN m ρ c t.val)).2 W _)
  isplitl [H0 H1 Hp H4 H5]
  · isplitl [H0]; · iexact H0
    isplitl [H1]; · iexact H1
    isplitl [Hp]; · iexact Hp
    isplitl [H4]; · iexact H4
    iexact H5
  isplitl [Ho]; · iexact Ho
  isplitl [Hsems]; · iexact Hsems
  isplitl [HO]; · iexact HO
  iintro ⟨⟨H0, H1, Hp, H4, H5⟩, Ho, Hsems, ⟨%W', HO⟩⟩
  isplitl [Ho Hp H4 H5 Hsems]
  · isplitl [Ho]; · iexact Ho
    isplitl [Hp]; · iexact Hp
    isplitl [H4]; · iexact H4
    isplitl [H5]; · iexact H5
    iexact Hsems
  isplitl [HO]
  · iexists W'; isplitr; · ipureintro; exact fun _ _ => Or.inl trivial
    iexact HO
  isplitl [H0]; · iexact H0
  iexact H1

end Cert.Proof.KernelIdealRun

end
-- ==== Proof.KernelIdealHost.lean ====
/-
  The host prefix of the program: the rotated new keys.

  Before the kernel the program computes, from the new keys, the cosine and sine tables and the positions, the new
  keys rotated: each position, wrapped once if negative (4096 added), picks a row of each table; the keys' last axis
  is read as 64 (even, odd) pairs; and a pair (e, o) at a position whose rows hold (c, s) becomes
  (e·c − o·s, e·s + o·c), the pairs laid back along the last axis. `krot` is that array as one term over the four
  arguments, and the 39 operations leave exactly it in the buffer the kernel stages from; they write none of the
  arguments, nor the kernel's result buffer.
-/
import proofs.«429403_j7868380086953_3_alg».proof.Proof.Gen.KernelIdeal.Launch
import Idealize.ShloMosaic.Lib.StableHlo.Run
import Idealize.ShloMosaic.Lib.Pipeline.Regions

noncomputable section

namespace Cert.Proof.KernelIdealRun

open Cert.KernelIdeal Cert.KernelIdeal.Gen Idealize.ShloMosaic

variable {F : FTy → Type} [FloatOps F]

/-- The positions, a negative one wrapped by the table's 4096 rows. -/
def wrapped (a6 : IVec S4x16 32) : IVec S4x16 32 :=
  select (cmpi .slt a6 (broadcastInDim S4x16 ![] bcast_S_S4x16 (constantI S_ 32 0#32)))
    (addi a6 (broadcastInDim S4x16 ![] bcast_S_S4x16 (constantI S_ 32 4096#32))) a6

/-- A table's rows at the wrapped positions, laid along the 32 heads. -/
def rowsOf (a : FVec F S4096x64 .f32) (a6 : IVec S4x16 32) : FVec F S4x16x32x64 .f32 :=
  broadcastInDim S4x16x32x64 ![0, 1, 2, 3] bcast_S4x16x1x64_S4x16x32x64_0_1_2_3
    (broadcastInDim S4x16x1x64 ![0, 1, 3] bcast_S4x16x64_S4x16x1x64_0_1_3
      (Host.gather gather_S4096x64_S4x16x1_S4x16x64_2_0_n_n_0_2_164 a
        (broadcastInDim S4x16x1 ![0, 1] bcast_S4x16_S4x16x1_0_1 (wrapped a6))))

/-- The new keys' last axis as 64 pairs. -/
def pairs (a0 : FVec F S4x16x32x128 .f32) : FVec F S4x16x32x64x2 .f32 :=
  shapeCast S4x16x32x64x2 a0 shapeCasts_S4x16x32x128_S4x16x32x64x2

/-- The even members of the pairs. -/
def evens (a0 : FVec F S4x16x32x128 .f32) : FVec F S4x16x32x64 .f32 :=
  shapeCast S4x16x32x64 (extractStridedSlice S4x16x32x64x1 ![0, 0, 0, 0, 0] (pairs a0) slices_S4x16x32x64x2_S4x16x32x64x1_0_0_0_0_0)
    shapeCasts_S4x16x32x64x1_S4x16x32x64

/-- The odd members of the pairs. -/
def odds (a0 : FVec F S4x16x32x128 .f32) : FVec F S4x16x32x64 .f32 :=
  shapeCast S4x16x32x64 (extractStridedSlice S4x16x32x64x1 ![0, 0, 0, 0, 1] (pairs a0) slices_S4x16x32x64x2_S4x16x32x64x1_0_0_0_0_1)
    shapeCasts_S4x16x32x64x1_S4x16x32x64

/-- The rotated new keys: the pair (e, o) under (c, s) becomes (e·c − o·s, e·s + o·c). -/
def krot (a0 : FVec F S4x16x32x128 .f32) (a2 a3 : FVec F S4096x64 .f32) (a6 : IVec S4x16 32) : FVec F S4x16x32x128 .f32 :=
  shapeCast S4x16x32x128
    (concatenate S4x16x32x64x2 4
      [⟨S4x16x32x64x1, broadcastInDim S4x16x32x64x1 ![0, 1, 2, 3] bcast_S4x16x32x64_S4x16x32x64x1_0_1_2_3
          (subf (mulf (evens a0) (rowsOf a2 a6)) (mulf (odds a0) (rowsOf a3 a6)))⟩,
       ⟨S4x16x32x64x1, broadcastInDim S4x16x32x64x1 ![0, 1, 2, 3] bcast_S4x16x32x64_S4x16x32x64x1_0_1_2_3
          (addf (mulf (evens a0) (rowsOf a3 a6)) (mulf (odds a0) (rowsOf a2 a6)))⟩]
      concatenates_S4x16x32x64x1_S4x16x32x64x1_S4x16x32x64x2_d4)
    shapeCasts_S4x16x32x64x2_S4x16x32x128

/-- The 39 operations leave the rotated new keys in the buffer the kernel stages from. -/
theorem after_krot (W : Valuation τ sig (Elt F)) :
    StableHlo.after (hostOps0 (F := F)) W (Proc.devRef .tc main_v34)
      = krot (W (Proc.devRef .tc main_arg0)) (W (Proc.devRef .tc main_arg2)) (W (Proc.devRef .tc main_arg3)) (W (Proc.devRef .tc main_arg6)) := by
  open Idealize.ShloMosaic.StableHlo in after_results_simp
  rfl

/-- No host operation writes a buffer that is none of the 39 results: such a buffer reaches the kernel as launched. -/
theorem not_written (b : Ref sig .tc)
    (hb : b ≠ main_c ∧ b ≠ main_v0 ∧ b ≠ main_v1 ∧ b ≠ main_c_0 ∧ b ≠ main_v2 ∧ b ≠ main_v3 ∧ b ≠ main_v4 ∧ b ≠ main_v5 ∧ b ≠ main_v6 ∧ b ≠ main_v7 ∧ b ≠ main_c_1 ∧ b ≠ main_v8 ∧ b ≠ main_v9 ∧ b ≠ main_c_2 ∧ b ≠ main_v10 ∧ b ≠ main_v11 ∧ b ≠ main_v12 ∧ b ≠ main_v13 ∧ b ≠ main_v14 ∧ b ≠ main_v15 ∧ b ≠ main_v16 ∧ b ≠ main_v17 ∧ b ≠ main_v18 ∧ b ≠ main_v19 ∧ b ≠ main_v20 ∧ b ≠ main_v21 ∧ b ≠ main_v22 ∧ b ≠ main_v23 ∧ b ≠ main_v24 ∧ b ≠ main_v25 ∧ b ≠ main_v26 ∧ b ≠ main_v27 ∧ b ≠ main_v28 ∧ b ≠ main_v29 ∧ b ≠ main_v30 ∧ b ≠ main_v31 ∧ b ≠ main_v32 ∧ b ≠ main_v33 ∧ b ≠ main_v34) :
    ∀ op ∈ (hostOps0 (F := F)), Proc.devRef .tc b ∉ op.writes := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes,
      Finset.mem_singleton] <;>
    exact StableHlo.devRef_ne_of_ne ‹_›

/-- The new keys reach the kernel as launched. -/
theorem after_arg0 (W : Valuation τ sig (Elt F)) :
    StableHlo.after (hostOps0 (F := F)) W (Proc.devRef .tc main_arg0) = W (Proc.devRef .tc main_arg0) :=
  StableHlo.after_of_forall_not_mem (b := Proc.devRef .tc main_arg0) hostOps0 W (not_written main_arg0 (by decide))

/-- The new values reach the kernel as launched. -/
theorem after_arg1 (W : Valuation τ sig (Elt F)) :
    StableHlo.after (hostOps0 (F := F)) W (Proc.devRef .tc main_arg1) = W (Proc.devRef .tc main_arg1) :=
  StableHlo.after_of_forall_not_mem (b := Proc.devRef .tc main_arg1) hostOps0 W (not_written main_arg1 (by decide))

/-- The cosine table reaches the kernel as launched. -/
theorem after_arg2 (W : Valuation τ sig (Elt F)) :
    StableHlo.after (hostOps0 (F := F)) W (Proc.devRef .tc main_arg2) = W (Proc.devRef .tc main_arg2) :=
  StableHlo.after_of_forall_not_mem (b := Proc.devRef .tc main_arg2) hostOps0 W (not_written main_arg2 (by decide))

/-- The sine table reaches the kernel as launched. -/
theorem after_arg3 (W : Valuation τ sig (Elt F)) :
    StableHlo.after (hostOps0 (F := F)) W (Proc.devRef .tc main_arg3) = W (Proc.devRef .tc main_arg3) :=
  StableHlo.after_of_forall_not_mem (b := Proc.devRef .tc main_arg3) hostOps0 W (not_written main_arg3 (by decide))

/-- The key cache reaches the kernel as launched. -/
theorem after_arg4 (W : Valuation τ sig (Elt F)) :
    StableHlo.after (hostOps0 (F := F)) W (Proc.devRef .tc main_arg4) = W (Proc.devRef .tc main_arg4) :=
  StableHlo.after_of_forall_not_mem (b := Proc.devRef .tc main_arg4) hostOps0 W (not_written main_arg4 (by decide))

/-- The value cache reaches the kernel as launched. -/
theorem after_arg5 (W : Valuation τ sig (Elt F)) :
    StableHlo.after (hostOps0 (F := F)) W (Proc.devRef .tc main_arg5) = W (Proc.devRef .tc main_arg5) :=
  StableHlo.after_of_forall_not_mem (b := Proc.devRef .tc main_arg5) hostOps0 W (not_written main_arg5 (by decide))

/-- The positions reach the kernel as launched. -/
theorem after_arg6 (W : Valuation τ sig (Elt F)) :
    StableHlo.after (hostOps0 (F := F)) W (Proc.devRef .tc main_arg6) = W (Proc.devRef .tc main_arg6) :=
  StableHlo.after_of_forall_not_mem (b := Proc.devRef .tc main_arg6) hostOps0 W (not_written main_arg6 (by decide))

/-- The kernel's result buffer reaches the kernel as launched. -/
theorem after_v35 (W : Valuation τ sig (Elt F)) :
    StableHlo.after (hostOps0 (F := F)) W (Proc.devRef .tc main_v35) = W (Proc.devRef .tc main_v35) :=
  StableHlo.after_of_forall_not_mem (b := Proc.devRef .tc main_v35) hostOps0 W (not_written main_v35 (by decide))

end Cert.Proof.KernelIdealRun

end
-- ==== Proof.KernelIdealRun.lean ====
/-
  The kernel program's launch: @main as a stretch of host operations followed by the kernel region.

  The host stretch computes the rotated keys from the arguments; the region is entered from what it leaves: the two
  windows' arrays go to the pipeline, the position table is read at the entry, the result, the two caches and the
  kernel's four cells go into the invariant, and the three arguments only the host stretch reads bypass the region.
  At the end every argument is read back unchanged and the result is at what the four points left in it.
-/
import proofs.«429403_j7868380086953_3_alg».proof.Proof.KernelIdealData
import proofs.«429403_j7868380086953_3_alg».proof.Proof.KernelIdealHost
import Idealize.ShloMosaic.Lib.Pipeline.Regions
import Idealize.ShloMosaic.Lib.Pipeline.Frame

noncomputable section

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

variable (m : (ℓ : Loc nD τ sig) → Buf (Elt F) ℓ) (ρ : Dev nD → PrngReg)

/-! ## The launch: @main as a host stretch and the region -/

/-- The layout the launch needs of the kernel's own cells: scoped, distinct, and no staging cell. -/
theorem ownSemFacts : Pipeline.OwnSemFacts spec0 osem := by decide

/-- The launch element: the pipeline library's at the staging cells; no counter yet. -/
def u₀ : UC :=
  (initOf (Pipeline.cells (Pipeline.pin (pcfgs (F := F)) (adm m)) (cellOf_inj (adm m)))
    (Pipeline.launchToks (Pipeline.pin (pcfgs (F := F)) (adm m)) (cellOf_inj (adm m))), 1)

omit [FloatOps F] in
/-- The kernel's own cells at zero, listed. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1, 2, 3] (by decide) (by decide)

/-- No core owes another anything: no level is assigned. -/
abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- THE HOST STRETCH: the operations before the region, over the unscoped buffers. -/
def seg0 : Pipeline.HostSeg (Name := ℕ) (U := UC) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The unscoped buffers that are no window's array and that the proof names: the three arguments only the host
    stretch reads, the two caches, the table, the result. -/
def Hs : Finset (Ref sig .tc) := {main_arg0, main_arg2, main_arg3, main_arg4, main_arg5, main_arg6, main_v35}

theorem Hs_sub : Hs ⊆ Pipeline.restRefs sig spec0 := by decide

/-- Those seven, one by one. -/
theorem bigSep_Hs (Φ : Ref sig .tc → sProp 𝕄) :
    bigSep Hs Φ = iprop(Φ main_arg0 ∗ Φ main_arg2 ∗ Φ main_arg3 ∗ Φ main_arg4 ∗ Φ main_arg5 ∗ Φ main_arg6 ∗ Φ main_v35) := by
  unfold Hs
  rw [bigSep_insert (by decide), bigSep_insert (by decide), bigSep_insert (by decide), bigSep_insert (by decide),
    bigSep_insert (by decide), bigSep_insert (by decide), bigSep_singleton]
  rfl

/-- No host operation writes the table, the caches, the result or an argument: each reaches the region as launched. -/
theorem V_arg0 (c : Dev nD) : V m ρ c main_arg0 = m ((c : Thread nD τ).loc main_arg0) := after_arg0 (V₀ m ρ c)
theorem V_arg1 (c : Dev nD) : V m ρ c main_arg1 = m ((c : Thread nD τ).loc main_arg1) := after_arg1 (V₀ m ρ c)
theorem V_arg2 (c : Dev nD) : V m ρ c main_arg2 = m ((c : Thread nD τ).loc main_arg2) := after_arg2 (V₀ m ρ c)
theorem V_arg3 (c : Dev nD) : V m ρ c main_arg3 = m ((c : Thread nD τ).loc main_arg3) := after_arg3 (V₀ m ρ c)
theorem V_arg4 (c : Dev nD) : V m ρ c main_arg4 = m ((c : Thread nD τ).loc main_arg4) := after_arg4 (V₀ m ρ c)
theorem V_arg5 (c : Dev nD) : V m ρ c main_arg5 = m ((c : Thread nD τ).loc main_arg5) := after_arg5 (V₀ m ρ c)
theorem V_arg6 (c : Dev nD) : V m ρ c main_arg6 = m ((c : Thread nD τ).loc main_arg6) := after_arg6 (V₀ m ρ c)

/-- On the one device the table the body holds is the table the region read at its entry. -/
theorem tbl_eq (c : Dev nD) : tbl m ρ c = (adm m 0).1 0 := by
  obtain rfl : c = 0 := Subsingleton.elim _ _
  exact V_arg6 m ρ 0

/-- What the region leaves for the end: the windows' arrays at their final contents; the result at what the four
    points left, the table and the caches as launched; the three arguments that bypassed the region. -/
abbrev Yc (c : Dev nD) : sProp 𝕄 :=
  iprop(pt c (Memref.whole main_v35) (outAtN m ρ c (cfgA m).N) ∗ pt c (Memref.whole main_arg6) (tbl m ρ c)
    ∗ pt c (Memref.whole main_arg4) (ck m ρ c) ∗ pt c (Memref.whole main_arg5) (cv m ρ c))
abbrev Zc (c : Dev nD) : sProp 𝕄 :=
  iprop(pt c (Memref.whole main_arg0) (V m ρ c main_arg0) ∗ pt c (Memref.whole main_arg2) (V m ρ c main_arg2)
    ∗ pt c (Memref.whole main_arg3) (V m ρ c main_arg3))
abbrev Tₙ (c : Dev nD) : sProp 𝕄 :=
  iprop((dats m ρ 0 c).arrays ((dats m ρ 0 c).arrAt · (cfgA m).N) ∗ Yc m ρ c ∗ Zc m ρ c)

-- `iapply` of a launch lemma stated over the pinned configuration unifies only when unification may unfold plain
-- definitions in a metavariable's type
set_option backward.isDefEq.respectTransparency.types false in
/-- THE REGION: the launch kit's layout, the kernel's four cells, the body obligation; entered from what the host
    stretch left — the windows' arrays into the pipeline, the table read, the result, the caches and the cells into the
    invariant, three arguments bypassing —, left with the arrays at their final contents and the invariant's buffers. -/
def reg0 : Pipeline.RegionSeg (pcfgs (F := F)) (adm m) (dats m ρ) () defs₀ 𝒱₀ L lv 0 where
  win := (launch0 (F := F)).win.to₀
  block_pos := (launch0 (F := F)).block_pos
  stage_whole := (launch0 (F := F)).stage_whole
  K := Fin 4
  osem := osem
  ho := ownSemFacts
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(Tₙ m ρ c ∗ R c)
  X c := iprop(pt c (Memref.whole main_v35) (V m ρ c main_v35) ∗ pt c (Memref.whole main_arg4) (ck m ρ c)
    ∗ pt c (Memref.whole main_arg5) (cv m ρ c) ∗ sems0 c)
  Y c := Yc m ρ c
  Z c := Zc m ρ c
  hentry c := by
    rw [show StableHlo.held (c : Thread nD τ) (Pipeline.ucRefs τ sig) (StableHlo.after hostOps0 (V₀ m ρ c)) = unscopedBufs c (V m ρ c) from (Pipeline.unscopedBufs_held c _).symm,
      ownSems0_eq]
    have hrest : (Pipeline.unscopedRest (Ix := Unit) (Name := ℕ) (U := UC) (Lvl := ℕ) spec0 c (V m ρ c) : sProp 𝕄) = _ :=
      Pipeline.unscopedRest_sdiff (Val := Elt F) spec0 Hs Hs_sub c (V m ρ c)
    rw [bigSep_Hs] at hrest
    have hsplit := (Pipeline.arrays_of_unscopedBufs (pcfgs (F := F)) (adm m) (dats m ρ) (launch0 (F := F)).win (launch0 (F := F)).arr_whole c
      ((dats m ρ 0 c).share_full fun _ => rfl) (V m ρ c) fun _ => rfl).trans (sep_mono .rfl (Entails.of_eq hrest))
    iintro ⟨⟨Hub, HO⟩, Hos, -⟩
    ihave H := hsplit $$ Hub
    icases H with ⟨Ha, ⟨H0, H2, H3, H4, H5, H6, Ho⟩, -⟩
    imodintro
    isplitl [Ha]; · iexact Ha
    isplitl [H6]
    · unfold Pipeline.prefHeld
      rw [show (Finset.univ : Finset (Fin pre0.K)) = {0} from rfl, bigSep_singleton, ← tbl_eq m ρ c]
      iexact H6
    isplitl [HO]
    · unfold Pipeline.Dat.owesAt Pipeline.owesWithin
      icases HO with ⟨%W, HO⟩; iexists W; isplitr; · ipureintro; exact fun _ _ => Or.inl trivial
      iexact HO
    isplitl [Ho H4 H5 Hos]
    · isplitl [Ho]; · iexact Ho
      isplitl [H4]; · iexact H4
      isplitl [H5]; · iexact H5
      iexact Hos
    isplitl [H0]; · iexact H0
    isplitl [H2]; · iexact H2
    iexact H3
  hin c := by
    rw [show (dats m ρ 0 c).Φ 0 = Φc m ρ c 0 from rfl]; unfold Φc Pipeline.prefHeld
    rw [show (Finset.univ : Finset (Fin pre0.K)) = {0} from rfl, bigSep_singleton, ← tbl_eq m ρ c]
    iintro ⟨⟨Ho, H4, H5, Hos⟩, H6, -⟩
    isplitl [Ho]; · iexact Ho
    isplitl [H6]; · iexact H6
    isplitl [H4]; · iexact H4
    isplitl [H5]; · iexact H5
    iexact Hos
  hout c := by
    rw [ownSems0_eq, scopedRest0_eq, show (dats m ρ 0 c).Φ (Fin.last (cfgA m).N) = Φc m ρ c (cfgA m).N from rfl]; unfold Φc
    iintro ⟨Ho, H6, H4, H5, Hos⟩
    isplitl [Ho H6 H4 H5]
    · isplitl [Ho]; · iexact Ho
      isplitl [H6]; · iexact H6
      isplitl [H4]; · iexact H4
      iexact H5
    isplitl [Hos]; · iexact Hos
    iempintro
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-! ## The run -/

/-- What is read of the final memory on core `c`: the result at what the four points left, every argument as launched. -/
def QY (c : Dev nD) (s : MemSt nD τ sig (Elt F)) : Prop :=
  s.mem ((c : Thread nD τ).loc main_v35) = outAtN m ρ c (cfgA m).N
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

/-- @main as the list of the two. -/
abbrev segs : List (Pipeline.Seg (pcfgs (F := F)) (adm m) (dats m ρ) () defs₀ 𝒱₀ L lv) := [.host (seg0 m ρ), .region (reg0 m ρ)]

/-- Window 1's array is the argument with the new values: after the run it holds what it held at launch. -/
theorem finalA_1 (c : Dev nD) : (dats (F := F) m ρ 0 c).arrAt 1 (cfgA m).N = m ((c : Thread nD τ).loc main_arg1) :=
  ((dats (F := F) m ρ 0 c).arrAt_in 1 rfl _).trans (V_arg1 m ρ c)

set_option backward.isDefEq.respectTransparency.types false in
/-- From any memory with zero counters: every weakly fair execution of @main terminates, nothing faulting, and every
    final state has the result at what the four points left in it and every argument unchanged. -/
theorem run_main : θ_run defs (onTc (τ := τ) (main (F := F))) (s₀ m ρ) (fun r => ∀ c : Dev nD, QY m ρ c r.2) :=
  Pipeline.θ_run_regions_kit (pcfgs (F := F)) (adm m) (dats m ρ) () (cellOf_inj (adm m)) EP defs₀ 𝒱₀ L lv m ρ main (segs m ρ)
    (fun c Q => by rw [main_segs (adm m) (dats m ρ) () 𝒱₀ L lv (seg0 m ρ) (reg0 m ρ) rfl c])
    (by simp only [Pipeline.Seg.pipes_host, Pipeline.Seg.pipes_region, Pipeline.Seg.pipes_nil]; decide) (O₀ := 0) (hL := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := QY m ρ)
    (hfin := fun c s' => by
      dsimp only [Tₙ, Yc, Zc]
      rw [V_arg0, V_arg2, V_arg3, show tbl m ρ c = m ((c : Thread nD τ).loc main_arg6) from V_arg6 m ρ c,
        show ck m ρ c = m ((c : Thread nD τ).loc main_arg4) from V_arg4 m ρ c, show cv m ρ c = m ((c : Thread nD τ).loc main_arg5) from V_arg5 m ρ c]
      iintro ⟨⟨Ha, ⟨Ho, H6, H4, H5⟩, ⟨H0, H2, H3⟩⟩, HSI⟩
      icombine HSI Ho gives %ho
      icombine HSI H6 gives %h6
      icombine HSI H4 gives %h4
      icombine HSI H5 gives %h5
      icombine HSI H0 gives %h0
      icombine HSI H2 gives %h2
      icombine HSI H3 gives %h3
      ihave Hr := (Pipeline.arrays_read (pcfgs (F := F)) (adm m) (dats m ρ) (launch0 (F := F)).arr_whole c ((dats m ρ 0 c).share_full fun _ => rfl) _ s') $$ [Ha HSI]
      · isplitl [Ha] <;> iassumption
      icases Hr with ⟨%ha, HSI⟩
      imodintro
      isplitr
      · ipureintro
        exact ⟨Buf.eq_of_forall_mem_univ ho, Buf.eq_of_forall_mem_univ h0, (ha 1).trans (finalA_1 m ρ c), Buf.eq_of_forall_mem_univ h2,
          Buf.eq_of_forall_mem_univ h3, Buf.eq_of_forall_mem_univ h4, Buf.eq_of_forall_mem_univ h5, Buf.eq_of_forall_mem_univ h6⟩
      iexact HSI)
    (hQ := fun _ h => h)

end Cert.Proof.KernelIdealRun

end
-- ==== Proof.KernelIdealValue.lean ====
/-
  What the kernel body at one grid point leaves at each element of the result.

  The contents the run finds is a nest of sixteen guarded levels over the two bulk copies. Read at the element
  (s, b, l, h, d) of the 2 × 4 × 4096 × 32 × 128 result, at point b₀ = i 0:

  * a window of the result — a unit rectangle at offsets (s₀, b₀, l₀, 0, 0) of sizes 1 × 1 × 1 × 32 × 128 squeezed to
    32 × 128, or at (s₀, b₀, 0, 0, 0) of sizes 1 × 1 × 4096 × 32 × 128 squeezed to 4096 × 32 × 128 — places its element
    (h, d), respectively (l, h, d), at (s₀, b₀, l₀, h, d), respectively (s₀, b₀, l, h, d): squeezing keeps row-major
    positions and the rectangle adds its offsets. So a write through the window changes exactly the elements with
    those leading coordinates, to the payload's element, and leaves every other element as it was;
  * the two bulk copies therefore leave, at batch b₀, element (l, h, d) of batch b₀ of the cache of the element's half,
    and at another batch what was there;
  * level t + 1 writes, when word t of the table's row b₀ read signed lies in [0, 4096), row t of the staged block of
    each half onto row (word t) of batch b₀ of that half, over level t. So at batch b₀ the element is the new row's
    exactly when the word names row l, and level t's otherwise; at another batch it is level t's.

  Sixteen levels over the bulk copies are then the fold "take row t if word t names l, else keep", in the order of t,
  from the cache's element: `Rows.rows`.
-/
import proofs.«429403_j7868380086953_3_alg».proof.Proof.KernelIdealBody
import proofs.«429403_j7868380086953_3_alg».proof.Proof.KIGuards
import proofs.«429403_j7868380086953_3_alg».proof.Proof.Rows
import Idealize.ShloMosaic.Lib.ValueIdx
import Idealize.ShloMosaic.Lib.Pipeline.Value

noncomputable section

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The contents of the result array. -/
abbrev OutC (F : FTy → Type) : Type := (Memref.whole main_v35).view.ty.Contents (Elt F)

/-- The view of one row window (1 × 1 × 1 × 32 × 128 at `off`, squeezed to 32 × 128) of the result. -/
abbrev rowV (off : Fin 5 → Nat) (inb : ∀ a, off a + S1x1x1x32x128.size a ≤ S2x4x4096x32x128.size a)
    (hs) (hq : (Rect.unit (s := S2x4x4096x32x128) off S1x1x1x32x128.size inb).shape.Squeezes S32x128) :=
  (((Memref.whole main_v35).slice (Rect.unit off S1x1x1x32x128.size inb) hs).squeeze S32x128 hq).view

/-- Element (h, d) of the row window at (s, b, l, 0, 0) sits at (s, b, l, h, d). -/
theorem rowV_emb (s : Fin 2) (b : Fin 4) (l : Fin 4096) (off : Fin 5 → Nat) (hoff : off = ![s.val, b.val, l.val, 0, 0])
    (inb) (hs) (hq) (h : Fin 32) (d : Fin 128) :
    (rowV off inb hs hq).emb (ix2 h d) = ix5 s b l h d := by
  subst hoff
  have e : Shape.reshapeEquiv hq.numel_eq (ix2 h d) = (ix5 (0 : Fin 1) (0 : Fin 1) (0 : Fin 1) h d : S1x1x1x32x128.Idx) := by
    apply Shape.reshapeEquiv_eq_of_rowMajor
    rw [Shape.rowMajor_val_five, Shape.rowMajor_val_two]
    show ((((0:Nat) * 1 + 0) * 1 + 0) * 32 + h.val) * 128 + d.val = h.val * 128 + d.val
    omega
  show (Rect.unit (s := S2x4x4096x32x128) _ S1x1x1x32x128.size inb).emb (Shape.reshapeEquiv hq.numel_eq (ix2 h d)) = _
  rw [e]
  funext a
  apply Fin.ext
  rw [Rect.emb_apply]
  match a with
  | ⟨0, _⟩ => simp
  | ⟨1, _⟩ => simp
  | ⟨2, _⟩ => simp
  | ⟨3, _⟩ => simp
  | ⟨4, _⟩ => simp

/-- One row write, read at an element: the payload's element on the row written, the old contents elsewhere. -/
theorem rowWrite_apply (s₀ : Fin 2) (b₀ : Fin 4) (l₀ : Fin 4096) (off : Fin 5 → Nat) (hoff : off = ![s₀.val, b₀.val, l₀.val, 0, 0])
    (inb) (hs) (hq) (g : OutC F) (p : S32x128.Idx → Elt F .f32)
    (s : Fin 2) (b : Fin 4) (l : Fin 4096) (h : Fin 32) (d : Fin 128) :
    View.write (Elt F) (rowV off inb hs hq) g p Finset.univ (ix5 s b l h d)
      = if s = s₀ ∧ b = b₀ ∧ l = l₀ then p (ix2 h d) else g (ix5 s b l h d) := by
  by_cases hx : s = s₀ ∧ b = b₀ ∧ l = l₀
  · obtain ⟨rfl, rfl, rfl⟩ := hx
    rw [if_pos ⟨rfl, rfl, rfl⟩, ← rowV_emb s b l off hoff inb hs hq h d, View.write_emb_of_mem _ _ (Finset.mem_univ _)]
    exact cast_eq _ _
  · rw [if_neg hx]
    apply View.write_of_not_mem
    intro hm
    obtain ⟨y, -, hy⟩ := Finset.mem_map.mp hm
    have ey : (ix2 (y 0) (y 1) : S32x128.Idx) = y := (eq_ix2 (n0 := 32) (n1 := 128) y).symm
    have key : ix5 s₀ b₀ l₀ (y 0) (y 1) = ix5 s b l h d :=
      (rowV_emb s₀ b₀ l₀ off hoff inb hs hq (y 0) (y 1)).symm.trans ((congrArg (rowV off inb hs hq).emb ey).trans hy)
    apply hx
    have h0 := congrFun key 0
    have h1 := congrFun key 1
    have h2 := congrFun key 2
    exact ⟨h0.symm, h1.symm, h2.symm⟩

/-- The view of one bulk window (1 × 1 × 4096 × 32 × 128 at `off`, squeezed to 4096 × 32 × 128) of the result. -/
abbrev bulkV (off : Fin 5 → Nat) (inb : ∀ a, off a + S1x1x4096x32x128.size a ≤ S2x4x4096x32x128.size a)
    (hs) (hq : (Rect.unit (s := S2x4x4096x32x128) off S1x1x4096x32x128.size inb).shape.Squeezes S4096x32x128) :=
  (((Memref.whole main_v35).slice (Rect.unit off S1x1x4096x32x128.size inb) hs).squeeze S4096x32x128 hq).view

/-- Element (l, h, d) of the bulk window at (s, b, 0, 0, 0) sits at (s, b, l, h, d). -/
theorem bulkV_emb (s : Fin 2) (b : Fin 4) (off : Fin 5 → Nat) (hoff : off = ![s.val, b.val, 0, 0, 0])
    (inb) (hs) (hq) (l : Fin 4096) (h : Fin 32) (d : Fin 128) :
    (bulkV off inb hs hq).emb (ix3 l h d) = ix5 s b l h d := by
  subst hoff
  have e : Shape.reshapeEquiv hq.numel_eq (ix3 l h d) = (ix5 (0 : Fin 1) (0 : Fin 1) l h d : S1x1x4096x32x128.Idx) := by
    apply Shape.reshapeEquiv_eq_of_rowMajor
    rw [Shape.rowMajor_val_five, Shape.rowMajor_val_three]
    show ((((0:Nat) * 1 + 0) * 4096 + l.val) * 32 + h.val) * 128 + d.val = (l.val * 32 + h.val) * 128 + d.val
    omega
  show (Rect.unit (s := S2x4x4096x32x128) _ S1x1x4096x32x128.size inb).emb (Shape.reshapeEquiv hq.numel_eq (ix3 l h d)) = _
  rw [e]
  funext a
  apply Fin.ext
  rw [Rect.emb_apply]
  match a with
  | ⟨0, _⟩ => simp
  | ⟨1, _⟩ => simp
  | ⟨2, _⟩ => simp
  | ⟨3, _⟩ => simp
  | ⟨4, _⟩ => simp

/-- One bulk write, read at an element: the payload's element on the batch written, the old contents elsewhere. -/
theorem bulkWrite_apply (s₀ : Fin 2) (b₀ : Fin 4) (off : Fin 5 → Nat) (hoff : off = ![s₀.val, b₀.val, 0, 0, 0])
    (inb) (hs) (hq) (g : OutC F) (p : S4096x32x128.Idx → Elt F .f32)
    (s : Fin 2) (b : Fin 4) (l : Fin 4096) (h : Fin 32) (d : Fin 128) :
    View.write (Elt F) (bulkV off inb hs hq) g p Finset.univ (ix5 s b l h d)
      = if s = s₀ ∧ b = b₀ then p (ix3 l h d) else g (ix5 s b l h d) := by
  by_cases hx : s = s₀ ∧ b = b₀
  · obtain ⟨rfl, rfl⟩ := hx
    rw [if_pos ⟨rfl, rfl⟩, ← bulkV_emb s b off hoff inb hs hq l h d, View.write_emb_of_mem _ _ (Finset.mem_univ _)]
    exact cast_eq _ _
  · rw [if_neg hx]
    apply View.write_of_not_mem
    intro hm
    obtain ⟨y, -, hy⟩ := Finset.mem_map.mp hm
    have ey : (ix3 (y 0) (y 1) (y 2) : S4096x32x128.Idx) = y := (eq_ix3 (n0 := 4096) (n1 := 32) (n2 := 128) y).symm
    have key : ix5 s₀ b₀ (y 0) (y 1) (y 2) = ix5 s b l h d :=
      (bulkV_emb s₀ b₀ off hoff inb hs hq (y 0) (y 1) (y 2)).symm.trans ((congrArg (bulkV off inb hs hq).emb ey).trans hy)
    apply hx
    have h0 := congrFun key 0
    have h1 := congrFun key 1
    exact ⟨h0.symm, h1.symm⟩

/-- The grid coordinate, as the word the kernel makes of it, is the coordinate. -/
theorem coord_toNat (i : grid0.Coords) : (BitVec.ofNat 32 (i 0).val).toNat = (i 0).val := by
  have h : (i 0).val < 4 := (i 0).isLt
  rw [BitVec.toNat_ofNat]
  omega

/-- A word that names a row names one below 4096. -/
theorem hits_lt {v : BitVec 32} {l : Nat} (h : Cert.Proof.Rows.hits v l) : l < 4096 := by
  obtain ⟨h0, h1, e⟩ := h
  have hlt := v.isLt
  rw [BitVec.toInt_eq_toNat_cond] at h0 h1
  split at h0 <;> omega

/-- Row `t` of a staged block, read through its window (1 × 1 × 32 × 128 at (0, t, 0, 0), squeezed). -/
theorem stage_read (M : Memref sig .tc .vmem S1x16x32x128 .f32) (hM : M.IsWhole) (x : Vec F S1x16x32x128 .f32) (t : Fin 16)
    (off : Fin 4 → Nat) (hoff : off = ![0, t.val, 0, 0]) (inb) (hs) (hq) (h : Fin 32) (d : Fin 128) :
    View.read (Elt F) ((M.slice (Rect.unit off S1x1x32x128.size inb) hs).squeeze S32x128 hq).view (hM.unread x) (ix2 h d)
      = x (ix4 0 t h d) := by
  subst hoff
  have e : Shape.reshapeEquiv hq.numel_eq (ix2 h d) = (ix4 (0 : Fin 1) (0 : Fin 1) h d : S1x1x32x128.Idx) := by
    apply Shape.reshapeEquiv_eq_of_rowMajor
    rw [Shape.rowMajor_val_four, Shape.rowMajor_val_two]
    show (((0:Nat) * 1 + 0) * 32 + h.val) * 128 + d.val = h.val * 128 + d.val
    omega
  show M.view.read (Elt F) (hM.unread x) ((Rect.unit (s := S1x16x32x128) _ S1x1x32x128.size inb).emb (Shape.reshapeEquiv hq.numel_eq (ix2 h d))) = _
  rw [hM.read_unread, e]
  congr 1
  funext a
  apply Fin.ext
  rw [Rect.emb_apply]
  match a with
  | ⟨0, _⟩ => simp
  | ⟨1, _⟩ => simp
  | ⟨2, _⟩ => simp
  | ⟨3, _⟩ => simp

/-- Batch `b` of a cache, read through its window (1 × 4096 × 32 × 128 at (b, 0, 0, 0), squeezed). -/
theorem cache_read (i : grid0.Coords) (M : Memref sig .tc .hbm S4x4096x32x128 .f32) (f : M.view.ty.Contents (Elt F)) (b : Fin 4)
    (hb : b.val = (i 0).val) (off : Fin 4 → Nat) (hoff : off = ![(BitVec.ofNat 32 (i 0).val).toNat, 0, 0, 0]) (inb) (hs) (hq)
    (l : Fin 4096) (h : Fin 32) (d : Fin 128) :
    View.read (Elt F) ((M.slice (Rect.unit off S1x4096x32x128.size inb) hs).squeeze S4096x32x128 hq).view f (ix3 l h d)
      = M.view.read (Elt F) f (ix4 b l h d) := by
  subst hoff
  have e : Shape.reshapeEquiv hq.numel_eq (ix3 l h d) = (ix4 (0 : Fin 1) l h d : S1x4096x32x128.Idx) := by
    apply Shape.reshapeEquiv_eq_of_rowMajor
    rw [Shape.rowMajor_val_four, Shape.rowMajor_val_three]
    show (((0:Nat) * 4096 + l.val) * 32 + h.val) * 128 + d.val = (l.val * 32 + h.val) * 128 + d.val
    omega
  show M.view.read (Elt F) f ((Rect.unit (s := S4x4096x32x128) _ S1x4096x32x128.size inb).emb (Shape.reshapeEquiv hq.numel_eq (ix3 l h d))) = _
  rw [e]
  congr 1
  funext a
  apply Fin.ext
  rw [Rect.emb_apply]
  match a with
  | ⟨0, _⟩ => show (BitVec.ofNat 32 (i 0).val).toNat + 1 * 0 = b.val; rw [coord_toNat]; omega
  | ⟨1, _⟩ => simp
  | ⟨2, _⟩ => simp
  | ⟨3, _⟩ => simp

/-- The table's word at (b, t), read at the offsets the kernel computes at point b. -/
theorem word_read (c : Dev nD) (i : grid0.Coords) (fp : Bf (F := F) c (Memref.whole main_arg6)) (t : Fin 16) (b : Fin 4)
    (hb : b.val = (i 0).val) (off : Fin 2 → Nat) (hoff : off = ![(BitVec.ofNat 32 (i 0).val).toNat, t.val]) (inb) (hpos) :
    View.readAt (Elt F) (Memref.whole main_arg6).view (Rect.unit (s := S4x16) off S1x1.size inb).toLoadRect fp (Shape.Idx.first hpos)
      = fp (ix2 b t) := by
  subst hoff
  show fp ((Rect.unit (s := S4x16) _ S1x1.size inb).toLoadRect.idx (Shape.Idx.first hpos)) = fp (ix2 b t)
  congr 1
  funext a
  apply Fin.ext
  rw [LoadRect.idx_apply]
  match a with
  | ⟨0, _⟩ => show (BitVec.ofNat 32 (i 0).val).toNat + 1 * 0 = b.val; rw [coord_toNat]; omega
  | ⟨1, _⟩ => show t.val + 1 * 0 = t.val; omega

/-- The fold of the sixteen guarded writes, written out. -/
theorem rows_unroll {α : Type} (pos : Fin 16 → BitVec 32) (l : Nat) (new : Fin 16 → α) (old : α) :
    Cert.Proof.Rows.rows pos l new old
      = if Cert.Proof.Rows.hits (pos 15) l then new 15 else if Cert.Proof.Rows.hits (pos 14) l then new 14
        else if Cert.Proof.Rows.hits (pos 13) l then new 13 else if Cert.Proof.Rows.hits (pos 12) l then new 12
        else if Cert.Proof.Rows.hits (pos 11) l then new 11 else if Cert.Proof.Rows.hits (pos 10) l then new 10
        else if Cert.Proof.Rows.hits (pos 9) l then new 9 else if Cert.Proof.Rows.hits (pos 8) l then new 8
        else if Cert.Proof.Rows.hits (pos 7) l then new 7 else if Cert.Proof.Rows.hits (pos 6) l then new 6
        else if Cert.Proof.Rows.hits (pos 5) l then new 5 else if Cert.Proof.Rows.hits (pos 4) l then new 4
        else if Cert.Proof.Rows.hits (pos 3) l then new 3 else if Cert.Proof.Rows.hits (pos 2) l then new 2
        else if Cert.Proof.Rows.hits (pos 1) l then new 1 else if Cert.Proof.Rows.hits (pos 0) l then new 0 else old := by
  have e : List.finRange 16 = [0, 1, 2, 3, 4, 5, 6, 7, 8, 9, 10, 11, 12, 13, 14, 15] := by decide
  unfold Cert.Proof.Rows.rows
  rw [e]
  rfl

/-- One level of the nest, read at an element. The level writes, under its guard, row `v` of batch (i 0) in both
    halves over the previous level `g`; so at batch (i 0) the element is the new row's when the word names its row and
    the previous level's otherwise, and at another batch it is the previous level's. -/
theorem step_apply (i : grid0.Coords) (v : BitVec 32) (cnd : BitVec 1)
    (hcnd : ∀ l, (cnd = 1#1 ∧ v.toNat = l) ↔ Cert.Proof.Rows.hits v l)
    (g : OutC F) (p0 p1 : S32x128.Idx → Elt F .f32) (W : cnd = 1#1 → OutC F)
    (hW : ∀ hc, ∃ off0 inb0 hs0 hq0 off1 inb1 hs1 hq1,
      off0 = ![0, (BitVec.ofNat 32 (i 0).val).toNat, v.toNat, 0, 0] ∧ off1 = ![1, (BitVec.ofNat 32 (i 0).val).toNat, v.toNat, 0, 0] ∧
      W hc = View.write (Elt F) (rowV off1 inb1 hs1 hq1) (View.write (Elt F) (rowV off0 inb0 hs0 hq0) g p0 Finset.univ) p1 Finset.univ)
    (s : Fin 2) (b : Fin 4) (l : Fin 4096) (h : Fin 32) (d : Fin 128) (w : BitVec 32) (n0 n1 A E : Elt F .f32)
    (hv : b.val = (i 0).val → v = w) (hp0 : p0 (ix2 h d) = n0) (hp1 : p1 (ix2 h d) = n1)
    (hg : g (ix5 s b l h d) = if b.val = (i 0).val then A else E) :
    (if hc : cnd = 1#1 then W hc else g) (ix5 s b l h d)
      = if b.val = (i 0).val then (if Cert.Proof.Rows.hits w l.val then (if s = 0 then n0 else n1) else A) else E := by
  by_cases hc : cnd = 1#1
  · rw [dif_pos hc]
    obtain ⟨off0, inb0, hs0, hq0, off1, inb1, hs1, hq1, e0, e1, eW⟩ := hW hc
    rw [eW]
    have hlt : v.toNat < 4096 := hits_lt ((hcnd v.toNat).1 ⟨hc, rfl⟩)
    have hbi : ∀ b' : Fin 4, (b' = (⟨(BitVec.ofNat 32 (i 0).val).toNat, Cert.Proof.KIGuards.coord_lt i⟩ : Fin 4)) ↔ b'.val = (i 0).val := by
      intro b'
      rw [Fin.ext_iff]
      show b'.val = (BitVec.ofNat 32 (i 0).val).toNat ↔ _
      rw [coord_toNat]
    have hli : (l = (⟨v.toNat, hlt⟩ : Fin 4096)) ↔ Cert.Proof.Rows.hits v l.val := by
      rw [← hcnd l.val, Fin.ext_iff]
      exact ⟨fun e => ⟨hc, e.symm⟩, fun e => e.2.symm⟩
    rw [rowWrite_apply 1 ⟨(BitVec.ofNat 32 (i 0).val).toNat, Cert.Proof.KIGuards.coord_lt i⟩ ⟨v.toNat, hlt⟩ off1 e1,
      rowWrite_apply 0 ⟨(BitVec.ofNat 32 (i 0).val).toNat, Cert.Proof.KIGuards.coord_lt i⟩ ⟨v.toNat, hlt⟩ off0 e0, hp0, hp1, hg]
    simp only [hbi, hli]
    by_cases hb : b.val = (i 0).val
    · obtain rfl := hv hb
      simp only [hb, true_and, if_true]
      by_cases hl : Cert.Proof.Rows.hits v l.val
      · simp only [hl, and_true, if_true]
        by_cases hs : s = 0
        · subst hs
          simp
        · have hs1 : s = 1 := by omega
          subst hs1
          simp
      · simp only [hl, and_false, if_false]
    · simp only [hb, false_and, and_false, if_false]
  · rw [dif_neg hc, hg]
    by_cases hb : b.val = (i 0).val
    · obtain rfl := hv hb
      have hl : ¬ Cert.Proof.Rows.hits v l.val := fun hh => hc ((hcnd l.val).2 hh).1
      rw [if_pos hb, if_pos hb, if_neg hl]
    · rw [if_neg hb, if_neg hb]

/-- The two bulk writes, read at an element: at batch (i 0) the payload of the element's half, elsewhere the
    contents before. -/
theorem bulk_apply (i : grid0.Coords) (g : OutC F) (p0 p1 : S4096x32x128.Idx → Elt F .f32)
    (off0 : Fin 5 → Nat) (inb0) (hs0) (hq0) (off1 : Fin 5 → Nat) (inb1) (hs1) (hq1)
    (e0 : off0 = ![0, (BitVec.ofNat 32 (i 0).val).toNat, 0, 0, 0]) (e1 : off1 = ![1, (BitVec.ofNat 32 (i 0).val).toNat, 0, 0, 0])
    (s : Fin 2) (b : Fin 4) (l : Fin 4096) (h : Fin 32) (d : Fin 128) (n0 n1 : Elt F .f32)
    (hp0 : b.val = (i 0).val → p0 (ix3 l h d) = n0) (hp1 : b.val = (i 0).val → p1 (ix3 l h d) = n1) :
    View.write (Elt F) (bulkV off1 inb1 hs1 hq1) (View.write (Elt F) (bulkV off0 inb0 hs0 hq0) g p0 Finset.univ) p1 Finset.univ (ix5 s b l h d)
      = if b.val = (i 0).val then (if s = 0 then n0 else n1) else g (ix5 s b l h d) := by
  have hbi : ∀ b' : Fin 4, (b' = (⟨(BitVec.ofNat 32 (i 0).val).toNat, Cert.Proof.KIGuards.coord_lt i⟩ : Fin 4)) ↔ b'.val = (i 0).val := by
    intro b'
    rw [Fin.ext_iff]
    show b'.val = (BitVec.ofNat 32 (i 0).val).toNat ↔ _
    rw [coord_toNat]
  rw [bulkWrite_apply 1 ⟨(BitVec.ofNat 32 (i 0).val).toNat, Cert.Proof.KIGuards.coord_lt i⟩ off1 e1,
    bulkWrite_apply 0 ⟨(BitVec.ofNat 32 (i 0).val).toNat, Cert.Proof.KIGuards.coord_lt i⟩ off0 e0]
  simp only [hbi]
  by_cases hb : b.val = (i 0).val
  · rw [hp0 hb, hp1 hb]
    simp only [hb, and_true, if_true]
    by_cases hs : s = 0
    · subst hs
      simp
    · have hs1 : s = 1 := by omega
      subst hs1
      simp
  · simp only [hb, and_false, if_false]

/-- What the body at point `i` leaves at an element of the result: at batch (i 0), the sixteen guarded row writes
    over the cache's element; at another batch, what was there. -/
theorem bodyRun_apply (c : Dev nD) (i : grid0.Coords)
    (M2 : Memref sig .tc .vmem S1x16x32x128 .f32) (h2 : M2.IsWhole) (M3 : Memref sig .tc .vmem S1x16x32x128 .f32) (h3 : M3.IsWhole)
    (x2 x3 : Vec F S1x16x32x128 .f32)
    (fp : Bf (F := F) c (Memref.whole main_arg6)) (f4 : Bf (F := F) c (Memref.whole main_arg4)) (f5 : Bf (F := F) c (Memref.whole main_arg5))
    (fo : Bf (F := F) c (Memref.whole main_v35))
    (s : Fin 2) (b : Fin 4) (l : Fin 4096) (h : Fin 32) (d : Fin 128) :
    (bodyRun c i M2 h2 M3 h3 x2 x3 fp f4 f5 fo).1 (ix5 s b l h d)
      = if b.val = (i 0).val then
          Cert.Proof.Rows.rows (fun t => fp (ix2 b t)) l.val
            (fun t => if s = 0 then x2 (ix4 0 t h d) else x3 (ix4 0 t h d))
            (if s = 0 then f4 (ix4 b l h d) else f5 (ix4 b l h d))
        else fo (ix5 s b l h d) := by
  have L0 : bodyRun.sl.Ho_w1 c i f4 f5 fo (ix5 s b l h d)
      = if b.val = (i 0).val then (if s = 0 then f4 (ix4 b l h d) else f5 (ix4 b l h d)) else fo (ix5 s b l h d) :=
    bulk_apply i fo (bodyRun.sl.dma0 c i f4) (bodyRun.sl.dma0_1 c i f5) _ _ _ _ _ _ _ _ rfl rfl s b l h d _ _
      (fun hb => cache_read i (Memref.whole main_arg4) f4 b hb _ rfl _ _ _ l h d)
      (fun hb => cache_read i (Memref.whole main_arg5) f5 b hb _ rfl _ _ _ l h d)
  have L1 := step_apply i (bodyRun.sl.r c i fp) (k0_cond1 (bodyRun.sl.r c i fp)) (Cert.Proof.KIGuards.cond_hits_1 _)
    (bodyRun.sl.Ho_w1 c i f4 f5 fo) (bodyRun.sl.dma1 M2 h2 x2) (bodyRun.sl.dma1_1 M3 h3 x3)
    (fun hc => bodyRun.sl.Ho_w3 c i M2 h2 M3 h3 x2 x3 fp f4 f5 fo (Cert.Proof.KIGuards.chk_1 i) hc)
    (fun _ => ⟨_, _, _, _, _, _, _, _, rfl, rfl, rfl⟩) s b l h d (fp (ix2 b 0)) (x2 (ix4 0 0 h d)) (x3 (ix4 0 0 h d)) _ _
    (fun hb => word_read c i fp 0 b hb _ rfl _ _) (stage_read M2 h2 x2 0 _ rfl _ _ _ h d) (stage_read M3 h3 x3 0 _ rfl _ _ _ h d) L0
  have L2 := step_apply i (bodyRun.sl.r_1 c i fp) (k0_cond2 (bodyRun.sl.r_1 c i fp)) (Cert.Proof.KIGuards.cond_hits_2 _)
    _ (bodyRun.sl.dma2 M2 h2 x2) (bodyRun.sl.dma2_1 M3 h3 x3)
    (fun hc => bodyRun.sl.Ho_w5 c i M2 h2 M3 h3 x2 x3 fp f4 f5 fo (Cert.Proof.KIGuards.chk_1 i) (Cert.Proof.KIGuards.chk_2 i) hc)
    (fun _ => ⟨_, _, _, _, _, _, _, _, rfl, rfl, rfl⟩) s b l h d (fp (ix2 b 1)) (x2 (ix4 0 1 h d)) (x3 (ix4 0 1 h d)) _ _
    (fun hb => word_read c i fp 1 b hb _ rfl _ _) (stage_read M2 h2 x2 1 _ rfl _ _ _ h d) (stage_read M3 h3 x3 1 _ rfl _ _ _ h d) L1
  have L3 := step_apply i (bodyRun.sl.r_2 c i fp) (k0_cond3 (bodyRun.sl.r_2 c i fp)) (Cert.Proof.KIGuards.cond_hits_3 _)
    _ (bodyRun.sl.dma3 M2 h2 x2) (bodyRun.sl.dma3_1 M3 h3 x3)
    (fun hc => bodyRun.sl.Ho_w7 c i M2 h2 M3 h3 x2 x3 fp f4 f5 fo (Cert.Proof.KIGuards.chk_1 i) (Cert.Proof.KIGuards.chk_2 i) (Cert.Proof.KIGuards.chk_3 i) hc)
    (fun _ => ⟨_, _, _, _, _, _, _, _, rfl, rfl, rfl⟩) s b l h d (fp (ix2 b 2)) (x2 (ix4 0 2 h d)) (x3 (ix4 0 2 h d)) _ _
    (fun hb => word_read c i fp 2 b hb _ rfl _ _) (stage_read M2 h2 x2 2 _ rfl _ _ _ h d) (stage_read M3 h3 x3 2 _ rfl _ _ _ h d) L2
  have L4 := step_apply i (bodyRun.sl.r_3 c i fp) (k0_cond4 (bodyRun.sl.r_3 c i fp)) (Cert.Proof.KIGuards.cond_hits_4 _)
    _ (bodyRun.sl.dma4 M2 h2 x2) (bodyRun.sl.dma4_1 M3 h3 x3)
    (fun hc => bodyRun.sl.Ho_w9 c i M2 h2 M3 h3 x2 x3 fp f4 f5 fo (Cert.Proof.KIGuards.chk_1 i) (Cert.Proof.KIGuards.chk_2 i) (Cert.Proof.KIGuards.chk_3 i) (Cert.Proof.KIGuards.chk_4 i) hc)
    (fun _ => ⟨_, _, _, _, _, _, _, _, rfl, rfl, rfl⟩) s b l h d (fp (ix2 b 3)) (x2 (ix4 0 3 h d)) (x3 (ix4 0 3 h d)) _ _
    (fun hb => word_read c i fp 3 b hb _ rfl _ _) (stage_read M2 h2 x2 3 _ rfl _ _ _ h d) (stage_read M3 h3 x3 3 _ rfl _ _ _ h d) L3
  have L5 := step_apply i (bodyRun.sl.r_4 c i fp) (k0_cond5 (bodyRun.sl.r_4 c i fp)) (Cert.Proof.KIGuards.cond_hits_5 _)
    _ (bodyRun.sl.dma5 M2 h2 x2) (bodyRun.sl.dma5_1 M3 h3 x3)
    (fun hc => bodyRun.sl.Ho_w11 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) hc)
    (fun _ => ⟨_, _, _, _, _, _, _, _, rfl, rfl, rfl⟩) s b l h d (fp (ix2 b 4)) (x2 (ix4 0 4 h d)) (x3 (ix4 0 4 h d)) _ _
    (fun hb => word_read c i fp 4 b hb _ rfl _ _) (stage_read M2 h2 x2 4 _ rfl _ _ _ h d) (stage_read M3 h3 x3 4 _ rfl _ _ _ h d) L4
  have L6 := step_apply i (bodyRun.sl.r_5 c i fp) (k0_cond6 (bodyRun.sl.r_5 c i fp)) (Cert.Proof.KIGuards.cond_hits_6 _)
    _ (bodyRun.sl.dma6 M2 h2 x2) (bodyRun.sl.dma6_1 M3 h3 x3)
    (fun hc => bodyRun.sl.Ho_w13 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) hc)
    (fun _ => ⟨_, _, _, _, _, _, _, _, rfl, rfl, rfl⟩) s b l h d (fp (ix2 b 5)) (x2 (ix4 0 5 h d)) (x3 (ix4 0 5 h d)) _ _
    (fun hb => word_read c i fp 5 b hb _ rfl _ _) (stage_read M2 h2 x2 5 _ rfl _ _ _ h d) (stage_read M3 h3 x3 5 _ rfl _ _ _ h d) L5
  have L7 := step_apply i (bodyRun.sl.r_6 c i fp) (k0_cond7 (bodyRun.sl.r_6 c i fp)) (Cert.Proof.KIGuards.cond_hits_7 _)
    _ (bodyRun.sl.dma7 M2 h2 x2) (bodyRun.sl.dma7_1 M3 h3 x3)
    (fun hc => bodyRun.sl.Ho_w15 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) hc)
    (fun _ => ⟨_, _, _, _, _, _, _, _, rfl, rfl, rfl⟩) s b l h d (fp (ix2 b 6)) (x2 (ix4 0 6 h d)) (x3 (ix4 0 6 h d)) _ _
    (fun hb => word_read c i fp 6 b hb _ rfl _ _) (stage_read M2 h2 x2 6 _ rfl _ _ _ h d) (stage_read M3 h3 x3 6 _ rfl _ _ _ h d) L6
  have L8 := step_apply i (bodyRun.sl.r_7 c i fp) (k0_cond8 (bodyRun.sl.r_7 c i fp)) (Cert.Proof.KIGuards.cond_hits_8 _)
    _ (bodyRun.sl.dma8 M2 h2 x2) (bodyRun.sl.dma8_1 M3 h3 x3)
    (fun hc => bodyRun.sl.Ho_w17 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) hc)
    (fun _ => ⟨_, _, _, _, _, _, _, _, rfl, rfl, rfl⟩) s b l h d (fp (ix2 b 7)) (x2 (ix4 0 7 h d)) (x3 (ix4 0 7 h d)) _ _
    (fun hb => word_read c i fp 7 b hb _ rfl _ _) (stage_read M2 h2 x2 7 _ rfl _ _ _ h d) (stage_read M3 h3 x3 7 _ rfl _ _ _ h d) L7
  have L9 := step_apply i (bodyRun.sl.r_8 c i fp) (k0_cond9 (bodyRun.sl.r_8 c i fp)) (Cert.Proof.KIGuards.cond_hits_9 _)
    _ (bodyRun.sl.dma9 M2 h2 x2) (bodyRun.sl.dma9_1 M3 h3 x3)
    (fun hc => bodyRun.sl.Ho_w19 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) (Cert.Proof.KIGuards.chk_9 i) hc)
    (fun _ => ⟨_, _, _, _, _, _, _, _, rfl, rfl, rfl⟩) s b l h d (fp (ix2 b 8)) (x2 (ix4 0 8 h d)) (x3 (ix4 0 8 h d)) _ _
    (fun hb => word_read c i fp 8 b hb _ rfl _ _) (stage_read M2 h2 x2 8 _ rfl _ _ _ h d) (stage_read M3 h3 x3 8 _ rfl _ _ _ h d) L8
  have L10 := step_apply i (bodyRun.sl.r_9 c i fp) (k0_cond10 (bodyRun.sl.r_9 c i fp)) (Cert.Proof.KIGuards.cond_hits_10 _)
    _ (bodyRun.sl.dma10 M2 h2 x2) (bodyRun.sl.dma10_1 M3 h3 x3)
    (fun hc => bodyRun.sl.Ho_w21 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) (Cert.Proof.KIGuards.chk_9 i) (Cert.Proof.KIGuards.chk_10 i) hc)
    (fun _ => ⟨_, _, _, _, _, _, _, _, rfl, rfl, rfl⟩) s b l h d (fp (ix2 b 9)) (x2 (ix4 0 9 h d)) (x3 (ix4 0 9 h d)) _ _
    (fun hb => word_read c i fp 9 b hb _ rfl _ _) (stage_read M2 h2 x2 9 _ rfl _ _ _ h d) (stage_read M3 h3 x3 9 _ rfl _ _ _ h d) L9
  have L11 := step_apply i (bodyRun.sl.r_10 c i fp) (k0_cond11 (bodyRun.sl.r_10 c i fp)) (Cert.Proof.KIGuards.cond_hits_11 _)
    _ (bodyRun.sl.dma11 M2 h2 x2) (bodyRun.sl.dma11_1 M3 h3 x3)
    (fun hc => bodyRun.sl.Ho_w23 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) (Cert.Proof.KIGuards.chk_9 i) (Cert.Proof.KIGuards.chk_10 i) (Cert.Proof.KIGuards.chk_11 i) hc)
    (fun _ => ⟨_, _, _, _, _, _, _, _, rfl, rfl, rfl⟩) s b l h d (fp (ix2 b 10)) (x2 (ix4 0 10 h d)) (x3 (ix4 0 10 h d)) _ _
    (fun hb => word_read c i fp 10 b hb _ rfl _ _) (stage_read M2 h2 x2 10 _ rfl _ _ _ h d) (stage_read M3 h3 x3 10 _ rfl _ _ _ h d) L10
  have L12 := step_apply i (bodyRun.sl.r_11 c i fp) (k0_cond12 (bodyRun.sl.r_11 c i fp)) (Cert.Proof.KIGuards.cond_hits_12 _)
    _ (bodyRun.sl.dma12 M2 h2 x2) (bodyRun.sl.dma12_1 M3 h3 x3)
    (fun hc => bodyRun.sl.Ho_w25 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) (Cert.Proof.KIGuards.chk_9 i) (Cert.Proof.KIGuards.chk_10 i) (Cert.Proof.KIGuards.chk_11 i) (Cert.Proof.KIGuards.chk_12 i) hc)
    (fun _ => ⟨_, _, _, _, _, _, _, _, rfl, rfl, rfl⟩) s b l h d (fp (ix2 b 11)) (x2 (ix4 0 11 h d)) (x3 (ix4 0 11 h d)) _ _
    (fun hb => word_read c i fp 11 b hb _ rfl _ _) (stage_read M2 h2 x2 11 _ rfl _ _ _ h d) (stage_read M3 h3 x3 11 _ rfl _ _ _ h d) L11
  have L13 := step_apply i (bodyRun.sl.r_12 c i fp) (k0_cond13 (bodyRun.sl.r_12 c i fp)) (Cert.Proof.KIGuards.cond_hits_13 _)
    _ (bodyRun.sl.dma13 M2 h2 x2) (bodyRun.sl.dma13_1 M3 h3 x3)
    (fun hc => bodyRun.sl.Ho_w27 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) (Cert.Proof.KIGuards.chk_9 i) (Cert.Proof.KIGuards.chk_10 i) (Cert.Proof.KIGuards.chk_11 i) (Cert.Proof.KIGuards.chk_12 i) (Cert.Proof.KIGuards.chk_13 i) hc)
    (fun _ => ⟨_, _, _, _, _, _, _, _, rfl, rfl, rfl⟩) s b l h d (fp (ix2 b 12)) (x2 (ix4 0 12 h d)) (x3 (ix4 0 12 h d)) _ _
    (fun hb => word_read c i fp 12 b hb _ rfl _ _) (stage_read M2 h2 x2 12 _ rfl _ _ _ h d) (stage_read M3 h3 x3 12 _ rfl _ _ _ h d) L12
  have L14 := step_apply i (bodyRun.sl.r_13 c i fp) (k0_cond14 (bodyRun.sl.r_13 c i fp)) (Cert.Proof.KIGuards.cond_hits_14 _)
    _ (bodyRun.sl.dma14 M2 h2 x2) (bodyRun.sl.dma14_1 M3 h3 x3)
    (fun hc => bodyRun.sl.Ho_w29 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) (Cert.Proof.KIGuards.chk_9 i) (Cert.Proof.KIGuards.chk_10 i) (Cert.Proof.KIGuards.chk_11 i) (Cert.Proof.KIGuards.chk_12 i) (Cert.Proof.KIGuards.chk_13 i) (Cert.Proof.KIGuards.chk_14 i) hc)
    (fun _ => ⟨_, _, _, _, _, _, _, _, rfl, rfl, rfl⟩) s b l h d (fp (ix2 b 13)) (x2 (ix4 0 13 h d)) (x3 (ix4 0 13 h d)) _ _
    (fun hb => word_read c i fp 13 b hb _ rfl _ _) (stage_read M2 h2 x2 13 _ rfl _ _ _ h d) (stage_read M3 h3 x3 13 _ rfl _ _ _ h d) L13
  have L15 := step_apply i (bodyRun.sl.r_14 c i fp) (k0_cond15 (bodyRun.sl.r_14 c i fp)) (Cert.Proof.KIGuards.cond_hits_15 _)
    _ (bodyRun.sl.dma15 M2 h2 x2) (bodyRun.sl.dma15_1 M3 h3 x3)
    (fun hc => bodyRun.sl.Ho_w31 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) (Cert.Proof.KIGuards.chk_9 i) (Cert.Proof.KIGuards.chk_10 i) (Cert.Proof.KIGuards.chk_11 i) (Cert.Proof.KIGuards.chk_12 i) (Cert.Proof.KIGuards.chk_13 i) (Cert.Proof.KIGuards.chk_14 i) (Cert.Proof.KIGuards.chk_15 i) hc)
    (fun _ => ⟨_, _, _, _, _, _, _, _, rfl, rfl, rfl⟩) s b l h d (fp (ix2 b 14)) (x2 (ix4 0 14 h d)) (x3 (ix4 0 14 h d)) _ _
    (fun hb => word_read c i fp 14 b hb _ rfl _ _) (stage_read M2 h2 x2 14 _ rfl _ _ _ h d) (stage_read M3 h3 x3 14 _ rfl _ _ _ h d) L14
  have L16 := step_apply i (bodyRun.sl.r_15 c i fp) (k0_cond16 (bodyRun.sl.r_15 c i fp)) (Cert.Proof.KIGuards.cond_hits_16 _)
    _ (bodyRun.sl.dma16 M2 h2 x2) (bodyRun.sl.dma16_1 M3 h3 x3)
    (fun hc => bodyRun.sl.Ho_w33 c i M2 h2 M3 h3 x2 x3 fp f4 f5 fo (Cert.Proof.KIGuards.chk_1 i) (Cert.Proof.KIGuards.chk_2 i) (Cert.Proof.KIGuards.chk_3 i) (Cert.Proof.KIGuards.chk_4 i) (Cert.Proof.KIGuards.chk_5 i) (Cert.Proof.KIGuards.chk_6 i) (Cert.Proof.KIGuards.chk_7 i) (Cert.Proof.KIGuards.chk_8 i) (Cert.Proof.KIGuards.chk_9 i) (Cert.Proof.KIGuards.chk_10 i) (Cert.Proof.KIGuards.chk_11 i) (Cert.Proof.KIGuards.chk_12 i) (Cert.Proof.KIGuards.chk_13 i) (Cert.Proof.KIGuards.chk_14 i) (Cert.Proof.KIGuards.chk_15 i) (Cert.Proof.KIGuards.chk_16 i) hc)
    (fun _ => ⟨_, _, _, _, _, _, _, _, rfl, rfl, rfl⟩) s b l h d (fp (ix2 b 15)) (x2 (ix4 0 15 h d)) (x3 (ix4 0 15 h d)) _ _
    (fun hb => word_read c i fp 15 b hb _ rfl _ _) (stage_read M2 h2 x2 15 _ rfl _ _ _ h d) (stage_read M3 h3 x3 15 _ rfl _ _ _ h d) L15
  rw [rows_unroll]
  exact L16

end Cert.Proof.KernelIdealRun

end
-- ==== Proof.KernelIdealFinal.lean ====
/-
  The result after all four grid points, read at an element.

  Point t rewrites batch t of the result and keeps every other batch (the body's contents at an element of another
  batch is what was there), and at its own batch it leaves the sixteen-step fold over the cache's element, in which the
  previous contents does not occur. So after the four points batch b holds what point b left, whatever the launch's
  contents of the result were.

  What point t stages: a window's block at point t is the slab [t, 0:16, 0:32, 0:128] of its array (the block index
  is t on the batch axis and zero elsewhere, and an element of a block sits at block index × block size + its own
  coordinate), so row t' of the staged block is row t' of batch t of the array. Window 0's array holds the rotated
  keys when the region is entered, window 1's the new values as launched; the table and the two caches are as launched.
-/
import proofs.«429403_j7868380086953_3_alg».proof.Proof.KernelIdealData
import proofs.«429403_j7868380086953_3_alg».proof.Proof.KernelIdealHost
import proofs.«429403_j7868380086953_3_alg».proof.Proof.KernelIdealValue
import Idealize.ShloMosaic.Lib.ValueIdx
import Idealize.ShloMosaic.Lib.Pipeline.Value

noncomputable section

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-- Point `t` of the grid has coordinate `t`. -/
theorem coords_val : ∀ t : Fin grid0.N, ((grid0.coords t) 0).val = t.val := by decide

/-- Both windows' block index at a point is zero off the batch axis. -/
theorem tr_0_off : ∀ t : Fin grid0.N, ∀ a : Fin 4, a ≠ 0 → cc0_transform_0 (grid0.coords t) a = 0 := by decide
theorem tr_1_off : ∀ t : Fin grid0.N, ∀ a : Fin 4, a ≠ 0 → cc0_transform_1 (grid0.coords t) a = 0 := by decide

/-- The fold depends on its words, its new values and its old value only through their values. -/
theorem rows_congr {α : Type} {pos pos' : Fin 16 → BitVec 32} (l : Nat) {new new' : Fin 16 → α} {old old' : α}
    (hp : ∀ t, pos t = pos' t) (hn : ∀ t, new t = new' t) (ho : old = old') :
    Cert.Proof.Rows.rows pos l new old = Cert.Proof.Rows.rows pos' l new' old' := by
  obtain rfl := funext hp
  obtain rfl := funext hn
  obtain rfl := ho
  rfl

/-- Row `t'` of the block window 0 stages at point `t` is row `t'` of batch `t` of the rotated keys. -/
theorem stg0_apply (c : Dev nD) (t : Fin (cfgA m).N) (b : Fin 4) (hb : b.val = t.val) (t' : Fin 16) (h : Fin 32) (d : Fin 128) :
    stg m ρ c 0 t (ix4 0 t' h d) = V m ρ c main_v34 (ix4 b t' h d) := by
  have key : ∀ a : Fin 4, cc0_transform_0 (grid0.coords t) a * S1x16x32x128.size a + ((ix4 (0 : Fin 1) t' h d : S1x16x32x128.Idx) a).val
      = ((ix4 b t' h d : S4x16x32x128.Idx) a).val := by
    intro a
    match a with
    | ⟨0, _⟩ => show cc0_transform_0 (grid0.coords t) 0 * 1 + 0 = b.val; rw [tr_0 t]; omega
    | ⟨1, _⟩ => show cc0_transform_0 (grid0.coords t) 1 * 16 + t'.val = t'.val; rw [tr_0_off t 1 (by decide)]; omega
    | ⟨2, _⟩ => show cc0_transform_0 (grid0.coords t) 2 * 32 + h.val = h.val; rw [tr_0_off t 2 (by decide)]; omega
    | ⟨3, _⟩ => show cc0_transform_0 (grid0.coords t) 3 * 128 + d.val = d.val; rw [tr_0_off t 3 (by decide)]; omega
  show V m ρ c main_v34 ((((cfgA m).win 0).rect t).emb (ix4 0 t' h d)) = _
  congr 1
  funext a
  apply Fin.ext
  exact (Pipeline.Window.rect_emb_val _ t _ a).trans (key a)

/-- Row `t'` of the block window 1 stages at point `t` is row `t'` of batch `t` of the new values. -/
theorem stg1_apply (c : Dev nD) (t : Fin (cfgA m).N) (b : Fin 4) (hb : b.val = t.val) (t' : Fin 16) (h : Fin 32) (d : Fin 128) :
    stg m ρ c 1 t (ix4 0 t' h d) = V m ρ c main_arg1 (ix4 b t' h d) := by
  have key : ∀ a : Fin 4, cc0_transform_1 (grid0.coords t) a * S1x16x32x128.size a + ((ix4 (0 : Fin 1) t' h d : S1x16x32x128.Idx) a).val
      = ((ix4 b t' h d : S4x16x32x128.Idx) a).val := by
    intro a
    match a with
    | ⟨0, _⟩ => show cc0_transform_1 (grid0.coords t) 0 * 1 + 0 = b.val; rw [tr_1 t]; omega
    | ⟨1, _⟩ => show cc0_transform_1 (grid0.coords t) 1 * 16 + t'.val = t'.val; rw [tr_1_off t 1 (by decide)]; omega
    | ⟨2, _⟩ => show cc0_transform_1 (grid0.coords t) 2 * 32 + h.val = h.val; rw [tr_1_off t 2 (by decide)]; omega
    | ⟨3, _⟩ => show cc0_transform_1 (grid0.coords t) 3 * 128 + d.val = d.val; rw [tr_1_off t 3 (by decide)]; omega
  show V m ρ c main_arg1 ((((cfgA m).win 1).rect t).emb (ix4 0 t' h d)) = _
  congr 1
  funext a
  apply Fin.ext
  exact (Pipeline.Window.rect_emb_val _ t _ a).trans (key a)

/-- One point's effect, read at an element: point `n` rewrites batch `n` — to the sixteen-step fold over the cache's
    element, which does not mention what was there — and keeps every other batch. -/
theorem step_idx (c : Dev nD) (n : Nat) (hn : n < (cfgA m).N) (fo : Bf (F := F) c (Memref.whole main_v35))
    (s : Fin 2) (b : Fin 4) (l : Fin 4096) (h : Fin 32) (d : Fin 128) :
    step m ρ c ⟨n, hn⟩ fo (ix5 s b l h d)
      = if b.val = n then
          Cert.Proof.Rows.rows (fun t => m ((c : Thread nD τ).loc main_arg6) (ix2 b t)) l.val
            (fun t => if s = 0 then krot (m ((c : Thread nD τ).loc main_arg0)) (m ((c : Thread nD τ).loc main_arg2)) (m ((c : Thread nD τ).loc main_arg3)) (m ((c : Thread nD τ).loc main_arg6)) (ix4 b t h d)
                      else m ((c : Thread nD τ).loc main_arg1) (ix4 b t h d))
            (if s = 0 then m ((c : Thread nD τ).loc main_arg4) (ix4 b l h d) else m ((c : Thread nD τ).loc main_arg5) (ix4 b l h d))
        else fo (ix5 s b l h d) := by
  unfold step
  refine (bodyRun_apply c _ _ _ _ _ _ _ _ _ _ _ s b l h d).trans ?_
  rw [coords_val ⟨n, hn⟩]
  by_cases hb : b.val = n
  · rw [if_pos hb, if_pos hb]
    have e6 : tbl m ρ c = m ((c : Thread nD τ).loc main_arg6) := after_arg6 (V₀ m ρ c)
    have e4 : ck m ρ c = m ((c : Thread nD τ).loc main_arg4) := after_arg4 (V₀ m ρ c)
    have e5 : cv m ρ c = m ((c : Thread nD τ).loc main_arg5) := after_arg5 (V₀ m ρ c)
    have e1 : V m ρ c main_arg1 = m ((c : Thread nD τ).loc main_arg1) := after_arg1 (V₀ m ρ c)
    have ek : V m ρ c main_v34 = krot (m ((c : Thread nD τ).loc main_arg0)) (m ((c : Thread nD τ).loc main_arg2)) (m ((c : Thread nD τ).loc main_arg3)) (m ((c : Thread nD τ).loc main_arg6)) :=
      after_krot (V₀ m ρ c)
    refine rows_congr l.val (fun t => ?_) (fun t => ?_) ?_
    · rw [e6]
    · rw [stg0_apply m ρ c ⟨n, hn⟩ b hb t h d, stg1_apply m ρ c ⟨n, hn⟩ b hb t h d, ek, e1]
    · rw [e4, e5]
  · rw [if_neg hb, if_neg hb]

/-- The result after the four points, read at an element: batch `b` holds what point `b` left — the sixteen guarded
    row writes of batch `b`'s rotated keys (half 0) or new values (half 1) over the cache's element. -/
theorem outAt_final (m : (ℓ : Loc nD τ sig) → Buf (Elt F) ℓ) (ρ : Dev nD → PrngReg) (c : Dev nD)
    (s : Fin 2) (b : Fin 4) (l : Fin 4096) (h : Fin 32) (d : Fin 128) :
    outAtN m ρ c (cfgA m).N (ix5 s b l h d)
      = Cert.Proof.Rows.rows (fun t => m ((c : Thread nD τ).loc main_arg6) (ix2 b t)) l.val
          (fun t => if s = 0 then krot (m ((c : Thread nD τ).loc main_arg0)) (m ((c : Thread nD τ).loc main_arg2)) (m ((c : Thread nD τ).loc main_arg3)) (m ((c : Thread nD τ).loc main_arg6)) (ix4 b t h d)
                    else m ((c : Thread nD τ).loc main_arg1) (ix4 b t h d))
          (if s = 0 then m ((c : Thread nD τ).loc main_arg4) (ix4 b l h d) else m ((c : Thread nD τ).loc main_arg5) (ix4 b l h d)) := by
  have k0 : 0 < (cfgA m).N := by show 0 < 4; omega
  have k1 : 1 < (cfgA m).N := by show 1 < 4; omega
  have k2 : 2 < (cfgA m).N := by show 2 < 4; omega
  have k3 : 3 < (cfgA m).N := by show 3 < 4; omega
  have e4 : outAtN m ρ c (cfgA m).N = step m ρ c ⟨3, k3⟩ (outAtN m ρ c 3) := outAtN_succ m ρ c ⟨3, k3⟩
  have e3 : outAtN m ρ c 3 = step m ρ c ⟨2, k2⟩ (outAtN m ρ c 2) := outAtN_succ m ρ c ⟨2, k2⟩
  have e2 : outAtN m ρ c 2 = step m ρ c ⟨1, k1⟩ (outAtN m ρ c 1) := outAtN_succ m ρ c ⟨1, k1⟩
  have e1 : outAtN m ρ c 1 = step m ρ c ⟨0, k0⟩ (outAtN m ρ c 0) := outAtN_succ m ρ c ⟨0, k0⟩
  rw [e4, step_idx, e3, step_idx, e2, step_idx, e1, step_idx]
  have hb : b.val < 4 := b.isLt
  by_cases h3 : b.val = 3
  · rw [if_pos h3]
  · rw [if_neg h3]
    by_cases h2 : b.val = 2
    · rw [if_pos h2]
    · rw [if_neg h2]
      by_cases h1 : b.val = 1
      · rw [if_pos h1]
      · rw [if_neg h1]
        have h0 : b.val = 0 := by omega
        rw [if_pos h0]

end Cert.Proof.KernelIdealRun

end
-- ==== Proof.LibFoldLast.lean ====
/-
  Left folds of "take the new value if the step's test holds, else keep" over all of `Fin N` in increasing order.

  Such a fold returns the value of the LAST index whose test holds, or the start value when no test holds. Two folds of
  this kind, over `Fin N` and over `Fin M`, therefore agree as soon as the indices of the first whose test holds are
  exactly the images, under a strictly increasing map, of the indices of the second whose test holds, with equal values
  there. Also: a fold of steps on functions, each setting or leaving the value at one point, read at that point, is a
  fold of this kind.
-/
import Mathlib.Data.List.Range
import Mathlib.Order.Fin.Basic

namespace Cert.Proof.LibFoldLast

/-- A fold whose every step keeps the accumulator returns the start value. -/
theorem foldl_ite_eq_of_none {α ι : Type} (p : ι → Prop) [DecidablePred p] (v : ι → α) (a : α) (ns : List ι)
    (h : ∀ n ∈ ns, ¬ p n) : ns.foldl (fun acc n => if p n then v n else acc) a = a := by
  induction ns generalizing a with
  | nil => rfl
  | cons n ns ih =>
    rw [List.foldl_cons, if_neg (h n (List.mem_cons_self ..))]
    exact ih a fun m hm => h m (List.mem_cons_of_mem _ hm)

/-- Over all of `Fin N` in increasing order: when no test holds, the fold is the start value. -/
theorem foldl_finRange_eq_of_none {α : Type} {N : Nat} (p : Fin N → Prop) [DecidablePred p] (v : Fin N → α) (a : α)
    (h : ∀ n, ¬ p n) : (List.finRange N).foldl (fun acc n => if p n then v n else acc) a = a :=
  foldl_ite_eq_of_none p v a _ fun n _ => h n

/-- Over all of `Fin N` in increasing order: when the test holds at `n₀` and at no later index, the fold is the value
    at `n₀`. -/
theorem foldl_finRange_eq_of_last {α : Type} {N : Nat} (p : Fin N → Prop) [DecidablePred p] (v : Fin N → α) (a : α)
    (n₀ : Fin N) (h₀ : p n₀) (hlast : ∀ n, n₀ < n → ¬ p n) :
    (List.finRange N).foldl (fun acc n => if p n then v n else acc) a = v n₀ := by
  induction N with
  | zero => exact n₀.elim0
  | succ N ih =>
    rw [List.finRange_succ_last, List.foldl_append, List.foldl_map, List.foldl_cons, List.foldl_nil]
    induction n₀ using Fin.lastCases with
    | last => rw [if_pos h₀]
    | cast m =>
      rw [if_neg (hlast _ (Fin.castSucc_lt_last m))]
      exact ih (fun n => p n.castSucc) (fun n => v n.castSucc) m h₀ fun n hn => hlast _ (Fin.castSucc_lt_castSucc_iff.2 hn)

/-- A decidable test on `Fin N` holds nowhere, or has a last index at which it holds. -/
theorem none_or_last {N : Nat} (p : Fin N → Prop) [DecidablePred p] :
    (∀ n, ¬ p n) ∨ ∃ n₀, p n₀ ∧ ∀ n, n₀ < n → ¬ p n := by
  induction N with
  | zero => exact Or.inl fun n => n.elim0
  | succ N ih =>
    by_cases hl : p (Fin.last N)
    · exact Or.inr ⟨Fin.last N, hl, fun n hn => absurd (Fin.le_last n) (not_le.2 hn)⟩
    · rcases ih (fun n => p n.castSucc) with h | ⟨m, hm, hlast⟩
      · refine Or.inl fun n => ?_
        induction n using Fin.lastCases with
        | last => exact hl
        | cast k => exact h k
      · refine Or.inr ⟨m.castSucc, hm, fun n hn => ?_⟩
        induction n using Fin.lastCases with
        | last => exact hl
        | cast k => exact hlast k (Fin.castSucc_lt_castSucc_iff.1 hn)

/-- Two folds of "take the value if the test holds, else keep", over `Fin N` and over `Fin M` in increasing order and
    from one start value, agree when a strictly increasing `e : Fin M → Fin N` carries the second's test and values
    to the first's, and the first's test holds only on the range of `e`. -/
theorem foldl_finRange_transfer {α : Type} {N M : Nat} (p : Fin N → Prop) [DecidablePred p] (v : Fin N → α)
    (q : Fin M → Prop) [DecidablePred q] (w : Fin M → α) (e : Fin M → Fin N) (he : StrictMono e)
    (hq : ∀ m, q m → p (e m)) (hp : ∀ n, p n → ∃ m, e m = n ∧ q m) (hv : ∀ m, v (e m) = w m) (a : α) :
    (List.finRange N).foldl (fun acc n => if p n then v n else acc) a
      = (List.finRange M).foldl (fun acc m => if q m then w m else acc) a := by
  rcases none_or_last q with h | ⟨m₀, hm₀, hlast⟩
  · rw [foldl_finRange_eq_of_none q w a h, foldl_finRange_eq_of_none p v a]
    intro n hn
    obtain ⟨m, _, hm⟩ := hp n hn
    exact h m hm
  · rw [foldl_finRange_eq_of_last q w a m₀ hm₀ hlast, foldl_finRange_eq_of_last p v a (e m₀) (hq m₀ hm₀), hv]
    intro n hn hpn
    obtain ⟨m, rfl, hm⟩ := hp n hpn
    exact hlast m (he.lt_iff_lt.1 hn) hm

/-- A fold of steps on functions, read at one point `i'`: when each step `n` either sets the value at `i'` to `v n`
    (the steps with `p n`) or leaves the value at `i'` as it was (the others), the fold read at `i'` is the fold of "take
    `v n` if `p n`, else keep" on the value at `i'`. -/
theorem foldl_apply_eq_of_step {α ι κ : Type} (step : (κ → α) → ι → κ → α) (p : ι → Prop) [DecidablePred p]
    (v : ι → α) (i' : κ) (hhit : ∀ r n, p n → step r n i' = v n) (hmiss : ∀ r n, ¬ p n → step r n i' = r i')
    (x : κ → α) (ns : List ι) :
    (ns.foldl step x) i' = ns.foldl (fun acc n => if p n then v n else acc) (x i') := by
  induction ns generalizing x with
  | nil => rfl
  | cons n ns ih =>
    rw [List.foldl_cons, List.foldl_cons, ih]
    congr 1
    by_cases hn : p n
    · rw [if_pos hn]; exact hhit x n hn
    · rw [if_neg hn]; exact hmiss x n hn

/-- The two together: a fold of steps on functions over `Fin N` in increasing order, read at one point `i'`, where the
    steps with `p n` set the value at `i'` to `v n` and the others leave it, is the fold over `Fin M` of "take `w m` if
    `q m`, else keep" on the value at `i'`, when a strictly increasing `e : Fin M → Fin N` carries `q` and `w` to `p` and
    `v` and `p` holds only on the range of `e`. -/
theorem foldl_step_finRange_transfer {α κ : Type} {N M : Nat} (step : (κ → α) → Fin N → κ → α) (p : Fin N → Prop)
    (v : Fin N → α) (i' : κ) (hhit : ∀ r n, p n → step r n i' = v n) (hmiss : ∀ r n, ¬ p n → step r n i' = r i')
    (q : Fin M → Prop) [DecidablePred q] (w : Fin M → α) (e : Fin M → Fin N) (he : StrictMono e)
    (hq : ∀ m, q m → p (e m)) (hp : ∀ n, p n → ∃ m, e m = n ∧ q m) (hv : ∀ m, v (e m) = w m) (x : κ → α) :
    ((List.finRange N).foldl step x) i' = (List.finRange M).foldl (fun acc m => if q m then w m else acc) (x i') := by
  classical
  rw [foldl_apply_eq_of_step step p v i' hhit hmiss]
  exact foldl_finRange_transfer p v q w e he hq hp hv _

end Cert.Proof.LibFoldLast
-- ==== Proof.ScatterRows.lean ====
/-
  One element of the cache after the reference's scatter of sixteen new rows per batch.

  The scatter (operand f32[4,4096,32,128], indices i32[4,16,2], updates f32[4,16,32,128]; update window axes 2 and 3,
  inserted window axes 0 and 1, index components going to operand axes 0 and 1) sends update (b', t, h', d') to operand
  element (idx[b',t,0], idx[b',t,1], h', d') when both index components, read signed, are inside the operand, and drops
  it otherwise; the updates are applied in row-major order, each replacing the element it lands on. When the first
  component is always the batch number b' itself, the only updates that can land on operand element (b, l, h, d) are
  (b, t, h, d), t = 0, …, 15, in the order of t, and update t lands there exactly when idx[b,t,1] names row l. So the
  fold over all updates, read at (b, l, h, d), is the sixteen-step fold of guarded row writes.
-/
import proofs.«429403_j7868380086953_3_alg».proof.ReferenceIdeal
import proofs.«429403_j7868380086953_3_alg».proof.Proof.Rows
import proofs.«429403_j7868380086953_3_alg».proof.Proof.LibFoldLast
import Idealize.ShloMosaic.Lib.ValueIdx

namespace Cert.Proof.ScatterRows

open Cert.ReferenceIdeal Idealize.ShloMosaic Idealize.ShloMosaic.ValueIdx

/-- An update lands on operand index `i` exactly when, on every operand axis, its window's start plus its window
    coordinate is `i`'s coordinate: being inside the operand is then automatic, and outside it no index is named. -/
theorem resultIdx?_eq_some_iff {s si u : Shape} {w : Nat} (D : ScatterDims s si u) (j : u.Idx) (idx : IVec si w) (i : s.Idx) :
    D.resultIdx? j idx = some i ↔ ∀ a, D.start j idx a + (D.window j a : Int) = ((i a).val : Int) := by
  unfold ScatterDims.resultIdx?
  constructor
  · intro hr a
    split at hr
    · rename_i hc
      have hi := congrFun (Option.some.inj hr) a
      have hv := congrArg Fin.val hi
      simp only at hv
      have := (hc a).1
      omega
    · exact absurd hr (by simp)
  · intro hr
    have hc : ∀ a, 0 ≤ D.start j idx a + (D.window j a : Int) ∧ D.start j idx a + (D.window j a : Int) < s.size a := by
      intro a; rw [hr a]; have := (i a).isLt; omega
    rw [dif_pos hc]
    congr 1
    funext a
    apply Fin.ext
    show (D.start j idx a + (D.window j a : Int)).toNat = (i a).val
    rw [hr a]; rfl

/-- A statement about every axis of a rank-4 shape is the four statements. -/
theorem forall_axis4 {P : Fin 4 → Prop} : (∀ a, P a) ↔ P 0 ∧ P 1 ∧ P 2 ∧ P 3 :=
  ⟨fun hP => ⟨hP 0, hP 1, hP 2, hP 3⟩, fun ⟨h0, h1, h2, h3⟩ a =>
    match a with | ⟨0, _⟩ => h0 | ⟨1, _⟩ => h1 | ⟨2, _⟩ => h2 | ⟨3, _⟩ => h3⟩

/-- A batch number, as a 32-bit word read signed, is itself. -/
theorem toInt_ofNat_batch (k : Fin 4) : (BitVec.ofNat 32 k.val).toInt = (k.val : Int) := by
  have hk := k.isLt
  rw [BitVec.toInt_eq_toNat_cond, BitVec.toNat_ofNat, Nat.mod_eq_of_lt (by omega)]
  split <;> omega

/-- A position word, read signed, is the row number `l` (below 4096) exactly when it names row `l`. -/
theorem toInt_eq_iff_hits (p : BitVec 32) (l : Fin 4096) : p.toInt = (l.val : Int) ↔ Rows.hits p l.val := by
  have hl := l.isLt
  have hp := p.isLt
  have hc := BitVec.toInt_eq_toNat_cond p
  unfold Rows.hits
  split at hc <;> omega

section
variable [Cert.ReferenceIdeal.Facts]

/-- The scatter's dimension numbers. -/
abbrev dS : ScatterDims S4x4096x32x128 S4x16x2 S4x16x32x128 := scatter_S4x4096x32x128_S4x16x2_S4x16x32x128_23_01_01_2

variable (b' : Fin 4) (t : Fin 16) (h' : Fin 32) (d' : Fin 128) (idx : IVec S4x16x2 32)

/-- The window coordinates of update (b', t, h', d'): none on the two inserted axes, h' and d' on the other two. -/
theorem window0 : dS.window (ix4 b' t h' d') 0 = 0 := rfl
theorem window1 : dS.window (ix4 b' t h' d') 1 = 0 := rfl
theorem window2 : dS.window (ix4 b' t h' d') 2 = h'.val := rfl
theorem window3 : dS.window (ix4 b' t h' d') 3 = d'.val := rfl

/-- Where update (b', t, h', d') reads component `c` of its start index: at (b', t, c). -/
theorem siIdx0 : dS.siIdx (ix4 b' t h' d') ⟨0, (by decide : 0 < 2)⟩ = ix3 b' t (0 : Fin 2) := by
  funext a; match a with | ⟨0, _⟩ => rfl | ⟨1, _⟩ => rfl | ⟨2, _⟩ => rfl
theorem siIdx1 : dS.siIdx (ix4 b' t h' d') ⟨1, (by decide : 1 < 2)⟩ = ix3 b' t (1 : Fin 2) := by
  funext a; match a with | ⟨0, _⟩ => rfl | ⟨1, _⟩ => rfl | ⟨2, _⟩ => rfl

/-- The window's start for update (b', t, h', d'): the two index components, read signed, on axes 0 and 1; zero on the
    window axes. -/
theorem start0 : dS.start (ix4 b' t h' d') idx 0 = (idx (ix3 b' t (0 : Fin 2))).toInt :=
  congrArg (fun k => (idx k).toInt) (siIdx0 b' t h' d')
theorem start1 : dS.start (ix4 b' t h' d') idx 1 = (idx (ix3 b' t (1 : Fin 2))).toInt :=
  congrArg (fun k => (idx k).toInt) (siIdx1 b' t h' d')
theorem start2 : dS.start (ix4 b' t h' d') idx 2 = 0 := rfl
theorem start3 : dS.start (ix4 b' t h' d') idx 3 = 0 := rfl

/-- With the first index component the batch number: update (b', t, h', d') lands on operand element (b, l, h, d)
    exactly when b' = b, h' = h, d' = d and the position word idx[b',t,1] names row l. -/
theorem lands_iff (hb : ∀ (b : Fin 4) (t : Fin 16), idx (ix3 b t (0 : Fin 2)) = BitVec.ofNat 32 b.val)
    (b : Fin 4) (l : Fin 4096) (h : Fin 32) (d : Fin 128) :
    dS.resultIdx? (ix4 b' t h' d') idx = some (ix4 b l h d)
      ↔ b' = b ∧ h' = h ∧ d' = d ∧ Rows.hits (idx (ix3 b' t (1 : Fin 2))) l.val := by
  rw [resultIdx?_eq_some_iff]
  refine (forall_axis4 (P := fun a => dS.start (ix4 b' t h' d') idx a + (dS.window (ix4 b' t h' d') a : Int)
    = (((ix4 b l h d : S4x4096x32x128.Idx) a).val : Int))).trans ?_
  simp only [window0, window1, window2, window3, start0, start1, start2, start3, hb, toInt_ofNat_batch]
  show ((b'.val : Int) + ((0 : Nat) : Int) = (b.val : Int) ∧ (idx (ix3 b' t (1 : Fin 2))).toInt + ((0 : Nat) : Int) = (l.val : Int)
      ∧ (0 : Int) + (h'.val : Int) = (h.val : Int) ∧ (0 : Int) + (d'.val : Int) = (d.val : Int)) ↔ _
  rw [← toInt_eq_iff_hits, Fin.ext_iff, Fin.ext_iff, Fin.ext_iff]
  omega

/-- The row-major position of update (b, t, h, d) grows with t. -/
theorem pos_strictMono (b : Fin 4) (h : Fin 32) (d : Fin 128) :
    StrictMono fun t : Fin 16 => S4x16x32x128.rowMajor (ix4 b t h d) := by
  intro t₁ t₂ ht
  show (S4x16x32x128.rowMajor (ix4 b t₁ h d)).val < (S4x16x32x128.rowMajor (ix4 b t₂ h d)).val
  rw [Shape.rowMajor_val_four, Shape.rowMajor_val_four]
  have ht' : t₁.val < t₂.val := ht
  show ((b.val * 16 + t₁.val) * 32 + h.val) * 128 + d.val < ((b.val * 16 + t₂.val) * 32 + h.val) * 128 + d.val
  omega

end

open Cert.ReferenceIdeal Idealize.ShloMosaic Idealize.ShloMosaic.ValueIdx in
/-- The scatter's result at operand element (b, l, h, d), when the first index component is always the batch number:
    the sixteen guarded row writes `Rows.rows` of the position words idx[b,·,1] and the new values upd[b,·,h,d], made
    on the old element. -/
theorem scatter_rows [Cert.ReferenceIdeal.Facts] {α : Type} (x : S4x4096x32x128.Idx → α) (idx : IVec S4x16x2 32) (upd : S4x16x32x128.Idx → α)
    (hb : ∀ (b : Fin 4) (t : Fin 16), idx (ix3 b t (0 : Fin 2)) = BitVec.ofNat 32 b.val)
    (b : Fin 4) (l : Fin 4096) (h : Fin 32) (d : Fin 128) :
    Host.scatter scatter_S4x4096x32x128_S4x16x2_S4x16x32x128_23_01_01_2 (fun _ u => u) x idx upd (ix4 b l h d)
      = Cert.Proof.Rows.rows (fun t => idx (ix3 b t (1 : Fin 2))) l.val (fun t => upd (ix4 b t h d)) (x (ix4 b l h d)) := by
  unfold Host.scatter Cert.Proof.Rows.rows
  refine LibFoldLast.foldl_step_finRange_transfer _
    (fun n => scatter_S4x4096x32x128_S4x16x2_S4x16x32x128_23_01_01_2.resultIdx? (S4x16x32x128.rowMajor.symm n) idx = some (ix4 b l h d))
    (fun n => upd (S4x16x32x128.rowMajor.symm n)) (ix4 b l h d) ?_ ?_
    (fun t => Rows.hits (idx (ix3 b t (1 : Fin 2))) l.val) (fun t => upd (ix4 b t h d))
    (fun t => S4x16x32x128.rowMajor (ix4 b t h d)) (pos_strictMono b h d) ?_ ?_ ?_ x
  · intro r n hn
    simp only [hn]
    exact if_pos trivial
  · intro r n hn
    beta_reduce
    cases hr : scatter_S4x4096x32x128_S4x16x2_S4x16x32x128_23_01_01_2.resultIdx? (S4x16x32x128.rowMajor.symm n) idx with
    | none => rfl
    | some i =>
      have hne : ¬ (ix4 b l h d : S4x4096x32x128.Idx) = i := fun e => hn (by rw [hr, e])
      exact if_neg hne
  · intro t ht
    show dS.resultIdx? (S4x16x32x128.rowMajor.symm (S4x16x32x128.rowMajor (ix4 b t h d))) idx = some (ix4 b l h d)
    rw [Equiv.symm_apply_apply]
    exact (lands_iff b t h d idx hb b l h d).2 ⟨rfl, rfl, rfl, ht⟩
  · intro n hn
    obtain ⟨b', t, h', d', hj⟩ : ∃ (b' : Fin 4) (t : Fin 16) (h' : Fin 32) (d' : Fin 128),
        S4x16x32x128.rowMajor.symm n = ix4 b' t h' d' := ⟨_, _, _, _, eq_ix4 _⟩
    have hn' : dS.resultIdx? (S4x16x32x128.rowMajor.symm n) idx = some (ix4 b l h d) := hn
    rw [hj] at hn'
    obtain ⟨rfl, rfl, rfl, ht⟩ := (lands_iff b' t h' d' idx hb b l h d).1 hn'
    refine ⟨t, ?_, ht⟩
    show S4x16x32x128.rowMajor (ix4 b' t h' d') = n
    rw [← hj, Equiv.apply_symm_apply]
  · intro t
    show upd (S4x16x32x128.rowMajor.symm (S4x16x32x128.rowMajor (ix4 b t h d))) = upd (ix4 b t h d)
    rw [Equiv.symm_apply_apply]

end Cert.Proof.ScatterRows
-- ==== Proof.RefValue.lean ====
/-
  The reference program's result, read at one index.

  The program builds the scatter-index array from the positions (first component the batch number, second the position,
  each normalised by "add the extent if negative"), scatters the sixteen new rows per batch into each of the two caches,
  and stacks the two caches on a new leading axis. At index (s, b, l, h, d), with every position non-negative, the result
  is the sixteen guarded row writes of `Rows.rows`, made with the position words themselves on the old element of
  cache s.
-/
import proofs.«429403_j7868380086953_3_alg».proof.ReferenceIdeal
import proofs.«429403_j7868380086953_3_alg».proof.Proof.Rows
import proofs.«429403_j7868380086953_3_alg».proof.Proof.ScatterRows
import Idealize.ShloMosaic.Lib.ValueIdx
import Idealize.ShloMosaic.Lib.Pipeline.Value

noncomputable section

namespace Cert.Proof.RefValue

open Cert.ReferenceIdeal Cert.ReferenceIdeal.Facts₀ Idealize.ShloMosaic Idealize.ShloMosaic.ValueIdx

variable [Cert.ReferenceIdeal.Facts] {F : FTy → Type} [FloatOps F]

/-- The scatter-index array the program builds from the positions: component 0 the batch number, component 1 the
    position, both normalised. -/
def idxR (pos : IVec S4x16 32) : IVec S4x16x2 32 :=
  concatenate S4x16x2 2 [⟨S4x16x1, (broadcastInDim S4x16x1 ![0, 1] bcast_S4x16_S4x16x1_0_1 (broadcastInDim S4x16 ![0, 1] bcast_S4x1_S4x16_0_1 (select (cmpi .slt (broadcastInDim S4x1 ![0] bcast_S4_S4x1_0 (iotaInDim S4 32 0)) (broadcastInDim S4x1 ![] bcast_S_S4x1 (constantI S_ 32 0#32))) (addi (broadcastInDim S4x1 ![0] bcast_S4_S4x1_0 (iotaInDim S4 32 0)) (broadcastInDim S4x1 ![] bcast_S_S4x1 (constantI S_ 32 4#32))) (broadcastInDim S4x1 ![0] bcast_S4_S4x1_0 (iotaInDim S4 32 0)))))⟩, ⟨S4x16x1, (broadcastInDim S4x16x1 ![0, 1] bcast_S4x16_S4x16x1_0_1 (select (cmpi .slt pos (broadcastInDim S4x16 ![] bcast_S_S4x16 (constantI S_ 32 0#32))) (addi pos (broadcastInDim S4x16 ![] bcast_S_S4x16 (constantI S_ 32 4096#32))) pos))⟩] concatenates_S4x16x1_S4x16x1_S4x16x2_d2

/-- The program's result: the two caches after their scatters, stacked on a new leading axis. -/
def result (x4 x5 : FVec F S4x4096x32x128 .f32) (pos : IVec S4x16 32) (u0 u1 : FVec F S4x16x32x128 .f32) :
    FVec F S2x4x4096x32x128 .f32 :=
  concatenate S2x4x4096x32x128 0 [⟨S1x4x4096x32x128, (broadcastInDim S1x4x4096x32x128 ![1, 2, 3, 4] bcast_S4x4096x32x128_S1x4x4096x32x128_1_2_3_4 (Host.scatter scatter_S4x4096x32x128_S4x16x2_S4x16x32x128_23_01_01_2 (fun _ b => b) x4 (idxR pos) u0))⟩, ⟨S1x4x4096x32x128, (broadcastInDim S1x4x4096x32x128 ![1, 2, 3, 4] bcast_S4x4096x32x128_S1x4x4096x32x128_1_2_3_4 (Host.scatter scatter_S4x4096x32x128_S4x16x2_S4x16x32x128_23_01_01_2 (fun _ b => b) x5 (idxR pos) u1))⟩] concatenates_S1x4x4096x32x128_S1x4x4096x32x128_S2x4x4096x32x128_d0

/-- A batch number below 4 is not negative: its normalisation is itself. -/
theorem batch_norm (b : Fin 4) :
    Scalar.select (IntOp.cmpi .slt (BitVec.ofNat 32 b.val) 0#32) (IntOp.addi (BitVec.ofNat 32 b.val) 4#32) (BitVec.ofNat 32 b.val)
      = BitVec.ofNat 32 b.val := by
  revert b; decide

/-- A position word that is not negative is its own normalisation. -/
theorem pos_norm (p : BitVec 32) (hp : 0 ≤ p.toInt) :
    Scalar.select (IntOp.cmpi .slt p 0#32) (IntOp.addi p 4096#32) p = p := by
  have h0 : IntOp.cmpi .slt p 0#32 = 0#1 := by
    show BitVec.ofBool (p.slt 0#32) = 0#1
    have : p.slt 0#32 = false := by
      rw [BitVec.slt]; simp only [BitVec.toInt_zero, decide_eq_false_iff_not, not_lt]; exact hp
    rw [this]; rfl
  rw [h0]; exact select_zero _ _

/-- Component 0 of the scatter index of (b, t) is the batch number. -/
theorem idxR_zero (pos : IVec S4x16 32) (b : Fin 4) (t : Fin 16) : idxR pos (ix3 b t (0 : Fin 2)) = BitVec.ofNat 32 b.val := by
  unfold idxR
  refine (concatenate_pair_apply_left (t := S4x16x2) (s₁ := S4x16x1) (s₂ := S4x16x1) (2 : Fin 3) _ _ concatenates_S4x16x1_S4x16x1_S4x16x2_d2 (ix3 b t (0 : Fin 2)) rfl
    (ix3 b t (0 : Fin 1)) (fun a => match a with | ⟨0, _⟩ => rfl | ⟨1, _⟩ => rfl | ⟨2, _⟩ => rfl)).trans ?_
  exact batch_norm b

/-- Component 1 of the scatter index of (b, t) is the position word, when that is not negative. -/
theorem idxR_one (pos : IVec S4x16 32) (b : Fin 4) (t : Fin 16) (hp : 0 ≤ (pos (ix2 b t)).toInt) :
    idxR pos (ix3 b t (1 : Fin 2)) = pos (ix2 b t) := by
  unfold idxR
  refine (concatenate_pair_apply_right (t := S4x16x2) (s₁ := S4x16x1) (s₂ := S4x16x1) (2 : Fin 3) _ _ concatenates_S4x16x1_S4x16x1_S4x16x2_d2 (ix3 b t (1 : Fin 2)) rfl rfl
    (ix3 b t (0 : Fin 1)) (fun a ha => match a, ha with | ⟨0, _⟩, _ => rfl | ⟨1, _⟩, _ => rfl | ⟨2, _⟩, ha => absurd rfl ha) rfl).trans ?_
  refine (broadcastInDim_apply (s := S4x16) (t := S4x16x1) ![0, 1] bcast_S4x16_S4x16x1_0_1 _ (ix3 b t (0 : Fin 1)) (ix2 b t)
    (fun a => match a with | ⟨0, _⟩ => rfl | ⟨1, _⟩ => rfl)).trans ?_
  exact pos_norm _ hp

/-- One cache after its scatter, at (b, l, h, d): the sixteen guarded row writes at the position words. -/
theorem scatter_apply (x : FVec F S4x4096x32x128 .f32) (pos : IVec S4x16 32) (u : FVec F S4x16x32x128 .f32)
    (hpos : ∀ (b : Fin 4) (t : Fin 16), 0 ≤ (pos (ix2 b t)).toInt) (b : Fin 4) (l : Fin 4096) (h : Fin 32) (d : Fin 128) :
    Host.scatter scatter_S4x4096x32x128_S4x16x2_S4x16x32x128_23_01_01_2 (fun _ b => b) x (idxR pos) u (ix4 b l h d)
      = Cert.Proof.Rows.rows (fun t => pos (ix2 b t)) l.val (fun t => u (ix4 b t h d)) (x (ix4 b l h d)) := by
  rw [Cert.Proof.ScatterRows.scatter_rows x (idxR pos) u (idxR_zero pos) b l h d]
  congr 1
  funext t
  exact idxR_one pos b t (hpos b t)

/-- The program's result at (s, b, l, h, d), every position non-negative: the sixteen guarded row writes at the
    position words, with cache s's new rows, on cache s's old element. -/
theorem result_apply (x4 x5 : FVec F S4x4096x32x128 .f32) (pos : IVec S4x16 32) (u0 u1 : FVec F S4x16x32x128 .f32)
    (hpos : ∀ (b : Fin 4) (t : Fin 16), 0 ≤ (pos (ix2 b t)).toInt) (s : Fin 2) (b : Fin 4) (l : Fin 4096) (h : Fin 32) (d : Fin 128) :
    result x4 x5 pos u0 u1 (ix5 s b l h d)
      = Cert.Proof.Rows.rows (fun t => pos (ix2 b t)) l.val (fun t => if s = 0 then u0 (ix4 b t h d) else u1 (ix4 b t h d))
          (if s = 0 then x4 (ix4 b l h d) else x5 (ix4 b l h d)) := by
  unfold result
  match s with
  | ⟨0, _⟩ =>
    refine (concatenate_pair_apply_left (t := S2x4x4096x32x128) (s₁ := S1x4x4096x32x128) (s₂ := S1x4x4096x32x128) (0 : Fin 5) _ _ concatenates_S1x4x4096x32x128_S1x4x4096x32x128_S2x4x4096x32x128_d0
      (ix5 (0 : Fin 2) b l h d) rfl (ix5 (0 : Fin 1) b l h d)
      (fun a => match a with | ⟨0, _⟩ => rfl | ⟨1, _⟩ => rfl | ⟨2, _⟩ => rfl | ⟨3, _⟩ => rfl | ⟨4, _⟩ => rfl)).trans ?_
    refine (broadcastInDim_apply (s := S4x4096x32x128) (t := S1x4x4096x32x128) ![1, 2, 3, 4] bcast_S4x4096x32x128_S1x4x4096x32x128_1_2_3_4 _
      (ix5 (0 : Fin 1) b l h d) (ix4 b l h d) (fun a => match a with | ⟨0, _⟩ => rfl | ⟨1, _⟩ => rfl | ⟨2, _⟩ => rfl | ⟨3, _⟩ => rfl)).trans ?_
    exact scatter_apply x4 pos u0 hpos b l h d
  | ⟨1, _⟩ =>
    refine (concatenate_pair_apply_right (t := S2x4x4096x32x128) (s₁ := S1x4x4096x32x128) (s₂ := S1x4x4096x32x128) (0 : Fin 5) _ _ concatenates_S1x4x4096x32x128_S1x4x4096x32x128_S2x4x4096x32x128_d0
      (ix5 (1 : Fin 2) b l h d) rfl rfl (ix5 (0 : Fin 1) b l h d)
      (fun a ha => match a, ha with | ⟨0, _⟩, ha => absurd rfl ha | ⟨1, _⟩, _ => rfl | ⟨2, _⟩, _ => rfl | ⟨3, _⟩, _ => rfl | ⟨4, _⟩, _ => rfl)
      rfl).trans ?_
    refine (broadcastInDim_apply (s := S4x4096x32x128) (t := S1x4x4096x32x128) ![1, 2, 3, 4] bcast_S4x4096x32x128_S1x4x4096x32x128_1_2_3_4 _
      (ix5 (0 : Fin 1) b l h d) (ix4 b l h d) (fun a => match a with | ⟨0, _⟩ => rfl | ⟨1, _⟩ => rfl | ⟨2, _⟩ => rfl | ⟨3, _⟩ => rfl)).trans ?_
    exact scatter_apply x5 pos u1 hpos b l h d

end Cert.Proof.RefValue

end
-- ==== Proof.RefKrot.lean ====
/-
  The rotated new keys, over the reference program's names.

  The reference program computes the rotated new keys by the same operations over its own copies of the shapes and
  of the facts its operations cite. `krotR` is that array as one term over the four arguments; the two programs'
  shapes are the same literals and the facts are proofs, so it is the kernel program's `krot`.
-/
import proofs.«429403_j7868380086953_3_alg».proof.Proof.KernelIdealHost
import proofs.«429403_j7868380086953_3_alg».proof.ReferenceIdeal

noncomputable section

namespace Cert.Proof.RefKrot

open Cert.ReferenceIdeal Cert.ReferenceIdeal.Facts₀ Idealize.ShloMosaic

variable {F : FTy → Type} [FloatOps F]

section Krot

variable [Cert.ReferenceIdeal.Facts]

/-- The positions, a negative one wrapped by the table's 4096 rows. -/
def wrapped (a6 : IVec S4x16 32) : IVec S4x16 32 :=
  select (cmpi .slt a6 (broadcastInDim S4x16 ![] bcast_S_S4x16 (constantI S_ 32 0#32)))
    (addi a6 (broadcastInDim S4x16 ![] bcast_S_S4x16 (constantI S_ 32 4096#32))) a6

/-- A table's rows at the wrapped positions, laid along the 32 heads. -/
def rowsOf (a : FVec F S4096x64 .f32) (a6 : IVec S4x16 32) : FVec F S4x16x32x64 .f32 :=
  broadcastInDim S4x16x32x64 ![0, 1, 2, 3] bcast_S4x16x1x64_S4x16x32x64_0_1_2_3
    (broadcastInDim S4x16x1x64 ![0, 1, 3] bcast_S4x16x64_S4x16x1x64_0_1_3
      (Host.gather gather_S4096x64_S4x16x1_S4x16x64_2_0_n_n_0_2_164 a
        (broadcastInDim S4x16x1 ![0, 1] bcast_S4x16_S4x16x1_0_1 (wrapped a6))))

/-- The new keys' last axis as 64 pairs. -/
def pairs (a0 : FVec F S4x16x32x128 .f32) : FVec F S4x16x32x64x2 .f32 :=
  shapeCast S4x16x32x64x2 a0 shapeCasts_S4x16x32x128_S4x16x32x64x2

/-- The even members of the pairs. -/
def evens (a0 : FVec F S4x16x32x128 .f32) : FVec F S4x16x32x64 .f32 :=
  shapeCast S4x16x32x64 (extractStridedSlice S4x16x32x64x1 ![0, 0, 0, 0, 0] (pairs a0) slices_S4x16x32x64x2_S4x16x32x64x1_0_0_0_0_0)
    shapeCasts_S4x16x32x64x1_S4x16x32x64

/-- The odd members of the pairs. -/
def odds (a0 : FVec F S4x16x32x128 .f32) : FVec F S4x16x32x64 .f32 :=
  shapeCast S4x16x32x64 (extractStridedSlice S4x16x32x64x1 ![0, 0, 0, 0, 1] (pairs a0) slices_S4x16x32x64x2_S4x16x32x64x1_0_0_0_0_1)
    shapeCasts_S4x16x32x64x1_S4x16x32x64

/-- The rotated new keys: the pair (e, o) under (c, s) becomes (e·c − o·s, e·s + o·c). -/
def krotR (a0 : FVec F S4x16x32x128 .f32) (a2 a3 : FVec F S4096x64 .f32) (a6 : IVec S4x16 32) : FVec F S4x16x32x128 .f32 :=
  shapeCast S4x16x32x128
    (concatenate S4x16x32x64x2 4
      [⟨S4x16x32x64x1, broadcastInDim S4x16x32x64x1 ![0, 1, 2, 3] bcast_S4x16x32x64_S4x16x32x64x1_0_1_2_3
          (subf (mulf (evens a0) (rowsOf a2 a6)) (mulf (odds a0) (rowsOf a3 a6)))⟩,
       ⟨S4x16x32x64x1, broadcastInDim S4x16x32x64x1 ![0, 1, 2, 3] bcast_S4x16x32x64_S4x16x32x64x1_0_1_2_3
          (addf (mulf (evens a0) (rowsOf a3 a6)) (mulf (odds a0) (rowsOf a2 a6)))⟩]
      concatenates_S4x16x32x64x1_S4x16x32x64x1_S4x16x32x64x2_d4)
    shapeCasts_S4x16x32x64x2_S4x16x32x128

end Krot

/-- The reference program's rotated new keys are the kernel program's. -/
theorem krotR_eq [Cert.KernelIdeal.Facts] [Cert.ReferenceIdeal.Facts]
    (a0 : FVec F S4x16x32x128 .f32) (a2 a3 : FVec F S4096x64 .f32) (a6 : IVec S4x16 32) :
    krotR (F := F) a0 a2 a3 a6 = Cert.Proof.KernelIdealRun.krot a0 a2 a3 a6 := rfl

end Cert.Proof.RefKrot

end
-- ==== Proof.RefResult.lean ====
/-
  The reference run's result term, as the stacked pair of scattered caches.

  The composed term the run of the reference program states for its result is, subterm for subterm, `RefValue.result` of
  the two caches, the positions, the rotated new keys `RefKrot.krotR` of the new keys, the two tables and the positions,
  and the new values: the equation holds by unfolding the three definitions.
-/
import proofs.«429403_j7868380086953_3_alg».proof.Proof.RefRun
import proofs.«429403_j7868380086953_3_alg».proof.Proof.RefValue
import proofs.«429403_j7868380086953_3_alg».proof.Proof.RefKrot

noncomputable section

namespace Cert.Proof.RefResult

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatter Host.gather in
/-- The run's result term is `RefValue.result` at the launch contents of the arguments, its new keys the rotated ones. -/
theorem res_eq (m : (ℓ : Loc nD τ sig) → Buf (Elt F) ℓ) (c : Dev nD) :
    Cert.ReferenceIdeal.RunP.res_main_v69 m c
      = Cert.Proof.RefValue.result (m ((c.tc : Thread nD τ).loc main_arg4)) (m ((c.tc : Thread nD τ).loc main_arg5))
          (m ((c.tc : Thread nD τ).loc main_arg6))
          (Cert.Proof.RefKrot.krotR (m ((c.tc : Thread nD τ).loc main_arg0)) (m ((c.tc : Thread nD τ).loc main_arg2))
            (m ((c.tc : Thread nD τ).loc main_arg3)) (m ((c.tc : Thread nD τ).loc main_arg6)))
          (m ((c.tc : Thread nD τ).loc main_arg1)) := rfl

end Cert.Proof.RefResult

end
-- ==== Proof.PosNonneg.lean ====
/-
  The last conjunct of the precondition, read back: the predicate ends in `jnp.all(positions ≥ 0)`, a signed
  compare of every 32-bit position word against a broadcast zero, reduced by `and` over both axes from the
  initial value true, and conjoined (`and` of i1 scalars) after the six finiteness reductions. If the whole
  predicate is one, the last conjunct is one; a reduction by `and` into a single result that is one met a one at
  every entry; and the signed compare `w ≥ 0` being one says `0 ≤ w.toInt`.

  With it, the word fact used alongside: a word that is non-negative as a signed integer reads the same signed
  and unsigned.
-/
import proofs.«429403_j7868380086953_3_alg».proof.Pre_finite_inputs
import Idealize.ShloMosaic.Lib.ReduceAll
import Idealize.ShloMosaic.Lib.ValueIdx

namespace Cert.Proof.PosNonneg

open Cert.Pre_finite_inputs Idealize.ShloMosaic Idealize.ShloMosaic.ValueIdx

/-- The scalar shape has one index. -/
instance : Subsingleton S_.Idx := ⟨fun a b => funext fun d => d.elim0⟩

/-- If the precondition is all ones, every position word is non-negative as a signed integer. -/
theorem pos_nonneg {F : FTy → Type} [FloatOps F] [Cert.Pre_finite_inputs.Facts]
    (a0 a1 : FVec F S4x16x32x128 .f32) (a2 a3 : FVec F S4096x64 .f32) (a4 a5 : FVec F S4x4096x32x128 .f32) (a6 : IVec S4x16 32)
    (hpre : Cert.Pre_finite_inputs.fn (F := F) a0 a1 a2 a3 a4 a5 a6 = fun _ => 1#1)
    (b : Fin 4) (t : Fin 16) : 0 ≤ (a6 (ix2 b t)).toInt := by
  have h := congrFun hpre ValueIdx.ix0
  dsimp only [Cert.Pre_finite_inputs.fn, Cert.Pre_finite_inputs.fn_part1, andi] at h
  -- the outermost `and`: its right operand is the reduction of the compare
  have hlast := (IntOp.andi_eq_one.1 h).2
  -- every entry of the compared array is one
  have hentry := Host.reduce_andi_all _ _ _ _ _ hlast (ix2 b t)
  -- the entry is the signed compare of the position word against the broadcast zero
  have hcmp : IntOp.cmpi .sge (a6 (ix2 b t)) (0#32) = 1#1 := hentry
  have h0 : (0#32 : BitVec 32).toInt = 0 := by decide
  have := IntOp.cmpi_sge.1 hcmp
  rw [h0] at this
  exact this

/-- A word that is non-negative as a signed integer reads the same signed and unsigned. -/
theorem hits_iff_of_nonneg (p : BitVec 32) (hp : 0 ≤ p.toInt) : p.toInt = (p.toNat : Int) := by
  have hlt := p.isLt
  rw [BitVec.toInt_eq_toNat_cond] at hp ⊢
  split at hp
  · rename_i hc; rw [if_pos hc]
  · rename_i hc; exfalso; omega

end Cert.Proof.PosNonneg
-- ==== Proof.lean ====
/-
  The certificate's claim assembled.

  The kernel writes, per batch b, the cache's slab and then sixteen rows on top of it, row t onto the row its position
  word names when the word, read signed, lies in [0, 4096); the reference scatters the same sixteen rows per batch by a
  "set" scatter whose index is the position with a negative word wrapped by 4096. Under the precondition every position
  is non-negative, so the wrap is the identity; out-of-range positions are dropped by both; and of several writes to
  one row the later wins in both (the kernel's copies are made in the order of t and each is waited before the next,
  the model's scatter folds its updates in row-major order). Both sides are therefore, element by element, the same
  sixteen-step fold `Rows.rows` over the cache's value, with the same rotated keys (one host computation, shared
  verbatim by the two programs) and new values.

  The three frames: the kernel's two (word level and idealized) are the launch's run with the result dropped — they
  need nothing of the precondition, since a position outside the range skips its branch —, the reference's is its run
  with the result dropped. The ideal pass rewrote nothing, so `preserves` is trivial.
-/
import proofs.«429403_j7868380086953_3_alg».proof.Defs
import proofs.«429403_j7868380086953_3_alg».proof.Proof.Gen.Kernel
import proofs.«429403_j7868380086953_3_alg».proof.Proof.Gen.KernelIdeal
import proofs.«429403_j7868380086953_3_alg».proof.Proof.Gen.ReferenceIdeal
import proofs.«429403_j7868380086953_3_alg».proof.Proof.Gen.Pre_finite_inputs
import proofs.«429403_j7868380086953_3_alg».proof.Proof.KernelRun
import proofs.«429403_j7868380086953_3_alg».proof.Proof.KernelIdealRun
import proofs.«429403_j7868380086953_3_alg».proof.Proof.KernelIdealFinal
import proofs.«429403_j7868380086953_3_alg».proof.Proof.RefRun
import proofs.«429403_j7868380086953_3_alg».proof.Proof.RefResult
import proofs.«429403_j7868380086953_3_alg».proof.Proof.RefValue
import proofs.«429403_j7868380086953_3_alg».proof.Proof.RefKrot
import proofs.«429403_j7868380086953_3_alg».proof.Proof.PosNonneg
import Idealize.ShloMosaic.Adequacy
import Idealize.ShloMosaic.Init

noncomputable section

namespace Cert.Proof

open Idealize.ShloMosaic Idealize.SL.Sem Idealize.ShloMosaic.ValueIdx

/-- The word-level kernel's frame: its run, the result dropped. -/
theorem frame_k : Cert.frame_Kernel := fun m g _ =>
  (θ_run Cert.Kernel.defs _ _).mono (fun _ h c => (h c).2) (Cert.Proof.KernelRun.run_main (F := Bits) m g)

/-- The idealized kernel's frame, likewise. -/
theorem frame_ki : Cert.frame_KernelIdeal := fun m g _ =>
  (θ_run Cert.KernelIdeal.defs _ _).mono (fun _ h c => (h c).2) (Cert.Proof.KernelIdealRun.run_main (F := Ideal) m g)

/-- The reference's frame: its run, the result dropped. -/
theorem frame_r : Cert.frame_ReferenceIdeal := fun m g _ =>
  (θ_run Cert.ReferenceIdeal.defs _ _).mono (fun _ h c => (h c).2) (Cert.ReferenceIdeal.RunP.run (F := Ideal) m g)

/-- At `Ideal`, from memories agreeing on the arguments, both programs end with one result: element (s, b, l, h, d) is
    on both sides the sixteen-step fold over the cache's element — the kernel's by the four points' runs, the
    reference's by the scatter read at an index, its wrapped positions the positions themselves since none is
    negative. -/
theorem algebraic : Cert.algebraic_KernelIdeal_ReferenceIdeal := by
  intro m g m' g' hpre hagree
  refine ⟨fun c => Cert.Proof.KernelIdealRun.outAtN m g c (Cert.Proof.KernelIdealRun.cfgA m).N, ?_, ?_⟩
  · exact (θ_run Cert.KernelIdeal.defs _ _).mono (fun _ h c => h c) (Cert.Proof.KernelIdealRun.run_main (F := Ideal) m g)
  · refine (θ_run Cert.ReferenceIdeal.defs _ _).mono (fun _ h c => ⟨(h c).1.trans ?_, (h c).2⟩)
      (Cert.ReferenceIdeal.RunP.run (F := Ideal) m' g')
    obtain ⟨h0, h1, h2, h3, h4, h5, h6⟩ := hagree c
    rw [Cert.Proof.RefResult.res_eq, h0, h1, h2, h3, h4, h5, h6]
    funext j
    obtain ⟨s, b, l, h, d, rfl⟩ : ∃ (s : Fin 2) (b : Fin 4) (l : Fin 4096) (h : Fin 32) (d : Fin 128), j = ix5 s b l h d :=
      ⟨j 0, j 1, j 2, j 3, j 4, eq_ix5 j⟩
    rw [Cert.Proof.RefValue.result_apply _ _ _ _ _ (fun b t => Cert.Proof.PosNonneg.pos_nonneg _ _ _ _ _ _ _ (hpre c) b t)]
    show _ = Cert.Proof.KernelIdealRun.outAtN m g c (Cert.Proof.KernelIdealRun.cfgA m).N (ix5 s b l h d)
    rw [Cert.Proof.KernelIdealRun.outAt_final, Cert.Proof.RefKrot.krotR_eq]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
